-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x23 : Shape := ⟨2, ![100000, 23]⟩
abbrev S23x128 : Shape := ⟨2, ![23, 128]⟩
abbrev S128 : Shape := ⟨1, ![128]⟩
abbrev S128x64 : Shape := ⟨2, ![128, 64]⟩
abbrev S64 : Shape := ⟨1, ![64]⟩
abbrev S1600000 : Shape := ⟨1, ![1600000]⟩
abbrev S100000 : Shape := ⟨1, ![100000]⟩
abbrev S_ : Shape := ⟨0, ![]⟩

class Facts : Prop where
  bcast_S_S100000x23 : S_.BroadcastsInDim S100000x23 (![] : Fin 0 → Fin S100000x23.rank)
  reducesTo_S100000x23_S_d0_1 : S100000x23.ReducesTo [0, 1] S_
  h_S_ : 0 < S_.numel
  bcast_S_S23x128 : S_.BroadcastsInDim S23x128 (![] : Fin 0 → Fin S23x128.rank)
  reducesTo_S23x128_S_d0_1 : S23x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x23 .f32) (main_arg1 : FVec F S23x128 .f32) (main_arg2 : FVec F S128 .f32) (main_arg3 : FVec F S128x64 .f32) (main_arg4 : FVec F S64 .f32) (main_arg5 : IVec S1600000 32) (main_arg6 : IVec S1600000 32) (main_arg7 : IVec S100000 32) : IVec S_ 1 :=
  let main_v0 : FVec F S100000x23 .f32 := Host.absf main_arg0
  let main_cst : FVec F S_ .f32 := constant S_ .f32 0x7F800000#32
  let main_v1 : FVec F S100000x23 .f32 := broadcastInDim S100000x23 ![] bcast_S_S100000x23 main_cst
  let main_v2 : IVec S100000x23 1 := cmpf .olt main_v0 main_v1
  let main_c : IVec S_ 1 := constantI S_ 1 1#1
  let main_v3 : IVec S_ 1 := (fun x v => Host.reduce IntOp.andi x v reducesTo_S100000x23_S_d0_1 h_S_) main_v2 main_c
  let main_v4 : FVec F S23x128 .f32 := Host.absf main_arg1
  let main_cst_0 : FVec F S_ .f32 := constant S_ .f32 0x7F800000#32
  let main_v5 : FVec F S23x128 .f32 := broadcastInDim S23x128 ![] bcast_S_S23x128 main_cst_0
  let main_v6 : IVec S23x128 1 := cmpf .olt main_v4 main_v5
  let main_c_1 : IVec S_ 1 := constantI S_ 1 1#1
  let main_v7 : IVec S_ 1 := (fun x v => Host.reduce IntOp.andi x v reducesTo_S23x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_v13 main_v16
-- ==== Kernel.lean ====
abbrev S100000x23 : Shape := ⟨2, ![100000, 23]⟩
abbrev S23x128 : Shape := ⟨2, ![23, 128]⟩
abbrev S128 : Shape := ⟨1, ![128]⟩
abbrev S128x64 : Shape := ⟨2, ![128, 64]⟩
abbrev S64 : Shape := ⟨1, ![64]⟩
abbrev S1600000 : Shape := ⟨1, ![1600000]⟩
abbrev S100000 : Shape := ⟨1, ![100000]⟩
abbrev S_ : Shape := ⟨0, ![]⟩
abbrev S1600000x1 : Shape := ⟨2, ![1600000, 1]⟩
abbrev S100000x1 : Shape := ⟨2, ![100000, 1]⟩
abbrev S1600000x23 : Shape := ⟨2, ![1600000, 23]⟩
abbrev S1x128 : Shape := ⟨2, ![1, 128]⟩
abbrev S100000x64 : Shape := ⟨2, ![100000, 64]⟩
abbrev S5000x23 : Shape := ⟨2, ![5000, 23]⟩
abbrev S5000x64 : Shape := ⟨2, ![5000, 64]⟩
abbrev S5000x128 : Shape := ⟨2, ![5000, 128]⟩
abbrev S5000 : Shape := ⟨1, ![5000]⟩
abbrev S5000x1 : Shape := ⟨2, ![5000, 1]⟩
abbrev S1600000x64 : Shape := ⟨2, ![1600000, 64]⟩
abbrev S1x64 : Shape := ⟨2, ![1, 64]⟩
abbrev S64x64 : Shape := ⟨2, ![64, 64]⟩
abbrev S64x1 : Shape := ⟨2, ![64, 1]⟩

abbrev nBuf : Space → Nat
  | .hbm => 60
  | .vmem => 18
  | .smem => 0
  | _ => 0

abbrev bufTy : (tb : Table) → Fin (tcTables nBuf tb) → BufTy
  | .hbm, ⟨0, _⟩ => ⟨S100000x23, .f32⟩
  | .hbm, ⟨1, _⟩ => ⟨S23x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S1600000, .i32⟩
  | .hbm, ⟨6, _⟩ => ⟨S1600000, .i32⟩
  | .hbm, ⟨7, _⟩ => ⟨S100000, .i32⟩
  | .hbm, ⟨8, _⟩ => ⟨S_, .i32⟩
  | .hbm, ⟨9, _⟩ => ⟨S1600000, .i32⟩
  | .hbm, ⟨10, _⟩ => ⟨S_, .i32⟩
  | .hbm, ⟨11, _⟩ => ⟨S100000, .i32⟩
  | .hbm, ⟨12, _⟩ => ⟨S1600000x1, .i32⟩
  | .hbm, ⟨13, _⟩ => ⟨S100000, .i32⟩
  | .hbm, ⟨14, _⟩ => ⟨S100000, .f32⟩
  | .hbm, ⟨15, _⟩ => ⟨S100000x1, .f32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x23, .f32⟩
  | .hbm, ⟨25, _⟩ => ⟨S_, .f32⟩
  | .hbm, ⟨26, _⟩ => ⟨S100000x23, .f32⟩
  | .hbm, ⟨27, _⟩ => ⟨S1600000x1, .i32⟩
  | .hbm, ⟨28, _⟩ => ⟨S100000x23, .f32⟩
  | .hbm, ⟨29, _⟩ => ⟨S100000x23, .f32⟩
  | .hbm, ⟨30, _⟩ => ⟨S_, .f32⟩
  | .hbm, ⟨31, _⟩ => ⟨S100000x1, .f32⟩
  | .hbm, ⟨32, _⟩ => ⟨S100000x1, .f32⟩
  | .hbm, ⟨33, _⟩ => ⟨S100000x23, .f32⟩
  | .hbm, ⟨34, _⟩ => ⟨S100000x23, .f32⟩
  | .hbm, ⟨35, _⟩ => ⟨S1x128, .f32⟩
  | .hbm, ⟨36, _⟩ => ⟨S100000x64, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x64, .f32⟩
  | .hbm, ⟨46, _⟩ => ⟨S_, .f32⟩
  | .hbm, ⟨47, _⟩ => ⟨S100000x64, .f32⟩
  | .hbm, ⟨48, _⟩ => ⟨S1600000x1, .i32⟩
  | .hbm, ⟨49, _⟩ => ⟨S100000x64, .f32⟩
  | .hbm, ⟨50, _⟩ => ⟨S1x64, .f32⟩
  | .hbm, ⟨51, _⟩ => ⟨S100000x1, .i32⟩
  | .hbm, ⟨52, _⟩ => ⟨S64x64, .f32⟩
  | .hbm, ⟨53, _⟩ => ⟨S1x64, .f32⟩
  | .hbm, ⟨54, _⟩ => ⟨S64x1, .f32⟩
  | .hbm, ⟨55, _⟩ => ⟨S_, .f32⟩
  | .hbm, ⟨56, _⟩ => ⟨S64x1, .f32⟩
  | .hbm, ⟨57, _⟩ => ⟨S64x1, .f32⟩
  | .hbm, ⟨58, _⟩ => ⟨S64x64, .f32⟩
  | .hbm, ⟨59, _⟩ => ⟨S64x64, .f32⟩
  | .local _ .vmem, ⟨0, _⟩ => ⟨S5000x23, .f32⟩
  | .local _ .vmem, ⟨1, _⟩ => ⟨S5000x23, .f32⟩
  | .local _ .vmem, ⟨2, _⟩ => ⟨S23x128, .f32⟩
  | .local _ .vmem, ⟨3, _⟩ => ⟨S1x128, .f32⟩
  | .local _ .vmem, ⟨4, _⟩ => ⟨S128x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x1, .f32⟩
  | .local _ .vmem, ⟨12, _⟩ => ⟨S5000x1, .f32⟩
  | .local _ .vmem, ⟨13, _⟩ => ⟨S1x64, .f32⟩
  | .local _ .vmem, ⟨14, _⟩ => ⟨S5000x1, .i32⟩
  | .local _ .vmem, ⟨15, _⟩ => ⟨S5000x1, .i32⟩
  | .local _ .vmem, ⟨16, _⟩ => ⟨S64x64, .f32⟩
  | .local _ .vmem, ⟨17, _⟩ => ⟨S1x64, .f32⟩
  | _, _ => ⟨S100000x23, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_c_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c_1 : Ref sig .tc := ⟨.hbm, 16, rfl⟩
abbrev main_v6 : Ref sig .tc := ⟨.hbm, 17, rfl⟩
abbrev main_v7 : Ref sig .tc := ⟨.hbm, 18, rfl⟩
abbrev main_c_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35_0 : Ref sig .tc := ⟨.hbm, 52, rfl⟩
abbrev main_v35_1 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg6_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15
abbrev cc1_sem5_0 : DmaSem sig := 16
abbrev cc1_sem6_0 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x23 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S23x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x1 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x23 : S_.BroadcastsInDim S100000x23 (![] : Fin 0 → Fin S100000x23.rank)
  bcast_S_S100000x1 : S_.BroadcastsInDim S100000x1 (![] : Fin 0 → Fin S100000x1.rank)
  bcast_S100000x1_S100000x23_0_1 : S100000x1.BroadcastsInDim S100000x23 (![0, 1] : Fin 2 → Fin S100000x23.rank)
  shapeCasts_S128_S1x128 : S128.ShapeCasts S1x128
  inb_S5000x23_S5000x23_0_0 : ∀ a, (![0, 0] : Fin 2 → Nat) a + S5000x23.size a ≤ S5000x23.size a
  h_S5000x23 : 0 < S5000x23.numel
  shapeCasts_S5000x23_S5000x23 : S5000x23.ShapeCasts S5000x23
  inb_S23x128_S23x128_0_0 : ∀ a, (![0, 0] : Fin 2 → Nat) a + S23x128.size a ≤ S23x128.size a
  h_S23x128 : 0 < S23x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S64_S1x64 : S64.ShapeCasts S1x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  shapeCasts_S1x64_S1x64 : S1x64.ShapeCasts S1x64
  broadcasts_S1x64_S5000x64 : S1x64.Broadcasts S5000x64
  iota_S5000x64_d1_w32 : S5000x64.Iotas .tc 32 [1]
  natLt_1_32 : 1 < 32
  reduces_S5000x64_S64 : S5000x64.Reduces [0] S64
  shapeCasts_S64x64_S64x64 : S64x64.ShapeCasts S64x64
  shapeCasts_S1x64_S64x1 : S1x64.ShapeCasts S64x1
  bcast_S_S64x1 : S_.BroadcastsInDim S64x1 (![] : Fin 0 → Fin S64x1.rank)
  bcast_S64x1_S64x64_0_1 : S64x1.BroadcastsInDim S64x64 (![0, 1] : Fin 2 → Fin S64x64.rank)
  scatter_S100000_S1600000x1_S1600000_n_0_0_1_wf : ScatterDims.WF S100000 S1600000x1 S1600000 [] [0] [0] 1
  gather_S100000x23_S1600000x1_S1600000x23_1_0_n_n_0_1_123_wf : GatherDims.WF S100000x23 S1600000x1 S1600000x23 [1] [0] [] [0] [] 1 ![1, 23]
  scatter_S100000x23_S1600000x1_S1600000x23_1_0_0_1_wf : ScatterDims.WF S100000x23 S1600000x1 S1600000x23 [1] [0] [0] 1
  dot_S5000x23_S23x128_S5000x128_1_0_0_1_n_n_wf : DotDims.WF S5000x23 S23x128 S5000x128 [1] [0] [0] [1] [] []
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S5000x64_S64x64_0_0_1_1_n_n_wf : DotDims.WF S5000x64 S5000x64 S64x64 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x23.size a ≤ S100000x23.size a
  hwx0_0 : ∀ i : grid0.Coords, EltTy.bits .f32 = 32 ∨ (Rect.block (s := S100000x23) S5000x23.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S23x128.size a ≤ S23x128.size a
  hwx0_1 : ∀ i : grid0.Coords, EltTy.bits .f32 = 32 ∨ (Rect.block (s := S23x128) S23x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S100000x64.size a
  hwx0_4 : ∀ i : grid0.Coords, EltTy.bits .f32 = 32 ∨ (Rect.block (s := S100000x64) S5000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x1.size a ≤ S100000x1.size a
  hwx1_4 : ∀ i : grid1.Coords, EltTy.bits .i32 = 32 ∨ (Rect.block (s := S100000x1) S5000x1.size (cc1_transform_4 i) (hinb1_4 i)).WholeWords (EltTy.packing .i32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x23_S1600000x1_S1600000x23_1_0_n_n_0_1_123 : GatherDims S100000x23 S1600000x1 S1600000x23 where
  offsetDims := [1]
  collapsedSliceDims := [0]
  operandBatchingDims := []
  startIndicesBatchingDims := []
  startIndexMap := [0]
  indexVectorDim := 1
  sliceSizes := ![1, 23]
  wf := gather_S100000x23_S1600000x1_S1600000x23_1_0_n_n_0_1_123_wf
def scatter_S100000x23_S1600000x1_S1600000x23_1_0_0_1 : ScatterDims S100000x23 S1600000x1 S1600000x23 where
  updateWindowDims := [1]
  insertedWindowDims := [0]
  scatterDimsToOperandDims := [0]
  indexVectorDim := 1
  wf := scatter_S100000x23_S1600000x1_S1600000x23_1_0_0_1_wf
def dot_S5000x23_S23x128_S5000x128_1_0_0_1_n_n : DotDims S5000x23 S23x128 S5000x128 where
  lhsContracting := [1]
  rhsContracting := [0]
  lhsNonContracting := [0]
  rhsNonContracting := [1]
  lhsBatch := []
  rhsBatch := []
  wf := dot_S5000x23_S23x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S5000x64_S64x64_0_0_1_1_n_n : DotDims S5000x64 S5000x64 S64x64 where
  lhsContracting := [0]
  rhsContracting := [0]
  lhsNonContracting := [1]
  rhsNonContracting := [1]
  lhsBatch := []
  rhsBatch := []
  wf := dot_S5000x64_S5000x64_S64x64_0_0_1_1_n_n_wf

abbrev win0_0 : Pipeline.Window sig grid0 :=
  Pipeline.Window.ofSpec (Memref.whole main_v20) S5000x23.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S23x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v32) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v33) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S5000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v35_0) S64x64.size cc1_transform_5 reads1_5 true true 1 stage1_5 sem1_5
    hrank1 hreads1_5 hinb1_5 nbuf1_5 (Memref.isWhole_whole _) hwx1_5 hstage1_5

abbrev win1_6 : Pipeline.Window sig grid1 :=
  Pipeline.Window.ofSpec (Memref.whole main_v35_1) S1x64.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x23 : Shape := ⟨2, ![100000, 23]⟩
abbrev S23x128 : Shape := ⟨2, ![23, 128]⟩
abbrev S128 : Shape := ⟨1, ![128]⟩
abbrev S128x64 : Shape := ⟨2, ![128, 64]⟩
abbrev S64 : Shape := ⟨1, ![64]⟩
abbrev S1600000 : Shape := ⟨1, ![1600000]⟩
abbrev S100000 : Shape := ⟨1, ![100000]⟩
abbrev S_ : Shape := ⟨0, ![]⟩
abbrev S1600000x1 : Shape := ⟨2, ![1600000, 1]⟩
abbrev S1600000x23 : Shape := ⟨2, ![1600000, 23]⟩
abbrev S100000x1 : Shape := ⟨2, ![100000, 1]⟩
abbrev S100000x128 : Shape := ⟨2, ![100000, 128]⟩
abbrev S1x128 : Shape := ⟨2, ![1, 128]⟩
abbrev S1600000x128 : Shape := ⟨2, ![1600000, 128]⟩
abbrev S100000x64 : Shape := ⟨2, ![100000, 64]⟩
abbrev S1x64 : Shape := ⟨2, ![1, 64]⟩
abbrev S64x64 : Shape := ⟨2, ![64, 64]⟩
abbrev S64x1 : Shape := ⟨2, ![64, 1]⟩

abbrev nBuf : Space → Nat
  | .hbm => 97
  | .vmem => 0
  | .smem => 0
  | _ => 0

abbrev bufTy : (tb : Table) → Fin (tcTables nBuf tb) → BufTy
  | .hbm, ⟨0, _⟩ => ⟨S100000x23, .f32⟩
  | .hbm, ⟨1, _⟩ => ⟨S23x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S1600000, .i32⟩
  | .hbm, ⟨6, _⟩ => ⟨S1600000, .i32⟩
  | .hbm, ⟨7, _⟩ => ⟨S100000, .i32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x23, .f32⟩
  | .hbm, ⟨17, _⟩ => ⟨S_, .f32⟩
  | .hbm, ⟨18, _⟩ => ⟨S100000x23, .f32⟩
  | .hbm, ⟨19, _⟩ => ⟨S1600000x1, .i32⟩
  | .hbm, ⟨20, _⟩ => ⟨S100000x23, .f32⟩
  | .hbm, ⟨21, _⟩ => ⟨S_, .f32⟩
  | .hbm, ⟨22, _⟩ => ⟨S1600000, .f32⟩
  | .hbm, ⟨23, _⟩ => ⟨S_, .f32⟩
  | .hbm, ⟨24, _⟩ => ⟨S100000, .f32⟩
  | .hbm, ⟨25, _⟩ => ⟨S1600000x1, .i32⟩
  | .hbm, ⟨26, _⟩ => ⟨S100000, .f32⟩
  | .hbm, ⟨27, _⟩ => ⟨S100000x23, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x23, .f32⟩
  | .hbm, ⟨33, _⟩ => ⟨S100000x23, .f32⟩
  | .hbm, ⟨34, _⟩ => ⟨S100000x128, .f32⟩
  | .hbm, ⟨35, _⟩ => ⟨S1x128, .f32⟩
  | .hbm, ⟨36, _⟩ => ⟨S100000x128, .f32⟩
  | .hbm, ⟨37, _⟩ => ⟨S100000x128, .f32⟩
  | .hbm, ⟨38, _⟩ => ⟨S_, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S_, .f32⟩
  | .hbm, ⟨43, _⟩ => ⟨S100000, .f32⟩
  | .hbm, ⟨44, _⟩ => ⟨S100000x1, .f32⟩
  | .hbm, ⟨45, _⟩ => ⟨S100000x1, .f32⟩
  | .hbm, ⟨46, _⟩ => ⟨S_, .f32⟩
  | .hbm, ⟨47, _⟩ => ⟨S100000x1, .f32⟩
  | .hbm, ⟨48, _⟩ => ⟨S100000x1, .f32⟩
  | .hbm, ⟨49, _⟩ => ⟨S100000x128, .f32⟩
  | .hbm, ⟨50, _⟩ => ⟨S100000x128, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x128, .f32⟩
  | .hbm, ⟨60, _⟩ => ⟨S_, .f32⟩
  | .hbm, ⟨61, _⟩ => ⟨S100000x128, .f32⟩
  | .hbm, ⟨62, _⟩ => ⟨S1600000x1, .i32⟩
  | .hbm, ⟨63, _⟩ => ⟨S100000x128, .f32⟩
  | .hbm, ⟨64, _⟩ => ⟨S_, .f32⟩
  | .hbm, ⟨65, _⟩ => ⟨S1600000, .f32⟩
  | .hbm, ⟨66, _⟩ => ⟨S_, .f32⟩
  | .hbm, ⟨67, _⟩ => ⟨S100000, .f32⟩
  | .hbm, ⟨68, _⟩ => ⟨S1600000x1, .i32⟩
  | .hbm, ⟨69, _⟩ => ⟨S100000, .f32⟩
  | .hbm, ⟨70, _⟩ => ⟨S100000x128, .f32⟩
  | .hbm, ⟨71, _⟩ => ⟨S_, .f32⟩
  | .hbm, ⟨72, _⟩ => ⟨S100000, .f32⟩
  | .hbm, ⟨73, _⟩ => ⟨S100000, .f32⟩
  | .hbm, ⟨74, _⟩ => ⟨S100000x1, .f32⟩
  | .hbm, ⟨75, _⟩ => ⟨S100000x128, .f32⟩
  | .hbm, ⟨76, _⟩ => ⟨S100000x128, .f32⟩
  | .hbm, ⟨77, _⟩ => ⟨S100000x64, .f32⟩
  | .hbm, ⟨78, _⟩ => ⟨S1x64, .f32⟩
  | .hbm, ⟨79, _⟩ => ⟨S100000x64, .f32⟩
  | .hbm, ⟨80, _⟩ => ⟨S100000x64, .f32⟩
  | .hbm, ⟨81, _⟩ => ⟨S_, .f32⟩
  | .hbm, ⟨82, _⟩ => ⟨S64x64, .f32⟩
  | .hbm, ⟨83, _⟩ => ⟨S100000x1, .i32⟩
  | .hbm, ⟨84, _⟩ => ⟨S64x64, .f32⟩
  | .hbm, ⟨85, _⟩ => ⟨S_, .f32⟩
  | .hbm, ⟨86, _⟩ => ⟨S100000, .f32⟩
  | .hbm, ⟨87, _⟩ => ⟨S_, .f32⟩
  | .hbm, ⟨88, _⟩ => ⟨S64, .f32⟩
  | .hbm, ⟨89, _⟩ => ⟨S100000x1, .i32⟩
  | .hbm, ⟨90, _⟩ => ⟨S64, .f32⟩
  | .hbm, ⟨91, _⟩ => ⟨S_, .f32⟩
  | .hbm, ⟨92, _⟩ => ⟨S64, .f32⟩
  | .hbm, ⟨93, _⟩ => ⟨S64, .f32⟩
  | .hbm, ⟨94, _⟩ => ⟨S64x1, .f32⟩
  | .hbm, ⟨95, _⟩ => ⟨S64x64, .f32⟩
  | .hbm, ⟨96, _⟩ => ⟨S64x64, .f32⟩
  | _, _ => ⟨S100000x23, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_call0_cst : Ref sig .tc := ⟨.hbm, 38, rfl⟩
abbrev main_call0_v0 : Ref sig .tc := ⟨.hbm, 39, rfl⟩
abbrev main_v24 : Ref sig .tc := ⟨.hbm, 40, rfl⟩
abbrev main_call1_v0 : Ref sig .tc := ⟨.hbm, 41, rfl⟩
abbrev main_call1_cst : Ref sig .tc := ⟨.hbm, 42, rfl⟩
abbrev main_call1_v1 : Ref sig .tc := ⟨.hbm, 43, rfl⟩
abbrev main_call1_v2 : Ref sig .tc := ⟨.hbm, 44, rfl⟩
abbrev main_v25 : Ref sig .tc := ⟨.hbm, 45, rfl⟩
abbrev main_cst_4 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_5 : Ref sig .tc := ⟨.hbm, 51, rfl⟩
abbrev main_v30 : Ref sig .tc := ⟨.hbm, 52, rfl⟩
abbrev main_v31 : Ref sig .tc := ⟨.hbm, 53, rfl⟩
abbrev main_c_6 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_7 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_8 : Ref sig .tc := ⟨.hbm, 64, rfl⟩
abbrev main_v40 : Ref sig .tc := ⟨.hbm, 65, rfl⟩
abbrev main_cst_9 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_10 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_11 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_12 : Ref sig .tc := ⟨.hbm, 85, rfl⟩
abbrev main_v57 : Ref sig .tc := ⟨.hbm, 86, rfl⟩
abbrev main_cst_13 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_14 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x23 : S_.BroadcastsInDim S100000x23 (![] : Fin 0 → Fin S100000x23.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x23_0_1 : S100000x1.BroadcastsInDim S100000x23 (![0, 1] : Fin 2 → Fin S100000x23.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64x64 : S_.BroadcastsInDim S64x64 (![] : Fin 0 → Fin S64x64.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  gather_S100000x23_S1600000x1_S1600000x23_1_0_n_n_0_1_123_wf : GatherDims.WF S100000x23 S1600000x1 S1600000x23 [1] [0] [] [0] [] 1 ![1, 23]
  scatter_S100000x23_S1600000x1_S1600000x23_1_0_0_1_wf : ScatterDims.WF S100000x23 S1600000x1 S1600000x23 [1] [0] [0] 1
  scatter_S100000_S1600000x1_S1600000_n_0_0_1_wf : ScatterDims.WF S100000 S1600000x1 S1600000 [] [0] [0] 1
  dot_S100000x23_S23x128_S100000x128_1_0_0_1_n_n_wf : DotDims.WF S100000x23 S23x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1

variable [Facts₀]

def gather_S100000x23_S1600000x1_S1600000x23_1_0_n_n_0_1_123 : GatherDims S100000x23 S1600000x1 S1600000x23 where
  offsetDims := [1]
  collapsedSliceDims := [0]
  operandBatchingDims := []
  startIndicesBatchingDims := []
  startIndexMap := [0]
  indexVectorDim := 1
  sliceSizes := ![1, 23]
  wf := gather_S100000x23_S1600000x1_S1600000x23_1_0_n_n_0_1_123_wf
def scatter_S100000x23_S1600000x1_S1600000x23_1_0_0_1 : ScatterDims S100000x23 S1600000x1 S1600000x23 where
  updateWindowDims := [1]
  insertedWindowDims := [0]
  scatterDimsToOperandDims := [0]
  indexVectorDim := 1
  wf := scatter_S100000x23_S1600000x1_S1600000x23_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x23_S23x128_S100000x128_1_0_0_1_n_n : DotDims S100000x23 S23x128 S100000x128 where
  lhsContracting := [1]
  rhsContracting := [0]
  lhsNonContracting := [0]
  rhsNonContracting := [1]
  lhsBatch := []
  rhsBatch := []
  wf := dot_S100000x23_S23x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

class Facts : Prop extends Facts₀ where

variable [Facts]
-- ==== Proof.Spec.lean ====
/-
  The mathematics of the two programs, index by index, on the extended reals.

  A graph of 100000 nodes and 1600000 directed edges `src e → dst e`; node features `x : [100000, 23]`; two layers of
  mean aggregation "over the in-neighbours and the node itself" followed by a dense map; a per-graph mean at the end.

  * `wrap s`: a negative source id counts from the end of the node table; `srcRow s` is the row an edge reads, the
    wrapped id read signed and clamped into the table (what a row take does with an id outside it).
  * `lands dst e k`: edge `e` points at node `k` — its target id, read signed, IS `k`; an id outside the table lands
    nowhere. `deg` counts the edges that land on a node; `agg f k` adds up `f` at their source rows.
  * layer 1, of any input rows `hn`: `pre1 = max (hn · w1 + b1) 0`, `h1 = pre1 / max ‖pre1‖₂ ε`, and its projection
    `g = h1 · w2`. The programs' input is `hn0 = (agg x + x) / (deg + 1)`.
  * layer 2 in two orders. One program projects first and aggregates the 64 projected columns,
    `h2K = (agg g + g) / (deg + 1) + b2`; the other aggregates the 128 columns and projects after,
    `h2R = ((agg h1 + h1) / (deg + 1)) · w2 + b2`. The aggregation is linear, so the two agree wherever every entry
    is a real number and `deg + 1` is not zero.
  * `pooled gid h2 a c`: the sum of `h2 · c` over the nodes whose graph id, read signed, is `a`, over the number of
    such nodes, at least one.
-/
import Idealize.ShloMosaic.PureOps.Ideal
import Idealize.ShloMosaic.PureOps.Ideal.Laws

noncomputable section

namespace Cert.Sage

open Idealize.ShloMosaic
open scoped BigOperators

/-- The clamp `ε` under the row norm, as the pattern both programs carry. -/
abbrev eps : EReal := Ideal.ofBits .f32 0x2B8CBCCC#32

/-- The number one, as the pattern both programs carry under the last maximum. -/
abbrev oneW : EReal := Ideal.ofBits .f32 0x3F800000#32

/-- A negative id counts from the end of a table of 100000 rows. -/
def wrap (s : BitVec 32) : BitVec 32 := Scalar.select (IntOp.cmpi .slt s 0#32) (IntOp.addi s 100000#32) s

/-- The row of the node table that an edge with source id `s` reads: the wrapped id, signed, clamped into the table. -/
def srcRow (s : BitVec 32) : Fin 100000 := ⟨min (wrap s).toInt.toNat (100000 - 1), by omega⟩

section Edges
variable (src dst : Fin 1600000 → BitVec 32)

/-- Edge `e` points at node `k`. -/
def lands (e : Fin 1600000) (k : Fin 100000) : Prop := (dst e).toInt = (k.val : Int)

instance (e : Fin 1600000) (k : Fin 100000) : Decidable (lands dst e k) := by unfold lands; infer_instance

/-- The number of edges that point at node `k`. -/
def deg (k : Fin 100000) : EReal := ∑ e : Fin 1600000, if lands dst e k then (1 : EReal) else 0

/-- The sum of `f` at the source rows of the edges that point at node `k`. -/
def agg (f : Fin 100000 → EReal) (k : Fin 100000) : EReal :=
  ∑ e : Fin 1600000, if lands dst e k then f (srcRow (src e)) else 0

/-- The mean of a node's row and its in-neighbours' rows, column `q`. -/
def meanAgg {C : ℕ} (f : Fin 100000 → Fin C → EReal) (k : Fin 100000) (q : Fin C) : EReal :=
  Ideal.div (agg src dst (fun r => f r q) k + f k q) (deg dst k + 1)

end Edges

section Layer1
variable (hn : Fin 100000 → Fin 23 → EReal) (w1 : Fin 23 → Fin 128 → EReal) (b1 : Fin 128 → EReal)
  (w2 : Fin 128 → Fin 64 → EReal)

/-- Layer 1 before the row normalisation: the dense map, then the positive part. -/
def pre1 (k : Fin 100000) (j : Fin 128) : EReal := max ((∑ q : Fin 23, hn k q * w1 q j) + b1 j) 0

/-- The row's Euclidean norm, kept away from zero by `ε`. -/
def nrm (k : Fin 100000) : EReal := max (Ideal.sqrt (∑ j : Fin 128, pre1 hn w1 b1 k j * pre1 hn w1 b1 k j)) eps

/-- Layer 1's output: the row scaled to unit norm. -/
def h1 (k : Fin 100000) (j : Fin 128) : EReal := Ideal.div (pre1 hn w1 b1 k j) (nrm hn w1 b1 k)

/-- Layer 1's output projected by `w2`. -/
def g (k : Fin 100000) (c : Fin 64) : EReal := ∑ j : Fin 128, h1 hn w1 b1 k j * w2 j c

end Layer1

/-- Layer 2's combination at a node, of an aggregate `A`, the node's own projected row `G`, a degree `D` and a bias. -/
def h2of (A G : Fin 100000 → Fin 64 → EReal) (D : Fin 100000 → EReal) (b2 : Fin 64 → EReal) (k : Fin 100000) (c : Fin 64) :
    EReal := Ideal.div (A k c + G k c) (D k + 1) + b2 c

section Whole
variable (x : Fin 100000 → Fin 23 → EReal) (w1 : Fin 23 → Fin 128 → EReal) (b1 : Fin 128 → EReal)
  (w2 : Fin 128 → Fin 64 → EReal) (b2 : Fin 64 → EReal) (src dst : Fin 1600000 → BitVec 32)

/-- Layer 1's input rows. -/
def hn0 : Fin 100000 → Fin 23 → EReal := meanAgg src dst x

/-- Layer 2, projecting first and aggregating the projected rows. -/
def h2K : Fin 100000 → Fin 64 → EReal :=
  h2of (fun k c => agg src dst (fun r => g (hn0 x src dst) w1 b1 w2 r c) k) (g (hn0 x src dst) w1 b1 w2) (deg dst) b2

/-- Layer 2, aggregating first and projecting the mean. -/
def h2R (k : Fin 100000) (c : Fin 64) : EReal :=
  (∑ j : Fin 128, meanAgg src dst (h1 (hn0 x src dst) w1 b1) k j * w2 j c) + b2 c

end Whole

section Pool
variable (gid : Fin 100000 → BitVec 32)

/-- Node `k` belongs to graph `a`. -/
def inGraph (k : Fin 100000) (a : Fin 64) : Prop := (gid k).toInt = (a.val : Int)

instance (k : Fin 100000) (a : Fin 64) : Decidable (inGraph gid k a) := by unfold inGraph; infer_instance

/-- The per-graph sum of a node quantity. -/
def gsum (h2 : Fin 100000 → Fin 64 → EReal) (a c : Fin 64) : EReal :=
  ∑ k : Fin 100000, if inGraph gid k a then h2 k c else 0

/-- The number of nodes of graph `a`. -/
def cnt (a : Fin 64) : EReal := ∑ k : Fin 100000, if inGraph gid k a then (1 : EReal) else 0

/-- The per-graph mean of a node quantity (an empty graph divides by one). -/
def pooled (h2 : Fin 100000 → Fin 64 → EReal) (a c : Fin 64) : EReal :=
  Ideal.div (gsum gid h2 a c) (max (cnt gid a) oneW)

end Pool

end Cert.Sage

end
-- ==== Proof.KArgs.lean ====
/-
  The kernel's argument arrays, as launched on core `c`, as functions of their coordinates.
-/
import Idealize.ShloMosaic.Lib.ValueIdx
import proofs.«422015_j20993800143187_3_alg».proof.Proof.Gen.KernelIdeal.Frame
import proofs.«422015_j20993800143187_3_alg».proof.Proof.Spec

set_option maxRecDepth 16384

noncomputable section

namespace Cert.Sage.K

open Idealize.ShloMosaic Idealize.ShloMosaic.TcCoe Idealize.SL.Sem Idealize.ShloMosaic.ValueIdx
open Cert.KernelIdeal Cert.KernelIdeal.Gen Cert.Sage
open scoped BigOperators

variable (m : (ℓ : Loc nD τ sig) → Buf (Elt Ideal) ℓ) (ρ : Dev nD → PrngReg) (c : Dev nD)

/-- Node features. -/
def X : Fin 100000 → Fin 23 → EReal := fun k q => (m ((c : Thread nD τ).loc main_arg0) : (⟨2, ![100000, 23]⟩ : Shape).Idx → EReal) (ix2 k q)
/-- The first dense map's weights. -/
def Wa : Fin 23 → Fin 128 → EReal := fun q j => (m ((c : Thread nD τ).loc main_arg1) : (⟨2, ![23, 128]⟩ : Shape).Idx → EReal) (ix2 q j)
/-- The first dense map's bias. -/
def Ba : Fin 128 → EReal := fun j => (m ((c : Thread nD τ).loc main_arg2) : (⟨1, ![128]⟩ : Shape).Idx → EReal) (ix1 j)
/-- The second dense map's weights. -/
def Wb : Fin 128 → Fin 64 → EReal := fun j c' => (m ((c : Thread nD τ).loc main_arg3) : (⟨2, ![128, 64]⟩ : Shape).Idx → EReal) (ix2 j c')
/-- The second dense map's bias. -/
def Bb : Fin 64 → EReal := fun c' => (m ((c : Thread nD τ).loc main_arg4) : (⟨1, ![64]⟩ : Shape).Idx → EReal) (ix1 c')
/-- The edges' source ids. -/
def Src : Fin 1600000 → BitVec 32 := fun e => (m ((c : Thread nD τ).loc main_arg5) : (⟨1, ![1600000]⟩ : Shape).Idx → BitVec 32) (ix1 e)
/-- The edges' target ids. -/
def Dst : Fin 1600000 → BitVec 32 := fun e => (m ((c : Thread nD τ).loc main_arg6) : (⟨1, ![1600000]⟩ : Shape).Idx → BitVec 32) (ix1 e)
/-- The nodes' graph ids. -/
def Gid : Fin 100000 → BitVec 32 := fun k => (m ((c : Thread nD τ).loc main_arg7) : (⟨1, ![100000]⟩ : Shape).Idx → BitVec 32) (ix1 k)

end Cert.Sage.K

end
-- ==== Proof.LibGatherRows.lean ====
/-
  A gather that takes whole ROWS of a rank-2 table (what `table[idx]` prints for an `[N, C]` table and a vector of `n`
  row numbers laid out as an `[n, 1]` column of start indices): offset axis 1, collapsed axis 0, start index map `[0]`, the
  index vector along axis 1 of the start indices, slices of one row.

  Read at result index `(p, q)` it is the table at `(r, q)`, where `r` is start index `p` read signed and clamped into
  `[0, N − 1]`: on the row axis the operand coordinate is the clamped start (no batching axis, and a collapsed axis has
  no offset); on the column axis there is no start, and the offset coordinate is the result's own column.
-/
import Idealize.ShloMosaic.PureOps
import Idealize.ShloMosaic.Lib.ValueIdx

namespace Idealize.ShloMosaic.GatherRows

open Idealize.ShloMosaic Idealize.ShloMosaic.ValueIdx

variable {α : Type}

/-- The dimension numbers of a row-take from an `[N, C]` table by an `[n, 1]` column of row numbers. -/
abbrev rowDims (N C n : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- THE ROW-TAKE READ AT `(p, q)`: the table at row `idx[p, 0]` (signed, clamped into `[0, N − 1]`), column `q`. -/
theorem gather_rows_apply {N C n w : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ w) (p : Fin n) (q : Fin C) :
    Host.gather (rowDims N C n wf) x idx (ix2 p q)
      = x (ix2 ⟨min (idx (ix2 p ⟨0, Nat.one_pos⟩)).toInt.toNat (N - 1), by omega⟩ q) := by
  unfold Host.gather
  congr 1
  funext a
  refine Fin.ext ?_
  show (rowDims N C n wf).start (ix2 p q) idx a + (rowDims N C n wf).batchCoord (ix2 p q) a
    + (rowDims N C n wf).offCoord (ix2 p q) a = _
  rw [GatherDims.batchCoord_eq_zero _ _ _ List.not_mem_nil, Nat.add_zero]
  match a with
  | ⟨0, _⟩ =>
    -- the row axis: collapsed, so no offset; its start is the clamped start index
    rw [GatherDims.offCoord_eq_zero _ _ _
      (fun h => ((GatherDims.mem_sKept _ _).mp h).1 (List.mem_singleton.mpr rfl)), Nat.add_zero]
    unfold GatherDims.start
    rw [dif_pos (show (⟨0, by decide⟩ : Fin 2) ∈ (rowDims N C n wf).startIndexMap from List.mem_singleton.mpr rfl)]
    have hsi : (rowDims N C n wf).siIdx (ix2 p q)
        ⟨List.idxOf (⟨0, by decide⟩ : Fin 2) (rowDims N C n wf).startIndexMap,
          List.idxOf_lt_length_iff.2 (List.mem_singleton.mpr rfl)⟩ = ix2 p ⟨0, Nat.one_pos⟩ := by
      funext b; refine Fin.ext ?_
      match b with
      | ⟨0, _⟩ => rfl
      | ⟨1, _⟩ => rfl
    rw [hsi]
    rfl
  | ⟨1, _⟩ =>
    -- the column axis: no start index names it; the offset is the result's own column
    have hs : (rowDims N C n wf).start (ix2 p q) idx (⟨1, Nat.one_lt_two⟩ : Fin 2) = 0 := by
      unfold GatherDims.start
      rw [dif_neg (fun h => by have := congrArg Fin.val (List.mem_singleton.mp h); simp at this)]
    rw [hs, Nat.zero_add]
    rfl

end Idealize.ShloMosaic.GatherRows
-- ==== Proof.LibScatterAddRows.lean ====
/-
  A float scatter-add that adds whole ROWS into a rank-2 table (what `segment_sum(x, ids, N)` prints for an `[n, C]` batch
  and a vector of `n` row numbers laid out as an `[n, 1]` column of scatter indices): update window axis 1, inserted
  window axis 0, the scatter index naming operand axis 0, the index vector along axis 1 of the scatter indices; and the same
  for a rank-1 table and a vector of updates (no window axis).

  Over the extended reals the result at `(k, q)` is the operand there plus the sum of the updates `(p, q)` whose row number,
  read signed and NOT clamped, is `k`; an update whose row number is outside `[0, N)` lands nowhere.
-/
import Idealize.ShloMosaic.PureOps
import Idealize.ShloMosaic.PureOps.Ideal
import Idealize.ShloMosaic.Lib.ValueIdx

namespace Idealize.ShloMosaic.ScatterAddRows

open Idealize.ShloMosaic Idealize.ShloMosaic.ValueIdx

/-- The dimension numbers of a row scatter into an `[N, C]` table by an `[n, 1]` column of row numbers. -/
abbrev rowDims (N C n : Nat) (wf : ScatterDims.WF ⟨2, ![N, C]⟩ ⟨2, ![n, 1]⟩ ⟨2, ![n, C]⟩ [1] [0] [0] 1) :
    ScatterDims ⟨2, ![N, C]⟩ ⟨2, ![n, 1]⟩ ⟨2, ![n, C]⟩ where
  updateWindowDims := [1]
  insertedWindowDims := [0]
  scatterDimsToOperandDims := [0]
  indexVectorDim := 1
  wf := wf

/-- The dimension numbers of an entry scatter into an `[N]` table by an `[n, 1]` column of entry numbers. -/
abbrev entryDims (N n : Nat) (wf : ScatterDims.WF ⟨1, ![N]⟩ ⟨2, ![n, 1]⟩ ⟨1, ![n]⟩ [] [0] [0] 1) :
    ScatterDims ⟨1, ![N]⟩ ⟨2, ![n, 1]⟩ ⟨1, ![n]⟩ where
  updateWindowDims := []
  insertedWindowDims := [0]
  scatterDimsToOperandDims := [0]
  indexVectorDim := 1
  wf := wf

/-- On the row axis the start of update `(p, q)` is row number `p`, read signed: the one scatter index of update row `p`
    sits at `(p, 0)` of the column of scatter indices. -/
private theorem rows_start0 {N C n w : Nat}
    (wf : ScatterDims.WF ⟨2, ![N, C]⟩ ⟨2, ![n, 1]⟩ ⟨2, ![n, C]⟩ [1] [0] [0] 1)
    (idx : IVec ⟨2, ![n, 1]⟩ w) (p : Fin n) (q : Fin C) :
    (rowDims N C n wf).start (ix2 p q) idx (⟨0, by decide⟩ : Fin 2) = (idx (ix2 p ⟨0, Nat.one_pos⟩)).toInt := by
  unfold ScatterDims.start
  rw [dif_pos (show (⟨0, by decide⟩ : Fin 2) ∈ (rowDims N C n wf).scatterDimsToOperandDims from List.mem_singleton.mpr rfl)]
  have hsi : (rowDims N C n wf).siIdx (ix2 p q)
      ⟨List.idxOf (⟨0, by decide⟩ : Fin 2) (rowDims N C n wf).scatterDimsToOperandDims,
        List.idxOf_lt_length_iff.2 (List.mem_singleton.mpr rfl)⟩ = ix2 p ⟨0, Nat.one_pos⟩ := by
    funext b; refine Fin.ext ?_
    match b with
    | ⟨0, _⟩ => rfl
    | ⟨1, _⟩ => rfl
  rw [hsi]

/-- The column axis is named by no scatter index: its start is `0`. -/
private theorem rows_start1 {N C n w : Nat}
    (wf : ScatterDims.WF ⟨2, ![N, C]⟩ ⟨2, ![n, 1]⟩ ⟨2, ![n, C]⟩ [1] [0] [0] 1)
    (idx : IVec ⟨2, ![n, 1]⟩ w) (j : (⟨2, ![n, C]⟩ : Shape).Idx) :
    (rowDims N C n wf).start j idx (⟨1, by decide⟩ : Fin 2) = 0 := by
  unfold ScatterDims.start
  rw [dif_neg (fun h => by have := congrArg Fin.val (List.mem_singleton.mp h); simp at this)]

/-- The row axis is an inserted window axis: it has no window coordinate. -/
private theorem rows_window0 {N C n : Nat}
    (wf : ScatterDims.WF ⟨2, ![N, C]⟩ ⟨2, ![n, 1]⟩ ⟨2, ![n, C]⟩ [1] [0] [0] 1)
    (j : (⟨2, ![n, C]⟩ : Shape).Idx) :
    (rowDims N C n wf).window j (⟨0, by decide⟩ : Fin 2) = 0 := by
  unfold ScatterDims.window
  rw [dif_neg (by simp [Shape.kept])]

/-- The column axis is the one window axis: its window coordinate is the update's own column. -/
private theorem rows_window1 {N C n : Nat}
    (wf : ScatterDims.WF ⟨2, ![N, C]⟩ ⟨2, ![n, 1]⟩ ⟨2, ![n, C]⟩ [1] [0] [0] 1)
    (p : Fin n) (q : Fin C) :
    (rowDims N C n wf).window (ix2 p q) (⟨1, by decide⟩ : Fin 2) = q.val := by
  unfold ScatterDims.window
  rw [dif_pos (by simp [Shape.kept])]
  rfl

/-- Update `(p, q')` lands on `(k, q)` exactly when row number `p` is `k` and `q' = q`: it lands at (row number + 0, 0 + q')
    when that is inside the table, and nowhere otherwise; and `(k, q)` is inside the table. -/
private theorem rows_resultIdx_iff {N C n w : Nat}
    (wf : ScatterDims.WF ⟨2, ![N, C]⟩ ⟨2, ![n, 1]⟩ ⟨2, ![n, C]⟩ [1] [0] [0] 1)
    (idx : IVec ⟨2, ![n, 1]⟩ w) (p : Fin n) (q' : Fin C) (k : Fin N) (q : Fin C) :
    (rowDims N C n wf).resultIdx? (ix2 p q') idx = some (ix2 k q)
      ↔ (idx (ix2 p ⟨0, Nat.one_pos⟩)).toInt = (k.val : Int) ∧ q' = q := by
  have h0 := rows_start0 wf idx p q'
  have h1 := rows_start1 wf idx (ix2 p q')
  have w0 := rows_window0 wf (ix2 p q')
  have w1 := rows_window1 wf p q'
  unfold ScatterDims.resultIdx?
  split
  · rename_i h
    rw [Option.some.injEq]
    have hh := (h (⟨0, by decide⟩ : Fin 2)).1
    rw [h0, w0] at hh
    constructor
    · intro hf
      have e0 : ((rowDims N C n wf).start (ix2 p q') idx (⟨0, by decide⟩ : Fin 2)
          + ((rowDims N C n wf).window (ix2 p q') (⟨0, by decide⟩ : Fin 2) : Int)).toNat = k.val :=
        congrArg Fin.val (congrFun hf (⟨0, by decide⟩ : Fin 2))
      have e1 : ((rowDims N C n wf).start (ix2 p q') idx (⟨1, by decide⟩ : Fin 2)
          + ((rowDims N C n wf).window (ix2 p q') (⟨1, by decide⟩ : Fin 2) : Int)).toNat = q.val :=
        congrArg Fin.val (congrFun hf (⟨1, by decide⟩ : Fin 2))
      rw [h0, w0] at e0
      rw [h1, w1] at e1
      exact ⟨by omega, Fin.ext (by omega)⟩
    · rintro ⟨ht, rfl⟩
      funext a; refine Fin.ext ?_
      match a with
      | ⟨0, _⟩ =>
        show ((rowDims N C n wf).start (ix2 p q') idx (⟨0, by decide⟩ : Fin 2)
          + ((rowDims N C n wf).window (ix2 p q') (⟨0, by decide⟩ : Fin 2) : Int)).toNat = k.val
        rw [h0, w0]; omega
      | ⟨1, _⟩ =>
        show ((rowDims N C n wf).start (ix2 p q') idx (⟨1, by decide⟩ : Fin 2)
          + ((rowDims N C n wf).window (ix2 p q') (⟨1, by decide⟩ : Fin 2) : Int)).toNat = q'.val
        rw [h1, w1]; omega
  · rename_i h
    constructor
    · intro hf; exact absurd hf (by simp)
    · rintro ⟨ht, rfl⟩
      exfalso; apply h
      intro a
      match a with
      | ⟨0, _⟩ =>
        show 0 ≤ (rowDims N C n wf).start (ix2 p q') idx (⟨0, by decide⟩ : Fin 2)
            + ((rowDims N C n wf).window (ix2 p q') (⟨0, by decide⟩ : Fin 2) : Int)
          ∧ (rowDims N C n wf).start (ix2 p q') idx (⟨0, by decide⟩ : Fin 2)
            + ((rowDims N C n wf).window (ix2 p q') (⟨0, by decide⟩ : Fin 2) : Int) < (N : Int)
        rw [h0, w0, ht]; have := k.isLt; omega
      | ⟨1, _⟩ =>
        show 0 ≤ (rowDims N C n wf).start (ix2 p q') idx (⟨1, by decide⟩ : Fin 2)
            + ((rowDims N C n wf).window (ix2 p q') (⟨1, by decide⟩ : Fin 2) : Int)
          ∧ (rowDims N C n wf).start (ix2 p q') idx (⟨1, by decide⟩ : Fin 2)
            + ((rowDims N C n wf).window (ix2 p q') (⟨1, by decide⟩ : Fin 2) : Int) < (C : Int)
        rw [h1, w1]; have := q'.isLt; omega

/-- THE ROW SCATTER-ADD READ AT `(k, q)`: the operand there plus the updates `(p, q)` of the rows `p` numbered `k`. -/
theorem scatterAdd_rows_apply {N C n w : Nat}
    (wf : ScatterDims.WF ⟨2, ![N, C]⟩ ⟨2, ![n, 1]⟩ ⟨2, ![n, C]⟩ [1] [0] [0] 1)
    (x0 : (⟨2, ![N, C]⟩ : Shape).Idx → EReal) (idx : IVec ⟨2, ![n, 1]⟩ w) (upd : (⟨2, ![n, C]⟩ : Shape).Idx → EReal)
    (k : Fin N) (q : Fin C) :
    Ideal.hostScatterAdd (rowDims N C n wf) x0 idx upd (ix2 k q)
      = x0 (ix2 k q) + ∑ p : Fin n, if (idx (ix2 p ⟨0, Nat.one_pos⟩)).toInt = (k.val : Int) then upd (ix2 p q) else 0 := by
  unfold Ideal.hostScatterAdd
  congr 1
  -- the sum over the updates landing on `(k, q)`, as a double sum over `(p, q')` of the updates with row number `k` and `q' = q`
  rw [Finset.sum_filter, sum_idx2]
  refine Finset.sum_congr rfl fun p _ => ?_
  simp only [rows_resultIdx_iff]
  by_cases ht : (idx (ix2 p ⟨0, Nat.one_pos⟩)).toInt = (k.val : Int)
  · -- row `p` is numbered `k`: of its columns only `q' = q` remains
    simp only [ht, true_and, if_true]
    rw [Finset.sum_ite_eq' Finset.univ q (fun q' => upd (ix2 p q'))]
    simp
  · -- row `p` is not numbered `k`: every term is `0`
    simp only [ht, false_and, if_false]
    exact Finset.sum_const_zero

/-- The start of update `p` on the one operand axis is entry number `p`, read signed. -/
private theorem entries_start0 {N n w : Nat}
    (wf : ScatterDims.WF ⟨1, ![N]⟩ ⟨2, ![n, 1]⟩ ⟨1, ![n]⟩ [] [0] [0] 1)
    (idx : IVec ⟨2, ![n, 1]⟩ w) (p : Fin n) :
    (entryDims N n wf).start (ix1 p) idx (⟨0, by decide⟩ : Fin 1) = (idx (ix2 p ⟨0, Nat.one_pos⟩)).toInt := by
  unfold ScatterDims.start
  rw [dif_pos (show (⟨0, by decide⟩ : Fin 1) ∈ (entryDims N n wf).scatterDimsToOperandDims from List.mem_singleton.mpr rfl)]
  have hsi : (entryDims N n wf).siIdx (ix1 p)
      ⟨List.idxOf (⟨0, by decide⟩ : Fin 1) (entryDims N n wf).scatterDimsToOperandDims,
        List.idxOf_lt_length_iff.2 (List.mem_singleton.mpr rfl)⟩ = ix2 p ⟨0, Nat.one_pos⟩ := by
    funext b; refine Fin.ext ?_
    match b with
    | ⟨0, _⟩ => rfl
    | ⟨1, _⟩ => rfl
  rw [hsi]

/-- The one operand axis is an inserted window axis: it has no window coordinate. -/
private theorem entries_window0 {N n : Nat}
    (wf : ScatterDims.WF ⟨1, ![N]⟩ ⟨2, ![n, 1]⟩ ⟨1, ![n]⟩ [] [0] [0] 1)
    (j : (⟨1, ![n]⟩ : Shape).Idx) :
    (entryDims N n wf).window j (⟨0, by decide⟩ : Fin 1) = 0 := by
  unfold ScatterDims.window
  rw [dif_neg (by simp [Shape.kept])]

/-- Update `p` lands on `k` exactly when entry number `p` is `k`. -/
private theorem entries_resultIdx_iff {N n w : Nat}
    (wf : ScatterDims.WF ⟨1, ![N]⟩ ⟨2, ![n, 1]⟩ ⟨1, ![n]⟩ [] [0] [0] 1)
    (idx : IVec ⟨2, ![n, 1]⟩ w) (p : Fin n) (k : Fin N) :
    (entryDims N n wf).resultIdx? (ix1 p) idx = some (ix1 k)
      ↔ (idx (ix2 p ⟨0, Nat.one_pos⟩)).toInt = (k.val : Int) := by
  have h0 := entries_start0 wf idx p
  have w0 := entries_window0 wf (ix1 p)
  unfold ScatterDims.resultIdx?
  split
  · rename_i h
    rw [Option.some.injEq]
    have hh := (h (⟨0, by decide⟩ : Fin 1)).1
    rw [h0, w0] at hh
    constructor
    · intro hf
      have e0 : ((entryDims N n wf).start (ix1 p) idx (⟨0, by decide⟩ : Fin 1)
          + ((entryDims N n wf).window (ix1 p) (⟨0, by decide⟩ : Fin 1) : Int)).toNat = k.val :=
        congrArg Fin.val (congrFun hf (⟨0, by decide⟩ : Fin 1))
      rw [h0, w0] at e0
      omega
    · intro ht
      funext a; refine Fin.ext ?_
      match a with
      | ⟨0, _⟩ =>
        show ((entryDims N n wf).start (ix1 p) idx (⟨0, by decide⟩ : Fin 1)
          + ((entryDims N n wf).window (ix1 p) (⟨0, by decide⟩ : Fin 1) : Int)).toNat = k.val
        rw [h0, w0]; omega
  · rename_i h
    constructor
    · intro hf; exact absurd hf (by simp)
    · intro ht
      exfalso; apply h
      intro a
      match a with
      | ⟨0, _⟩ =>
        show 0 ≤ (entryDims N n wf).start (ix1 p) idx (⟨0, by decide⟩ : Fin 1)
            + ((entryDims N n wf).window (ix1 p) (⟨0, by decide⟩ : Fin 1) : Int)
          ∧ (entryDims N n wf).start (ix1 p) idx (⟨0, by decide⟩ : Fin 1)
            + ((entryDims N n wf).window (ix1 p) (⟨0, by decide⟩ : Fin 1) : Int) < (N : Int)
        rw [h0, w0, ht]; have := k.isLt; omega

/-- A sum over a rank-1 index set is the sum over its coordinate. -/
private theorem sum_idx1' {M : Type*} [AddCommMonoid M] {n : Nat} (f : (⟨1, ![n]⟩ : Shape).Idx → M) :
    ∑ i, f i = ∑ a : Fin n, f (ix1 a) :=
  Fintype.sum_equiv ⟨fun i => i 0, ix1, fun i => (eq_ix1 i).symm, fun _ => rfl⟩ f (fun a => f (ix1 a))
    fun i => congrArg f (eq_ix1 i)

/-- THE ENTRY SCATTER-ADD READ AT `k`: the operand there plus the updates `p` numbered `k`. -/
theorem scatterAdd_entries_apply {N n w : Nat}
    (wf : ScatterDims.WF ⟨1, ![N]⟩ ⟨2, ![n, 1]⟩ ⟨1, ![n]⟩ [] [0] [0] 1)
    (x0 : (⟨1, ![N]⟩ : Shape).Idx → EReal) (idx : IVec ⟨2, ![n, 1]⟩ w) (upd : (⟨1, ![n]⟩ : Shape).Idx → EReal)
    (k : Fin N) :
    Ideal.hostScatterAdd (entryDims N n wf) x0 idx upd (ix1 k)
      = x0 (ix1 k) + ∑ p : Fin n, if (idx (ix2 p ⟨0, Nat.one_pos⟩)).toInt = (k.val : Int) then upd (ix1 p) else 0 := by
  unfold Ideal.hostScatterAdd
  congr 1
  -- the sum over the updates landing on `k`, as the sum over `p` of the updates with entry number `k`
  rw [Finset.sum_filter, sum_idx1']
  refine Finset.sum_congr rfl fun p _ => ?_
  simp only [entries_resultIdx_iff]

end Idealize.ShloMosaic.ScatterAddRows
-- ==== Proof.LibRowOps.lean ====
/-
  Row-wise operations of an [n, m] array read at an index, over the extended reals.

  A kernel that reduces each row of a block with keepdims, and the host that reduces each row of the whole array,
  meet the same handful of operations: a sum or a maximum along axis 1 read at row r; a vector [n] recast as a
  column [n, 1]; a column [n, 1] broadcast along the rows of [n, m]; two columns laid side by side as [n, 2]; and,
  on the host, a column of [n, 2] cut out and recast as a vector [n]. Each is stated here once, at any extents, with
  indices written by their coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Cert.RowOps

open Idealize.ShloMosaic Idealize.ShloMosaic.ValueIdx

variable {α : Type}

/-! ## The index of row r with column k put back -/

/-- Over row index r, the source index whose coordinate on the dropped axis 1 is k is (r, k). -/
theorem lift_row {n m : ℕ} (h : (⟨2, ![n, m]⟩ : Shape).Reduces [1] ⟨1, ![n]⟩) (r : Fin n)
    (k : Fin ((⟨2, ![n, m]⟩ : Shape).size 1)) : h.lift (ix1 r) k = ix2 r (⟨k.val, k.isLt⟩ : Fin m) := by
  funext c; apply Fin.ext
  fin_cases c <;> rfl

/-! ## A kernel's lane reductions along axis 1 -/

/-- A float sum along axis 1, at row r, is the sum of the row's entries. -/
theorem rowSum_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.add.neutral φ hφ) (r : Fin n) :
    multiReduction .add [1] ⟨1, ![n]⟩ src acc h hφ hacc (ix1 r) = ∑ k : Fin m, src (ix2 r k) := by
  refine (Ideal.multiReduction_add_single src acc h hφ hacc (ix1 r)).trans ?_
  exact Finset.sum_congr rfl fun k _ => congrArg src (lift_row h r k)

/-- A float maximum along axis 1, at row r, is the fold of max over the row's entries from the accumulator's value. -/
theorem rowMax_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.maximumf.neutral φ hφ) (r : Fin n) :
    multiReduction .maximumf [1] ⟨1, ![n]⟩ src acc h hφ hacc (ix1 r)
      = (Finset.univ : Finset (Fin m)).fold max (Ideal.ofBits φ acc) (fun k => src (ix2 r k)) := by
  refine (Ideal.multiReduction_maximumf_single src acc h hφ hacc (ix1 r)).trans ?_
  have hf : (src ∘ h.lift (ix1 r)) = fun k : Fin m => src (ix2 r k) := funext fun k => congrArg src (lift_row h r k)
  exact congrArg (fun f => Finset.fold max (Ideal.ofBits φ acc) f (Finset.univ : Finset (Fin m))) hf

/-! ## The host's reductions along axis 1 -/

/-- The host's maximum along axis 1, at row r, is the fold of max over the row's entries from the initial value. -/
theorem hostRowMax_apply {n m : ℕ} {φ : FTy} {u : Shape} (x : FVec Ideal ⟨2, ![n, m]⟩ φ) (init : u.Idx → Ideal φ)
    (h' : (⟨2, ![n, m]⟩ : Shape).ReducesTo [1] ⟨1, ![n]⟩) (h : (⟨2, ![n, m]⟩ : Shape).Reduces [1] ⟨1, ![n]⟩) (hu : 0 < u.numel) (r : Fin n) :
    Host.reduce FloatOps.maximumf x init h' hu (ix1 r)
      = (Finset.univ : Finset (Fin m)).fold max (init (Shape.Idx.first hu)) (fun k => x (ix2 r k)) := by
  refine (Host.reduce_eq_fold_single FloatOps.maximumf x init h' h hu (ix1 r)).trans ?_
  have hf : (x ∘ h.lift (ix1 r)) = fun k : Fin m => x (ix2 r k) := funext fun k => congrArg x (lift_row h r k)
  exact congrArg (fun f => Finset.fold max (init (Shape.Idx.first hu)) f (Finset.univ : Finset (Fin m))) hf

/-! ## Columns -/

/-- A vector [n] recast as a column [n, 1] reads, at (r, u), entry r. -/
theorem shapeCast_a_a1_apply {n : ℕ} (x : (⟨1, ![n]⟩ : Shape).Idx → α) (h : (⟨1, ![n]⟩ : Shape).ShapeCasts ⟨2, ![n, 1]⟩)
    (r : Fin n) (u : Fin 1) : shapeCast ⟨2, ![n, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column [n, 1] recast as a vector [n] reads, at r, the column at (r, 0). -/
theorem shapeCast_a1_a_apply {n : ℕ} (x : (⟨2, ![n, 1]⟩ : Shape).Idx → α) (h : (⟨2, ![n, 1]⟩ : Shape).ShapeCasts ⟨1, ![n]⟩)
    (r : Fin n) : shapeCast ⟨1, ![n]⟩ x h (ix1 r) = x (ix2 r (0 : Fin 1)) :=
  shapeCast_apply x h _ _ (by
    rw [Shape.rowMajor_val_two, Shape.rowMajor_val_one]
    show r.val * 1 + 0 = r.val
    rw [Nat.mul_one, Nat.add_zero])

/-- A column [n, 1] broadcast along the rows of [n, m] (m at least 2, n at least 2) reads, at (r, k), the column at (r, 0). -/
theorem broadcastTo_a1_ab_apply {n m : ℕ} (hn : n ≠ 1) (v : (⟨2, ![n, 1]⟩ : Shape).Idx → α)
    (h : (⟨2, ![n, 1]⟩ : Shape).Broadcasts ⟨2, ![n, m]⟩) (r : Fin n) (k : Fin m) :
    broadcastTo ⟨2, ![n, m]⟩ v h (ix2 r k) = v (ix2 r (0 : Fin 1)) := by
  refine broadcastTo_apply v h (ix2 r k) (ix2 r (0 : Fin 1)) fun ax => ?_
  match ax with
  | ⟨0, _⟩ =>
    show r.val = if n = 1 then 0 else r.val
    rw [if_neg hn]
  | ⟨1, _⟩ => rfl

/-- Two columns [n, 1] laid side by side as [n, 2] read, at (r, 0), the first column at (r, 0). -/
theorem concat_cols_left {n : ℕ} (x₁ x₂ : (⟨2, ![n, 1]⟩ : Shape).Idx → α)
    (h : Shape.Concatenates [(⟨2, ![n, 1]⟩ : Shape), ⟨2, ![n, 1]⟩] ⟨2, ![n, 2]⟩ 1) (r : Fin n) :
    concatenate ⟨2, ![n, 2]⟩ 1 [⟨⟨2, ![n, 1]⟩, x₁⟩, ⟨⟨2, ![n, 1]⟩, x₂⟩] h (ix2 r (0 : Fin 2)) = x₁ (ix2 r (0 : Fin 1)) :=
  concatenate_pair_apply_left 1 x₁ x₂ h (ix2 r (0 : Fin 2)) rfl (ix2 r (0 : Fin 1)) (fun b => by
    match b with
    | ⟨0, _⟩ => rfl
    | ⟨1, _⟩ => rfl)

/-- … and, at (r, 1), the second column at (r, 0). -/
theorem concat_cols_right {n : ℕ} (x₁ x₂ : (⟨2, ![n, 1]⟩ : Shape).Idx → α)
    (h : Shape.Concatenates [(⟨2, ![n, 1]⟩ : Shape), ⟨2, ![n, 1]⟩] ⟨2, ![n, 2]⟩ 1) (r : Fin n) :
    concatenate ⟨2, ![n, 2]⟩ 1 [⟨⟨2, ![n, 1]⟩, x₁⟩, ⟨⟨2, ![n, 1]⟩, x₂⟩] h (ix2 r (1 : Fin 2)) = x₂ (ix2 r (0 : Fin 1)) :=
  concatenate_pair_apply_right 1 x₁ x₂ h (ix2 r (1 : Fin 2)) rfl rfl (ix2 r (0 : Fin 1)) (fun b hb => by
    match b with
    | ⟨0, _⟩ => rfl
    | ⟨1, _⟩ => exact absurd rfl hb) rfl

/-- Column c of an [n, 2] array, cut out as [n, 1], reads at (r, 0) the array at (r, c). -/
theorem slice_col_apply {n : ℕ} (c : Fin 2) (X : (⟨2, ![n, 2]⟩ : Shape).Idx → α)
    (h : (⟨2, ![n, 2]⟩ : Shape).Slices ![0, c.val] ⟨2, ![n, 1]⟩) (r : Fin n) :
    extractStridedSlice ⟨2, ![n, 1]⟩ ![0, c.val] X h (ix2 r (0 : Fin 1)) = X (ix2 r c) :=
  slice2_axis1_apply c.val X h r (0 : Fin 1) c rfl

end Cert.RowOps

end
-- ==== Proof.LibIdealReal.lean ====
/-
  Operations of the ideal instance on entries that are real numbers.

  At the ideal values a float is an extended real. When the entries in play are real numbers — every input finite,
  every count a natural number — each operation of a program is the real operation under the embedding `ℝ → EReal`:
  sums, quotients by a non-zero real, comparisons, a bit read as a float, a select on a decided bit. One lemma each,
  so that a program's value can be carried as the embedding of a real-valued expression.
-/
import Idealize.ShloMosaic.PureOps.Ideal
import Idealize.ShloMosaic.PureOps.Ideal.Laws

noncomputable section

namespace IdealReal

open Idealize.ShloMosaic
open scoped BigOperators

/-- The embedding of a finite sum of reals is the sum of the embeddings. -/
theorem coe_sum {α : Type} (s : Finset α) (f : α → ℝ) : ((∑ a ∈ s, f a : ℝ) : EReal) = ∑ a ∈ s, (f a : EReal) := by
  classical
  induction s using Finset.induction_on with
  | empty => simp
  | insert a s ha ih => rw [Finset.sum_insert ha, Finset.sum_insert ha, EReal.coe_add, ih]

/-- The ideal quotient of two reals, the divisor not zero, is the real quotient. -/
theorem div_coe_coe (a b : ℝ) (hb : b ≠ 0) : Ideal.div (a : EReal) (b : EReal) = ((a / b : ℝ) : EReal) := by
  rw [Ideal.div_coe hb, ← EReal.coe_mul, ← div_eq_mul_one_div]

/-- Comparisons of two reals at the ideal instance decide the real comparison. -/
theorem cmp_ogt_coe (a b : ℝ) : Ideal.cmp .ogt (a : EReal) (b : EReal) = BitVec.ofBool (decide (b < a)) := by
  simp only [Ideal.cmp, EReal.coe_lt_coe_iff]
theorem cmp_oge_coe (a b : ℝ) : Ideal.cmp .oge (a : EReal) (b : EReal) = BitVec.ofBool (decide (b ≤ a)) := by
  simp only [Ideal.cmp, EReal.coe_le_coe_iff]
theorem cmp_oeq_coe (a b : ℝ) : Ideal.cmp .oeq (a : EReal) (b : EReal) = BitVec.ofBool (decide (a = b)) := by
  simp only [Ideal.cmp, EReal.coe_eq_coe_iff]
theorem cmp_une_coe (a b : ℝ) : Ideal.cmp .une (a : EReal) (b : EReal) = BitVec.ofBool (decide (a ≠ b)) := by
  simp only [Ideal.cmp, ne_eq, EReal.coe_eq_coe_iff]

/-- The f32 patterns of 0, 1 and 1024 denote those reals. -/
theorem ofBits_zero_f32 : Ideal.ofBits .f32 0x00000000#32 = ((0 : ℝ) : EReal) := by
  simp [Ideal.ofBits, Ideal.ieee]
theorem ofBits_one_f32 : Ideal.ofBits .f32 0x3F800000#32 = ((1 : ℝ) : EReal) := by
  simp [Ideal.ofBits, Ideal.ieee, -EReal.coe_mul]; norm_num
theorem ofBits_1024_f32 : Ideal.ofBits .f32 0x44800000#32 = ((1024 : ℝ) : EReal) := by
  simp [Ideal.ofBits, Ideal.ieee, -EReal.coe_mul]; norm_num

/-- A decided bit widened to a word and read as a signed integer is 1 or 0. -/
theorem sitofp_setWidth_ofBool (p : Bool) :
    FloatOps.sitofp (F := Ideal) .f32 ((BitVec.ofBool p).setWidth 32) = (((if p then 1 else 0 : ℝ)) : EReal) := by
  cases p <;> simp [FloatOps.sitofp]
/-- A decided bit read as an unsigned integer is 1 or 0. -/
theorem uitofp_ofBool (p : Bool) :
    FloatOps.uitofp (F := Ideal) .f32 (BitVec.ofBool p) = (((if p then 1 else 0 : ℝ)) : EReal) := by
  cases p <;> simp [FloatOps.uitofp]
/-- A select on a decided bit is the `if`. -/
theorem select_ofBool {α : Type} (p : Bool) (a b : α) : Scalar.select (BitVec.ofBool p) a b = if p then a else b := by
  cases p <;> rfl

/-- The logistic function of a real: `1 / (1 + e^(-r))`, a real in (0, 1). -/
theorem logistic_coe (r : ℝ) : Ideal.logistic (r : EReal) = (((1 + Real.exp (-r))⁻¹ : ℝ) : EReal) := Ideal.logistic_coe r

end IdealReal

end
-- ==== Proof.LibScatterCount.lean ====
/-
  Counting with a scatter. A scatter whose body adds leaves at an index the operand there plus the sum of the updates
  that land on it, whatever the order it walks the updates in. So an INTEGER scatter of ones into zeros holds at an index
  the number of updates landing there — as long as there are fewer than 2 ^ 31 updates the sum of ones does not leave
  the 32-bit word — and, read signed as a float, it is the float scatter-add of ones into zeros: a count of segment
  members made in integers and converted is the count made in floats.
-/
import Idealize.ShloMosaic.PureOps
import Idealize.ShloMosaic.PureOps.Ideal
import Idealize.ShloMosaic.Lib.WordSum
import Idealize.ShloMosaic.Lib.StableHlo.Predicate
import proofs.«422015_j20993800143187_3_alg».proof.Proof.LibIdealReal

noncomputable section

namespace Cert.ScatterCount

open Idealize.ShloMosaic
open scoped BigOperators

/-! ## A scatter whose body adds: the operand plus the sum of the updates that land -/

/-- The scatter's fold, over any list of update positions, at an index: what was there plus the updates of the list that
    land on it. One step changes the index it lands on by its update and no other. -/
theorem scatter_fold_add {α : Type} [AddCommMonoid α] {s si u : Shape} {w : Nat} (d : ScatterDims s si u)
    (f : α → α → α) (hf : ∀ a b, f a b = a + b) (idx : IVec si w) (upd : u.Idx → α) (L : List (Fin u.numel))
    (x : s.Idx → α) (i : s.Idx) :
    L.foldl (fun r n =>
        match d.resultIdx? (u.rowMajor.symm n) idx with
        | some i₀ => fun i' => if i' = i₀ then f (r i₀) (upd (u.rowMajor.symm n)) else r i'
        | none => r) x i
      = x i + (L.map fun n => if d.resultIdx? (u.rowMajor.symm n) idx = some i then upd (u.rowMajor.symm n) else 0).sum := by
  induction L generalizing x with
  | nil => simp
  | cons n L ih =>
    rw [List.foldl_cons, ih, List.map_cons, List.sum_cons, ← add_assoc]
    congr 1
    cases h : d.resultIdx? (u.rowMajor.symm n) idx with
    | none => simp
    | some i₀ =>
      by_cases hi : i = i₀
      · subst hi; simp [hf]
      · have hne : ¬ (some i₀ = some i) := fun e => hi (Option.some.inj e).symm
        simp [hi, hne]

/-- A scatter whose body adds, at an index: the operand there plus the sum of the updates that land on it. -/
theorem scatter_add_apply {α : Type} [AddCommMonoid α] {s si u : Shape} {w : Nat} (d : ScatterDims s si u)
    (f : α → α → α) (hf : ∀ a b, f a b = a + b) (x : s.Idx → α) (idx : IVec si w) (upd : u.Idx → α) (i : s.Idx) :
    Host.scatter d f x idx upd i = x i + ∑ j ∈ Finset.univ.filter (fun j => d.resultIdx? j idx = some i), upd j := by
  refine (scatter_fold_add d f hf idx upd (List.finRange u.numel) x i).trans ?_
  rw [Finset.sum_filter, ← Equiv.sum_comp u.rowMajor.symm, Fin.sum_univ_def]

/-! ## Counting with a scatter -/

/-- The updates that land on one index are at most all of them. -/
theorem card_landing_le {s si u : Shape} {w : Nat} (d : ScatterDims s si u) (idx : IVec si w) (i : s.Idx) :
    (Finset.univ.filter (fun j : u.Idx => d.resultIdx? j idx = some i)).card ≤ u.numel :=
  calc (Finset.univ.filter (fun j : u.Idx => d.resultIdx? j idx = some i)).card
      ≤ Fintype.card u.Idx := Finset.card_le_univ _
    _ = u.numel := by rw [Fintype.card_congr u.rowMajor, Fintype.card_fin]

/-- An integer scatter of ones into zeros, its body an addition of 32-bit words, holds at an index the NUMBER of updates
    that land there, while there are fewer than 2 ^ 31 updates in all: the sum of ones does not leave the word, and read
    signed it is that number. Read as a float it is therefore the float scatter-add of ones into zeros: one per update
    landing on the index. -/
theorem sitofp_scatter_ones {s si u : Shape} {w : Nat} (d : ScatterDims s si u) (f : BitVec 32 → BitVec 32 → BitVec 32)
    (hf : ∀ a b, f a b = a + b) (x : s.Idx → BitVec 32) (hx : ∀ i, x i = 0#32) (idx : IVec si w)
    (upd : u.Idx → BitVec 32) (hupd : ∀ j, upd j = 1#32) (hu : u.numel < 2 ^ 31) (i : s.Idx) :
    FloatOps.sitofp (F := Ideal) .f32 (Host.scatter d f x idx upd i)
      = Ideal.hostScatterAdd d (fun _ => 0) idx (fun _ => 1) i := by
  have hcard := card_landing_le d idx i
  have hnat : (Host.scatter d f x idx upd i).toNat
      = (Finset.univ.filter (fun j : u.Idx => d.resultIdx? j idx = some i)).card := by
    have hones : ∑ j ∈ Finset.univ.filter (fun j : u.Idx => d.resultIdx? j idx = some i), (upd j).toNat
        = (Finset.univ.filter (fun j : u.Idx => d.resultIdx? j idx = some i)).card := by
      rw [Finset.card_eq_sum_ones]
      exact Finset.sum_congr rfl fun j _ => by rw [hupd j]; rfl
    rw [scatter_add_apply d f hf, hx i, show (0#32 : BitVec 32) = 0 from rfl, zero_add,
      WordSum.toNat_sum _ _ (by rw [hones]; omega), hones]
  show (((Host.scatter d f x idx upd i).toInt : ℝ) : EReal) = _
  rw [StableHlo.Predicate.toInt_eq_toNat_of_lt (by rw [hnat]; omega), hnat]
  unfold Ideal.hostScatterAdd
  rw [zero_add, Int.cast_natCast, Finset.card_eq_sum_ones, Nat.cast_sum, IdealReal.coe_sum]
  exact Finset.sum_congr rfl fun j _ => by rw [Nat.cast_one, EReal.coe_one]

end Cert.ScatterCount

end
-- ==== Proof.KHost0.lean ====
/-
  The host operations before the first kernel region, read at an index: the region's input rows are the mean of a
  node's features and its in-neighbours'; the in-degree, counted in integers and read as a float, is the count.
-/
import Idealize.ShloMosaic.Lib.ValueIdx
import Idealize.ShloMosaic.Lib.ValueLayout
import Idealize.ShloMosaic.Lib.WordSum
import Idealize.ShloMosaic.Lib.StableHlo.Run
import Idealize.ShloMosaic.Lib.StableHlo.Predicate
import proofs.«422015_j20993800143187_3_alg».proof.Proof.KArgs
import proofs.«422015_j20993800143187_3_alg».proof.Proof.LibGatherRows
import proofs.«422015_j20993800143187_3_alg».proof.Proof.LibScatterAddRows
import proofs.«422015_j20993800143187_3_alg».proof.Proof.LibRowOps
import proofs.«422015_j20993800143187_3_alg».proof.Proof.LibIdealReal
import proofs.«422015_j20993800143187_3_alg».proof.Proof.LibScatterCount

set_option maxRecDepth 16384

noncomputable section

namespace Cert.Sage.KHost0

open Idealize.ShloMosaic Idealize.ShloMosaic.TcCoe Idealize.SL.Sem Idealize.ShloMosaic.ValueIdx
open Cert.KernelIdeal Cert.KernelIdeal.Gen Cert.Sage
open scoped BigOperators
open Cert.Sage.K Cert.ScatterCount

/-! ## Broadcasts of this program read at an index -/

/-- A vector laid out as a column reads, at `(p, 0)`, the vector at `p`. -/
private theorem col_apply {α : Type} {n : Nat} (h : (⟨1, ![n]⟩ : Shape).BroadcastsInDim ⟨2, ![n, 1]⟩ ![0])
    (v : (⟨1, ![n]⟩ : Shape).Idx → α) (p : Fin n) :
    broadcastInDim ⟨2, ![n, 1]⟩ ![0] h v (ix2 p ⟨0, Nat.one_pos⟩) = v (ix1 p) := by
  simp only [broadcastInDim]
  congr 1
  funext a
  have ha : a = 0 := Subsingleton.elim _ _
  subst ha
  apply Fin.ext
  have hp := p.isLt
  split
  · next h1 => change n = 1 at h1; show (0 : Nat) = p.val; omega
  · rfl

/-- A column spread along the rows of `[n, m]` reads, at `(p, q)`, the column at `(p, 0)`. -/
private theorem ofCol_apply {α : Type} {n m : Nat} (h : (⟨2, ![n, 1]⟩ : Shape).BroadcastsInDim ⟨2, ![n, m]⟩ ![0, 1])
    (v : (⟨2, ![n, 1]⟩ : Shape).Idx → α) (p : Fin n) (q : Fin m) :
    broadcastInDim ⟨2, ![n, m]⟩ ![0, 1] h v (ix2 p q) = v (ix2 p ⟨0, Nat.one_pos⟩) := by
  simp only [broadcastInDim]
  congr 1
  funext a
  match a with
  | ⟨0, _⟩ =>
    apply Fin.ext
    have hp := p.isLt
    split
    · next h1 => change n = 1 at h1; show (0 : Nat) = p.val; omega
    · rfl
  | ⟨1, _⟩ =>
    apply Fin.ext
    split
    · rfl
    · next h => exact absurd rfl h

/-! ## The operations' composed terms, as functions of the argument arrays -/

section Terms
variable (x : S100000x23.Idx → EReal) (src dst : S1600000.Idx → BitVec 32)

/-- The in-degree column as the operations build it: ones scattered, with an integer addition, by the target ids into
    zeros; the words read as floats; the vector recast as a column. -/
def degCol : S100000x1.Idx → EReal := fun i =>
  shapeCast S100000x1
    (sitofp (F := Ideal) .f32
      (Host.scatter scatter_S100000_S1600000x1_S1600000_n_0_0_1 IntOp.addi
        (broadcastInDim S100000 ![] bcast_S_S100000 (constantI S_ 32 0#32))
        (broadcastInDim S1600000x1 ![0] bcast_S1600000_S1600000x1_0 dst)
        (broadcastInDim S1600000 ![] bcast_S_S1600000 (constantI S_ 32 1#32))))
    shapeCasts_S100000_S100000x1 i

/-- The region's input rows as the operations build them: the rows taken at the wrapped source ids, added up by the
    target ids into zeros, plus the features, over the in-degree column plus one spread along the rows. -/
def meanRows : S100000x23.Idx → EReal :=
  Host.divf (F := Ideal)
    (addf
      (Host.scatterAdd (F := Ideal) scatter_S100000x23_S1600000x1_S1600000x23_1_0_0_1
        (broadcastInDim S100000x23 ![] bcast_S_S100000x23 (constant (F := Ideal) S_ .f32 0x00000000#32))
        (broadcastInDim S1600000x1 ![0] bcast_S1600000_S1600000x1_0 dst)
        (Host.gather gather_S100000x23_S1600000x1_S1600000x23_1_0_n_n_0_1_123 x
          (broadcastInDim S1600000x1 ![0] bcast_S1600000_S1600000x1_0
            (select
              (cmpi .slt src (broadcastInDim S1600000 ![] bcast_S_S1600000 (constantI S_ 32 0#32)))
              (addi src (broadcastInDim S1600000 ![] bcast_S_S1600000 (constantI S_ 32 100000#32)))
              src))))
      x)
    (broadcastInDim S100000x23 ![0, 1] bcast_S100000x1_S100000x23_0_1
      (addf (degCol dst) (broadcastInDim S100000x1 ![] bcast_S_S100000x1 (constant (F := Ideal) S_ .f32 0x3F800000#32))))

/-- The in-degree column at node `k`: the number of edges whose target id, read signed, is `k`. The integer count read
    as a float is the float scatter-add of ones, and that, entry by entry, is one per edge landing on `k`. -/
theorem degCol_apply (k : Fin 100000) :
    degCol dst (ix2 k ⟨0, Nat.one_pos⟩) = deg (fun e => dst (ix1 e)) k := by
  have hu : S1600000.numel < 2 ^ 31 := by
    show ∏ a : Fin 1, (![1600000] : Fin 1 → ℕ) a < 2 ^ 31
    rw [Fin.prod_univ_one]; decide
  have h0 : ∀ i : S100000.Idx, broadcastInDim S100000 ![] bcast_S_S100000 (constantI S_ 32 0#32) i = 0#32 := fun _ => rfl
  have h1 : ∀ j : S1600000.Idx, broadcastInDim S1600000 ![] bcast_S_S1600000 (constantI S_ 32 1#32) j = 1#32 := fun _ => rfl
  have hadd : ∀ a b : BitVec 32, IntOp.addi a b = a + b := fun _ _ => rfl
  unfold degCol
  refine (RowOps.shapeCast_a_a1_apply _ shapeCasts_S100000_S100000x1 k ⟨0, Nat.one_pos⟩).trans ?_
  have key := sitofp_scatter_ones scatter_S100000_S1600000x1_S1600000_n_0_0_1 IntOp.addi hadd
    (broadcastInDim S100000 ![] bcast_S_S100000 (constantI S_ 32 0#32)) h0
    (broadcastInDim S1600000x1 ![0] bcast_S1600000_S1600000x1_0 dst)
    (broadcastInDim S1600000 ![] bcast_S_S1600000 (constantI S_ 32 1#32)) h1 hu (ix1 k)
  rw [sitofp_apply, key]
  have key2 := ScatterAddRows.scatterAdd_entries_apply scatter_S100000_S1600000x1_S1600000_n_0_0_1_wf (fun _ => 0)
    (broadcastInDim S1600000x1 ![0] bcast_S1600000_S1600000x1_0 dst) (fun _ => 1) k
  refine key2.trans ?_
  rw [zero_add]
  unfold deg lands
  exact Finset.sum_congr rfl fun e _ => by rw [col_apply]

/-- The host's quotient of two arrays, at an index, is the quotient of the entries. -/
private theorem hostDivf_apply {s : Shape} {φ : FTy} (a b : FVec Ideal s φ) (i : s.Idx) :
    Host.divf a b i = Ideal.div (a i) (b i) := rfl

/-- The float scatter-add of this program at `(k, q)`. -/
private theorem scatterAdd_at (x0 : FVec Ideal S100000x23 .f32) (idx : IVec S1600000x1 32) (upd : FVec Ideal S1600000x23 .f32)
    (k : Fin 100000) (q : Fin 23) :
    Host.scatterAdd (F := Ideal) scatter_S100000x23_S1600000x1_S1600000x23_1_0_0_1 x0 idx upd (ix2 k q)
      = x0 (ix2 k q)
        + ∑ p : Fin 1600000, if (idx (ix2 p ⟨0, Nat.one_pos⟩)).toInt = (k.val : Int) then upd (ix2 p q) else 0 :=
  ScatterAddRows.scatterAdd_rows_apply scatter_S100000x23_S1600000x1_S1600000x23_1_0_0_1_wf x0 idx upd k q

/-- The row take of this program at `(p, q)`. -/
private theorem gather_at (idx : IVec S1600000x1 32) (p : Fin 1600000) (q : Fin 23) :
    Host.gather gather_S100000x23_S1600000x1_S1600000x23_1_0_n_n_0_1_123 x idx (ix2 p q)
      = x (ix2 ⟨min (idx (ix2 p ⟨0, Nat.one_pos⟩)).toInt.toNat (100000 - 1), by omega⟩ q) :=
  GatherRows.gather_rows_apply (by decide) gather_S100000x23_S1600000x1_S1600000x23_1_0_n_n_0_1_123_wf x idx p q

/-- The region's input rows at `(k, q)`: the features' column `q` at the source rows of the edges landing on `k`, added
    up, plus the node's own entry, over the number of those edges plus one. The taken row is the wrapped source id
    clamped into the table; the zero and the one are the two float patterns the operations carry. -/
theorem meanRows_apply (k : Fin 100000) (q : Fin 23) :
    meanRows x src dst (ix2 k q)
      = hn0 (fun k q => x (ix2 k q)) (fun e => src (ix1 e)) (fun e => dst (ix1 e)) k q := by
  unfold meanRows
  rw [hostDivf_apply, addf_apply, ofCol_apply, addf_apply, degCol_apply, scatterAdd_at]
  have hz : broadcastInDim S100000x23 ![] bcast_S_S100000x23 (constant (F := Ideal) S_ .f32 0x00000000#32) (ix2 k q) = 0 :=
    IdealReal.ofBits_zero_f32.trans EReal.coe_zero
  have ho : broadcastInDim S100000x1 ![] bcast_S_S100000x1 (constant (F := Ideal) S_ .f32 0x3F800000#32)
      (ix2 k ⟨0, Nat.one_pos⟩) = 1 := IdealReal.ofBits_one_f32.trans EReal.coe_one
  rw [hz, ho, zero_add]
  unfold hn0 meanAgg agg
  refine congrArg (fun t => Ideal.div (t + x (ix2 k q)) (deg (fun e => dst (ix1 e)) k + 1)) ?_
  refine Finset.sum_congr rfl fun p _ => ?_
  have hw : broadcastInDim S1600000x1 ![0] bcast_S1600000_S1600000x1_0
      (select (cmpi .slt src (broadcastInDim S1600000 ![] bcast_S_S1600000 (constantI S_ 32 0#32)))
        (addi src (broadcastInDim S1600000 ![] bcast_S_S1600000 (constantI S_ 32 100000#32))) src)
      (ix2 p ⟨0, Nat.one_pos⟩) = wrap (src (ix1 p)) := col_apply _ _ p
  rw [col_apply, gather_at]
  refine if_congr Iff.rfl (congrArg (fun r => x (ix2 r q)) (Fin.ext ?_)) rfl
  show min _ (100000 - 1) = min (wrap (src (ix1 p))).toInt.toNat (100000 - 1)
  rw [hw]

end Terms

/-! ## The buffers at the region's entry: the fold of the operations through the launch memory -/

variable (m : (ℓ : Loc nD τ sig) → Buf (Elt Ideal) ℓ) (ρ : Dev nD → PrngReg) (c : Dev nD)

/-- No operation before the region writes the reference: each writes its own result buffer, a different reference. -/
local macro "unwritten" : tactic => `(tactic| (
  refine List.forall_iff_forall_mem.mp ?_
  simp only [hostOps0, List.Forall, StableHlo.nullary_writes, StableHlo.unary_writes, StableHlo.binary_writes,
    StableHlo.ternary_writes, StableHlo.reshape_writes, Finset.mem_singleton]
  repeat' apply And.intro
  all_goals exact StableHlo.devRef_ne_of_ne (by decide)))

/-- The in-degree column's buffer holds the operations' term of the target ids. -/
private theorem v5_term :
    (V1 m ρ c main_v5 : S100000x1.Idx → EReal)
      = degCol (m ((c : Thread nD τ).loc main_arg6) : S1600000.Idx → BitVec 32) := by
  dsimp only [V1, W1, hostOps0]
  after_results
  rfl

/-- The region's input buffer holds the operations' term of the features and the two id arrays. -/
private theorem v20_term :
    (V1 m ρ c main_v20 : S100000x23.Idx → EReal)
      = meanRows (m ((c : Thread nD τ).loc main_arg0) : S100000x23.Idx → EReal)
          (m ((c : Thread nD τ).loc main_arg5) : S1600000.Idx → BitVec 32)
          (m ((c : Thread nD τ).loc main_arg6) : S1600000.Idx → BitVec 32) := by
  dsimp only [V1, W1, hostOps0]
  after_results_simp
  rfl

/-- The first region's input rows. -/
theorem v20_apply (k : Fin 100000) (q : Fin 23) :
    (V1 m ρ c main_v20 : (⟨2, ![100000, 23]⟩ : Shape).Idx → EReal) (ix2 k q) = hn0 (X m c) (Src m c) (Dst m c) k q :=
  (congrFun (v20_term m ρ c) (ix2 k q)).trans (meanRows_apply _ _ _ k q)

/-- The in-degree column: the integer count of the edges landing on a node, read as a float, is their number. -/
theorem v5_apply (k : Fin 100000) :
    (V1 m ρ c main_v5 : (⟨2, ![100000, 1]⟩ : Shape).Idx → EReal) (ix2 k (⟨0, Nat.one_pos⟩ : Fin 1)) = deg (Dst m c) k :=
  (congrFun (v5_term m ρ c) (ix2 k ⟨0, Nat.one_pos⟩)).trans (degCol_apply _ k)

/-- The first bias as a row. -/
theorem v21_apply (j : Fin 128) :
    (V1 m ρ c main_v21 : (⟨2, ![1, 128]⟩ : Shape).Idx → EReal) (ix2 (⟨0, Nat.one_pos⟩ : Fin 1) j) = Ba m c j := by
  have e : (V1 m ρ c main_v21 : S1x128.Idx → EReal)
      = fun i => shapeCast S1x128 (m ((c : Thread nD τ).loc main_arg2) : S128.Idx → EReal) shapeCasts_S128_S1x128 i := by
    dsimp only [V1, W1, hostOps0]
    after_results
    rfl
  exact (congrFun e (ix2 ⟨0, Nat.one_pos⟩ j)).trans (shapeCast_a_1a_apply _ shapeCasts_S128_S1x128 ⟨0, Nat.one_pos⟩ j)

/-- The first weights reach the region as launched. -/
theorem arg1_apply (q : Fin 23) (j : Fin 128) :
    (V1 m ρ c main_arg1 : (⟨2, ![23, 128]⟩ : Shape).Idx → EReal) (ix2 q j) = Wa m c q j := by
  have e : V1 m ρ c main_arg1 = W0 m ρ c (Proc.devRef .tc main_arg1) :=
    StableHlo.after_of_forall_not_mem (b := Proc.devRef .tc main_arg1) _ _ (by unwritten)
  exact congrFun e (ix2 q j)

/-- The second weights reach the region as launched. -/
theorem arg3_apply (j : Fin 128) (c' : Fin 64) :
    (V1 m ρ c main_arg3 : (⟨2, ![128, 64]⟩ : Shape).Idx → EReal) (ix2 j c') = Wb m c j c' := by
  have e : V1 m ρ c main_arg3 = W0 m ρ c (Proc.devRef .tc main_arg3) :=
    StableHlo.after_of_forall_not_mem (b := Proc.devRef .tc main_arg3) _ _ (by unwritten)
  exact congrFun e (ix2 j c')

end Cert.Sage.KHost0

end
-- ==== Proof.KHost12.lean ====
/-
  The host operations between the two kernel regions and after the second, read at an index: the second region's
  aggregate is the sum of the first region's projected rows over each node's in-neighbours; the result is the
  per-graph sums over the per-graph counts.

  Between the regions the program wraps the edges' source ids (a negative id counts from the end of the node table),
  takes the first region's projected row at each wrapped id, and adds those rows into a table of zeros at the edges'
  target ids. A take reads its row number signed and clamped into the table; an accumulating scatter reads its row
  number signed and drops an update whose number is outside the table. So entry `(k, c')` of the table is the sum, over
  the edges whose target id is `k`, of column `c'` of the projected rows at their source rows: `agg`. The two other
  operations of the stretch recast the second bias as a row and the graph ids as a column. After the second region the
  per-graph counts, a row, are recast as a column, kept at least one, spread along the rows, and divide the per-graph
  sums entry by entry.

  No operation of these stretches writes an argument array or a result of the first region, and the first region's
  windows stage none of the source ids, the target ids, the second bias and the graph ids: each is read back to the
  contents the program was launched with.
-/
import Idealize.ShloMosaic.Lib.ValueIdx
import Idealize.ShloMosaic.Lib.IdealHost
import proofs.«422015_j20993800143187_3_alg».proof.Proof.KArgs
import proofs.«422015_j20993800143187_3_alg».proof.Proof.LibGatherRows
import proofs.«422015_j20993800143187_3_alg».proof.Proof.LibScatterAddRows
import proofs.«422015_j20993800143187_3_alg».proof.Proof.LibRowOps
import proofs.«422015_j20993800143187_3_alg».proof.Proof.LibIdealReal

set_option maxRecDepth 16384

noncomputable section

namespace Cert.Sage.KHost12

open Idealize.ShloMosaic Idealize.ShloMosaic.TcCoe Idealize.SL.Sem Idealize.ShloMosaic.ValueIdx
open Cert.KernelIdeal Cert.KernelIdeal.Gen Cert.Sage
open scoped BigOperators
open Cert.Sage.K
variable (m : (ℓ : Loc nD τ sig) → Buf (Elt Ideal) ℓ) (ρ : Dev nD → PrngReg) (c : Dev nD)

/-! ## The arguments the two stretches read, as launched

The first region stages neither of them in a window and the operations before it write none of them, so when the
first region is left each still holds what the program was launched with. -/

/-- The second bias. -/
private theorem W2_arg4 : W2 m ρ c (Proc.devRef .tc main_arg4) = m ((c : Thread nD τ).loc main_arg4) := by
  refine (W2_of_ne m ρ c main_arg4 (by decide)).trans ?_
  show StableHlo.after hostOps0 (W0 m ρ c) (Proc.devRef .tc main_arg4) = _
  after_results

/-- The edges' source ids. -/
private theorem W2_arg5 : W2 m ρ c (Proc.devRef .tc main_arg5) = m ((c : Thread nD τ).loc main_arg5) := by
  refine (W2_of_ne m ρ c main_arg5 (by decide)).trans ?_
  show StableHlo.after hostOps0 (W0 m ρ c) (Proc.devRef .tc main_arg5) = _
  after_results

/-- The edges' target ids. -/
private theorem W2_arg6 : W2 m ρ c (Proc.devRef .tc main_arg6) = m ((c : Thread nD τ).loc main_arg6) := by
  refine (W2_of_ne m ρ c main_arg6 (by decide)).trans ?_
  show StableHlo.after hostOps0 (W0 m ρ c) (Proc.devRef .tc main_arg6) = _
  after_results

/-- The nodes' graph ids. -/
private theorem W2_arg7 : W2 m ρ c (Proc.devRef .tc main_arg7) = m ((c : Thread nD τ).loc main_arg7) := by
  refine (W2_of_ne m ρ c main_arg7 (by decide)).trans ?_
  show StableHlo.after hostOps0 (W0 m ρ c) (Proc.devRef .tc main_arg7) = _
  after_results

/-! ## The aggregation over the edges, of any table of rows and any two vectors of ids -/

/-- A vector of edge ids laid out as a column reads, at edge `e`, the vector there. -/
private theorem col_apply (s : (⟨1, ![1600000]⟩ : Shape).Idx → BitVec 32) (e : Fin 1600000) :
    broadcastInDim S1600000x1 ![0] bcast_S1600000_S1600000x1_0 s (ix2 e (⟨0, Nat.one_pos⟩ : Fin 1)) = s (ix1 e) := by
  refine broadcastInDim_apply _ _ _ (ix2 e (⟨0, Nat.one_pos⟩ : Fin 1)) (ix1 e) (fun ax => ?_)
  match ax with
  | ⟨0, _⟩ =>
    show e.val = if (1600000 : ℕ) = 1 then 0 else e.val
    rw [if_neg (by decide)]

/-- The source ids with the negative ones counted from the end of the node table, as a column, at edge `e`:
    the comparison with zero, the sum with the table's length and the choice between the two are entry by entry. -/
private theorem wrapCol_apply (s : (⟨1, ![1600000]⟩ : Shape).Idx → BitVec 32) (e : Fin 1600000) :
    broadcastInDim S1600000x1 ![0] bcast_S1600000_S1600000x1_0
      (select (cmpi .slt s (broadcastInDim S1600000 ![] bcast_S_S1600000 (constantI S_ 32 0#32)))
        (addi s (broadcastInDim S1600000 ![] bcast_S_S1600000 (constantI S_ 32 100000#32))) s)
      (ix2 e (⟨0, Nat.one_pos⟩ : Fin 1)) = wrap (s (ix1 e)) :=
  (col_apply _ e).trans rfl

/-- The printed dimension numbers of the scatter are those of a scatter of whole rows by a column of row numbers. -/
private theorem scatterDims_eq : scatter_S100000x64_S1600000x1_S1600000x64_1_0_0_1
    = ScatterAddRows.rowDims 100000 64 1600000 scatter_S100000x64_S1600000x1_S1600000x64_1_0_0_1_wf := rfl

/-- The printed dimension numbers of the gather are those of a take of whole rows by a column of row numbers. -/
private theorem gatherDims_eq : gather_S100000x64_S1600000x1_S1600000x64_1_0_n_n_0_1_164
    = GatherRows.rowDims 100000 64 1600000 gather_S100000x64_S1600000x1_S1600000x64_1_0_n_n_0_1_164_wf := rfl

/-- On the extended reals the host's accumulating scatter is the exact sum of the updates that land on an entry. -/
private theorem scatterAdd_eq (x : (⟨2, ![100000, 64]⟩ : Shape).Idx → EReal) (idx : IVec ⟨2, ![1600000, 1]⟩ 32)
    (upd : (⟨2, ![1600000, 64]⟩ : Shape).Idx → EReal) :
    Host.scatterAdd (F := Ideal) (φ := .f32) scatter_S100000x64_S1600000x1_S1600000x64_1_0_0_1 x idx upd
      = Ideal.hostScatterAdd
          (ScatterAddRows.rowDims 100000 64 1600000 scatter_S100000x64_S1600000x1_S1600000x64_1_0_0_1_wf) x idx upd := by
  rw [Host.scatterAdd, Ideal.hostScatterAdd_def, scatterDims_eq]

/-- The rows of a table `x` taken at the wrapped source ids and added into zeros at the target ids: entry `(k, c')` is
    the sum of `x`'s column `c'` at the source rows of the edges that point at `k`. The table added into is zero; edge
    `e` contributes where its target id, read signed, is `k`; what it contributes is the taken row, `x` at the wrapped
    source id read signed and clamped into the table. -/
private theorem aggTerm_apply (x : (⟨2, ![100000, 64]⟩ : Shape).Idx → EReal)
    (s d : (⟨1, ![1600000]⟩ : Shape).Idx → BitVec 32) (src dst : Fin 1600000 → BitVec 32)
    (hs : ∀ e, s (ix1 e) = src e) (hd : ∀ e, d (ix1 e) = dst e) (k : Fin 100000) (c' : Fin 64) :
    Host.scatterAdd (F := Ideal) scatter_S100000x64_S1600000x1_S1600000x64_1_0_0_1
        (broadcastInDim S100000x64 ![] bcast_S_S100000x64 (constant (F := Ideal) S_ .f32 0x00000000#32))
        (broadcastInDim S1600000x1 ![0] bcast_S1600000_S1600000x1_0 d)
        (Host.gather gather_S100000x64_S1600000x1_S1600000x64_1_0_n_n_0_1_164 x
          (broadcastInDim S1600000x1 ![0] bcast_S1600000_S1600000x1_0
            (select (cmpi .slt s (broadcastInDim S1600000 ![] bcast_S_S1600000 (constantI S_ 32 0#32)))
              (addi s (broadcastInDim S1600000 ![] bcast_S_S1600000 (constantI S_ 32 100000#32))) s)))
        (ix2 k c')
      = agg src dst (fun r => x (ix2 r c')) k := by
  rw [scatterAdd_eq, gatherDims_eq, ScatterAddRows.scatterAdd_rows_apply]
  -- the table the rows are added into is zero
  rw [broadcastInDim_scalar_apply, constant_apply, IdealReal.ofBits_zero_f32, EReal.coe_zero, zero_add]
  unfold agg
  refine Finset.sum_congr rfl fun e _ => ?_
  -- edge `e`: its target id decides whether it lands on `k`
  rw [col_apply, hd e, GatherRows.gather_rows_apply (by decide)]
  by_cases h : (dst e).toInt = (k.val : Int)
  · rw [if_pos h, if_pos (show lands dst e k from h)]
    -- the row it adds is the table's at its wrapped source id, signed and clamped
    refine congrArg (fun r => x (ix2 r c')) (Fin.ext ?_)
    show min _ (100000 - 1) = min (wrap (src e)).toInt.toNat (100000 - 1)
    rw [wrapCol_apply, hs e]
  · rw [if_neg h, if_neg (show ¬ lands dst e k from h)]

/-! ## The operations between the two regions -/

/-- The second region's aggregate: the first region's projected rows summed over each node's in-neighbours. -/
theorem v32_apply (k : Fin 100000) (c' : Fin 64) :
    (V3 m ρ c main_v32 : (⟨2, ![100000, 64]⟩ : Shape).Idx → EReal) (ix2 k c')
      = agg (Src m c) (Dst m c) (fun r => (W2 m ρ c (Proc.devRef .tc main_v22) : (⟨2, ![100000, 64]⟩ : Shape).Idx → EReal) (ix2 r c')) k := by
  -- the aggregate as the composed term of the operations that make it, over what the first region left
  have e : (V3 m ρ c main_v32 : (⟨2, ![100000, 64]⟩ : Shape).Idx → EReal)
      = Host.scatterAdd (F := Ideal) scatter_S100000x64_S1600000x1_S1600000x64_1_0_0_1
          (broadcastInDim S100000x64 ![] bcast_S_S100000x64 (constant (F := Ideal) S_ .f32 0x00000000#32))
          (broadcastInDim S1600000x1 ![0] bcast_S1600000_S1600000x1_0
            (W2 m ρ c (Proc.devRef .tc main_arg6) : (⟨1, ![1600000]⟩ : Shape).Idx → BitVec 32))
          (Host.gather gather_S100000x64_S1600000x1_S1600000x64_1_0_n_n_0_1_164
            (W2 m ρ c (Proc.devRef .tc main_v22) : (⟨2, ![100000, 64]⟩ : Shape).Idx → EReal)
            (broadcastInDim S1600000x1 ![0] bcast_S1600000_S1600000x1_0
              (select
                (cmpi .slt (W2 m ρ c (Proc.devRef .tc main_arg5) : (⟨1, ![1600000]⟩ : Shape).Idx → BitVec 32)
                  (broadcastInDim S1600000 ![] bcast_S_S1600000 (constantI S_ 32 0#32)))
                (addi (W2 m ρ c (Proc.devRef .tc main_arg5) : (⟨1, ![1600000]⟩ : Shape).Idx → BitVec 32)
                  (broadcastInDim S1600000 ![] bcast_S_S1600000 (constantI S_ 32 100000#32)))
                (W2 m ρ c (Proc.devRef .tc main_arg5) : (⟨1, ![1600000]⟩ : Shape).Idx → BitVec 32)))) := by
    show StableHlo.after hostOps1 (W2 m ρ c) (Proc.devRef .tc main_v32) = _
    after_results
  refine (congrFun e (ix2 k c')).trans ?_
  exact aggTerm_apply (W2 m ρ c (Proc.devRef .tc main_v22)) (W2 m ρ c (Proc.devRef .tc main_arg5))
    (W2 m ρ c (Proc.devRef .tc main_arg6)) (Src m c) (Dst m c)
    (fun e => congrFun (W2_arg5 m ρ c) (ix1 e)) (fun e => congrFun (W2_arg6 m ρ c) (ix1 e)) k c'

/-- The first region's projected rows reach the second region as the first left them. -/
theorem v22_eq : (V3 m ρ c main_v22 : (⟨2, ![100000, 64]⟩ : Shape).Idx → EReal) = W2 m ρ c (Proc.devRef .tc main_v22) := by
  show StableHlo.after hostOps1 (W2 m ρ c) (Proc.devRef .tc main_v22) = _
  after_results

/-- The in-degree column reaches the second region as the first region found it. -/
theorem v5_eq : (V3 m ρ c main_v5 : (⟨2, ![100000, 1]⟩ : Shape).Idx → EReal) = V1 m ρ c main_v5 := by
  -- no operation between the regions writes it, and no window of the first region stages it
  have h1 : (V3 m ρ c main_v5 : (⟨2, ![100000, 1]⟩ : Shape).Idx → EReal) = W2 m ρ c (Proc.devRef .tc main_v5) := by
    show StableHlo.after hostOps1 (W2 m ρ c) (Proc.devRef .tc main_v5) = _
    after_results
  exact h1.trans (W2_of_ne m ρ c main_v5 (by decide))

/-- The second bias as a row. -/
theorem v33_apply (c' : Fin 64) :
    (V3 m ρ c main_v33 : (⟨2, ![1, 64]⟩ : Shape).Idx → EReal) (ix2 (⟨0, Nat.one_pos⟩ : Fin 1) c') = Bb m c c' := by
  have e : (V3 m ρ c main_v33 : (⟨2, ![1, 64]⟩ : Shape).Idx → EReal)
      = shapeCast S1x64 (W2 m ρ c (Proc.devRef .tc main_arg4) : (⟨1, ![64]⟩ : Shape).Idx → EReal) shapeCasts_S64_S1x64 := by
    show StableHlo.after hostOps1 (W2 m ρ c) (Proc.devRef .tc main_v33) = _
    after_results
    rfl
  rw [e, W2_arg4]
  -- entry `(0, c')` of the row is entry `c'` of the vector
  exact shapeCast_a_1a_apply _ _ _ _

/-- The graph ids as a column. -/
theorem v34_apply (k : Fin 100000) :
    (V3 m ρ c main_v34 : (⟨2, ![100000, 1]⟩ : Shape).Idx → BitVec 32) (ix2 k (⟨0, Nat.one_pos⟩ : Fin 1)) = Gid m c k := by
  have e : (V3 m ρ c main_v34 : (⟨2, ![100000, 1]⟩ : Shape).Idx → BitVec 32)
      = shapeCast S100000x1 (W2 m ρ c (Proc.devRef .tc main_arg7) : (⟨1, ![100000]⟩ : Shape).Idx → BitVec 32)
          shapeCasts_S100000_S100000x1 := by
    show StableHlo.after hostOps1 (W2 m ρ c) (Proc.devRef .tc main_v34) = _
    after_results
    rfl
  rw [e, W2_arg7]
  -- entry `(k, 0)` of the column is entry `k` of the vector
  exact Cert.RowOps.shapeCast_a_a1_apply _ _ _ _

/-! ## The operations after the second region -/

/-- The result: the second region's sums over its counts, an empty graph dividing by one. -/
theorem v40_apply (a c' : Fin 64) :
    (W5 m ρ c (Proc.devRef .tc main_v40) : (⟨2, ![64, 64]⟩ : Shape).Idx → EReal) (ix2 a c')
      = Ideal.div ((W4 m ρ c (Proc.devRef .tc main_v35_0) : (⟨2, ![64, 64]⟩ : Shape).Idx → EReal) (ix2 a c'))
          (max ((W4 m ρ c (Proc.devRef .tc main_v35_1) : (⟨2, ![1, 64]⟩ : Shape).Idx → EReal) (ix2 (⟨0, Nat.one_pos⟩ : Fin 1) a)) oneW) := by
  -- the result as the composed term of the operations that make it, over what the second region left
  have e : (W5 m ρ c (Proc.devRef .tc main_v40) : (⟨2, ![64, 64]⟩ : Shape).Idx → EReal)
      = Host.divf (F := Ideal) (W4 m ρ c (Proc.devRef .tc main_v35_0) : (⟨2, ![64, 64]⟩ : Shape).Idx → EReal)
          (broadcastInDim S64x64 ![0, 1] bcast_S64x1_S64x64_0_1
            (maximumf (F := Ideal)
              (shapeCast S64x1 (W4 m ρ c (Proc.devRef .tc main_v35_1) : (⟨2, ![1, 64]⟩ : Shape).Idx → EReal) shapeCasts_S1x64_S64x1)
              (broadcastInDim S64x1 ![] bcast_S_S64x1 (constant (F := Ideal) S_ .f32 0x3F800000#32)))) := by
    show StableHlo.after hostOps2 (W4 m ρ c) (Proc.devRef .tc main_v40) = _
    after_results
    rfl
  rw [e]
  -- the quotient is entry by entry; the divisor at `(a, c')` is the column of clamped counts at `(a, 0)`
  refine (hostDivf_apply _ _ _).trans ?_
  refine congrArg (Ideal.div _) ?_
  refine (broadcastInDim_apply _ _ _ (ix2 a c') (ix2 a (⟨0, Nat.one_pos⟩ : Fin 1)) (fun ax => ?_)).trans ?_
  · match ax with
    | ⟨0, _⟩ =>
      show a.val = if (64 : ℕ) = 1 then 0 else a.val
      rw [if_neg (by decide)]
    | ⟨1, _⟩ => rfl
  · -- the clamped count of graph `a`: the larger of entry `(0, a)` of the row of counts and the number one
    refine (maximumf_apply _ _ _).trans ?_
    refine congrArg₂ max ?_ ?_
    · refine shapeCast_apply _ _ _ (ix2 (⟨0, Nat.one_pos⟩ : Fin 1) a) ?_
      rw [Shape.rowMajor_val_two, Shape.rowMajor_val_two]
      show 0 * 64 + a.val = a.val * 1 + 0
      omega
    · exact broadcastInDim_scalar_apply _ _ _

end Cert.Sage.KHost12

end
-- ==== Proof.LibPlainMatmul.lean ====
/-
  A plain matrix product [M, K] x [K, N] into the zero accumulator, read at an entry, over the extended reals.

  With dimension numbers "contract the left operand's axis 1 with the right operand's axis 0, no batch axes"
  (`DotDims.plain M K N`) the product's entry (r, c) is the sum over k of a (r, k) * b (k, c): the left operand is read at
  the output's row and the contraction coordinate, the right one at the contraction coordinate and the output's column.
  Stated at any extents, with indices written by their coordinates.
-/
import Idealize.ShloMosaic.Lib.ValueIdx
import Idealize.ShloMosaic.PureOps.Ideal.Laws

noncomputable section

namespace Cert.PlainMatmul

open Idealize.ShloMosaic Idealize.ShloMosaic.ValueIdx

variable {M K N : ℕ}

/-- The left operand's row coordinate is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (r, c) of the product into the zero accumulator is the sum over k of a (r, k) * b (k, c). -/
theorem apply (prec : Option ContractPrecision) {φ₁ φ₂ : FTy} (a : FVec Ideal ⟨2, ![M, K]⟩ φ₁) (b : FVec Ideal ⟨2, ![K, N]⟩ φ₂)
    (r : Fin M) (c : Fin N) :
    FloatOps.matmul (DotDims.plain M K N) prec a b (constant ⟨2, ![M, N]⟩ .f32 0x00000000#32) (ix2 r c)
      = ∑ k : Fin K, a (ix2 r k) * b (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun x => Fin.ext (by
      match x with
      | ⟨0, _⟩ => exact lhs_row _ _
      | ⟨1, _⟩ => exact (lhs_col _ _).trans hk)
  have er : (DotDims.plain M K N).rhsIdx (ix2 r c) ((contrEquiv1 (DotDims.plain M K N) K rfl rfl).symm k) = ix2 k c :=
    funext fun x => Fin.ext (by
      match x with
      | ⟨0, _⟩ => exact (rhs_row _ _).trans hk
      | ⟨1, _⟩ => exact rhs_col _ _)
  rw [el, er]

end Cert.PlainMatmul

end
-- ==== Proof.Region0.lean ====
/-
  The first kernel region's value: whatever contents `V` it is entered from, row `k` of its output array is layer 1 of
  row `k` of its input, projected — each block of 5000 rows computed from the same rows of the input.
-/
import Idealize.ShloMosaic.Lib.ValueIdx
import proofs.«422015_j20993800143187_3_alg».proof.Proof.Gen.KernelIdeal.Frame
import proofs.«422015_j20993800143187_3_alg».proof.Proof.Spec
import proofs.«422015_j20993800143187_3_alg».proof.Proof.LibPlainMatmul
import proofs.«422015_j20993800143187_3_alg».proof.Proof.LibRowOps
import proofs.«422015_j20993800143187_3_alg».proof.Proof.LibIdealReal

set_option maxRecDepth 16384

noncomputable section

namespace Cert.Sage.Region0

open Idealize.ShloMosaic Idealize.ShloMosaic.TcCoe Idealize.SL.Sem Idealize.ShloMosaic.ValueIdx
open Cert.KernelIdeal Cert.KernelIdeal.Gen Cert.Sage
open scoped BigOperators

/-! ## The body's arithmetic on one block, read at an entry

  A block is 5000 rows of the input (`x0`), the two weight matrices (`x1`, `x3`) and the bias row (`x2`). -/

/-- The dense map of a block at (r, j): the row's product with the weights, plus the bias. -/
private theorem dense_apply (x0 : FVec Ideal S5000x23 .f32) (x1 : FVec Ideal S23x128 .f32) (x2 : FVec Ideal S1x128 .f32)
    (r : Fin 5000) (j : Fin 128) :
    (addf (matmul dot_S5000x23_S23x128_S5000x128_1_0_0_1_n_n none (shapeCast S5000x23 x0 Facts₀.shapeCasts_S5000x23_S5000x23) x1
        (constant (F := Ideal) S5000x128 .f32 0x00000000#32))
      (broadcastTo S5000x128 (shapeCast S1x128 x2 Facts₀.shapeCasts_S1x128_S1x128) Facts₀.broadcasts_S1x128_S5000x128) : FVec Ideal S5000x128 .f32) (ix2 r j)
      = (∑ q : Fin 23, x0 (ix2 r q) * x1 (ix2 q j)) + x2 (ix2 (⟨0, Nat.one_pos⟩ : Fin 1) j) := by
  rw [shapeCast_self, shapeCast_self, addf_apply]
  have hd : dot_S5000x23_S23x128_S5000x128_1_0_0_1_n_n = DotDims.plain 5000 23 128 := rfl
  rw [hd]
  refine congrArg₂ (· + ·) (Cert.PlainMatmul.apply none x0 x1 r j) ?_
  exact broadcastTo_1b_ab_apply x2 _ r j

/-- The block's rows after the dense map and the positive part. -/
private def blockPre (x0 : FVec Ideal S5000x23 .f32) (x1 : FVec Ideal S23x128 .f32) (x2 : FVec Ideal S1x128 .f32) : FVec Ideal S5000x128 .f32 :=
  maximumf (addf (matmul dot_S5000x23_S23x128_S5000x128_1_0_0_1_n_n none (shapeCast S5000x23 x0 Facts₀.shapeCasts_S5000x23_S5000x23) x1
        (constant (F := Ideal) S5000x128 .f32 0x00000000#32))
      (broadcastTo S5000x128 (shapeCast S1x128 x2 Facts₀.shapeCasts_S1x128_S1x128) Facts₀.broadcasts_S1x128_S5000x128))
    (broadcast S5000x128 (Scalar.ofBits (F := Ideal) .f32 0x00000000#32))

/-- The positive part at (r, j). -/
private theorem blockPre_apply (x0 : FVec Ideal S5000x23 .f32) (x1 : FVec Ideal S23x128 .f32) (x2 : FVec Ideal S1x128 .f32)
    (r : Fin 5000) (j : Fin 128) :
    blockPre x0 x1 x2 (ix2 r j)
      = max ((∑ q : Fin 23, x0 (ix2 r q) * x1 (ix2 q j)) + x2 (ix2 (⟨0, Nat.one_pos⟩ : Fin 1) j)) 0 := by
  unfold blockPre
  rw [maximumf_apply, dense_apply, broadcast_apply]
  exact congrArg (max _) Ideal.ofBits_zero_f32

/-- The block's row norms, kept away from zero, as a column. -/
private def blockNrm (P : FVec Ideal S5000x128 .f32) : FVec Ideal S5000x1 .f32 :=
  maximumf (sqrt (shapeCast S5000x1
      (multiReduction .add [1] S5000 (mulf P P) 0x00000000#32 Facts₀.reduces_S5000x128_S5000 (.inl rfl) rfl) Facts₀.shapeCasts_S5000_S5000x1))
    (broadcast S5000x1 (Scalar.ofBits (F := Ideal) .f32 0x2B8CBCCC#32))

/-- The clamped norm of row r: the square root of the row's sum of squares, at least `ε`. -/
private theorem blockNrm_apply (P : FVec Ideal S5000x128 .f32) (r : Fin 5000) (u : Fin 1) :
    blockNrm P (ix2 r u) = max (Ideal.sqrt (∑ j : Fin 128, P (ix2 r j) * P (ix2 r j))) eps := by
  unfold blockNrm
  rw [maximumf_apply, broadcast_apply]
  refine congrArg (fun z => max (Ideal.sqrt z) eps) ?_
  refine (Cert.RowOps.shapeCast_a_a1_apply _ _ r u).trans ?_
  exact Cert.RowOps.rowSum_apply (mulf P P) 0x00000000#32 _ _ _ r

/-- The body's one stored value is the normalised block times the second weight matrix. -/
private theorem stored_eq (x0 : FVec Ideal S5000x23 .f32) (x1 : FVec Ideal S23x128 .f32) (x2 : FVec Ideal S1x128 .f32) (x3 : FVec Ideal S128x64 .f32) :
    k0_pay1 x0 x1 x2 x3
      = matmul dot_S5000x128_S128x64_S5000x64_1_0_0_1_n_n none
          (divf (blockPre x0 x1 x2) (broadcastTo S5000x128 (blockNrm (blockPre x0 x1 x2)) Facts₀.broadcasts_S5000x1_S5000x128))
          x3 (constant (F := Ideal) S5000x64 .f32 0x00000000#32) := rfl

/-- The stored value at (r, c): the row's positive part over its clamped norm, times column c of the second weights. -/
private theorem stored_apply (x0 : FVec Ideal S5000x23 .f32) (x1 : FVec Ideal S23x128 .f32) (x2 : FVec Ideal S1x128 .f32) (x3 : FVec Ideal S128x64 .f32)
    (r : Fin 5000) (c' : Fin 64) :
    (k0_pay1 (F := Ideal) x0 x1 x2 x3 : FVec Ideal S5000x64 .f32) (ix2 r c')
      = ∑ j : Fin 128, Ideal.div (blockPre x0 x1 x2 (ix2 r j))
            (max (Ideal.sqrt (∑ j' : Fin 128, blockPre x0 x1 x2 (ix2 r j') * blockPre x0 x1 x2 (ix2 r j'))) eps) * x3 (ix2 j c') := by
  rw [stored_eq]
  have hd : dot_S5000x128_S128x64_S5000x64_1_0_0_1_n_n = DotDims.plain 5000 128 64 := rfl
  rw [hd]
  refine (Cert.PlainMatmul.apply none _ x3 r c').trans ?_
  refine Finset.sum_congr rfl fun j _ => ?_
  rw [divf_apply, Cert.RowOps.broadcastTo_a1_ab_apply (by decide) _ _ r j, blockNrm_apply]

/-! ## From the blocks to the array -/

variable (V : (c : Dev nD) → (b : Ref sig .tc) → Buf (Elt Ideal) ((c : Thread nD τ).loc b)) (c : Dev nD)

/-- The input rows, the two weight matrices and the bias as the region finds them. -/
private abbrev hnV : Fin 100000 → Fin 23 → EReal := fun k q => (V c main_v20 : (⟨2, ![100000, 23]⟩ : Shape).Idx → EReal) (ix2 k q)
private abbrev w1V : Fin 23 → Fin 128 → EReal := fun q j => (V c main_arg1 : (⟨2, ![23, 128]⟩ : Shape).Idx → EReal) (ix2 q j)
private abbrev b1V : Fin 128 → EReal := fun j => (V c main_v21 : (⟨2, ![1, 128]⟩ : Shape).Idx → EReal) (ix2 (⟨0, Nat.one_pos⟩ : Fin 1) j)
private abbrev w2V : Fin 128 → Fin 64 → EReal := fun j c' => (V c main_arg3 : (⟨2, ![128, 64]⟩ : Shape).Idx → EReal) (ix2 j c')

/-- What the output array ends holding: layer 1 of each input row, projected. -/
private def G : (⟨2, ![100000, 64]⟩ : Shape).Idx → EReal :=
  fun i => g (hnV V c) (w1V V c) (b1V V c) (w2V V c) (i 0) (i 1)

/-- The zero offsets, as a function. -/
private theorem hz : (![0, 0] : Fin 2 → Nat) = fun _ => 0 := funext fun a => by fin_cases a <;> rfl

/-- The printed index maps over the grid: the row blocks of the input and of the output move with the point, every
    other block index is zero. -/
private theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The grid has 20 points. -/
private theorem t_lt (t : Fin cfg0.N) : t.val < 20 := lt_of_lt_of_eq t.isLt N_0

/-- Row r of the input's block at point t is row 5000 t + r of the input. -/
private theorem in_apply (t : Fin cfg0.N) (r : Fin 5000) (q : Fin 23) (k : Fin 100000) (hk : k.val = 5000 * t.val + r.val) :
    (iblk0 V c 0 t : FVec Ideal S5000x23 .f32) (ix2 r q) = hnV V c k q := by
  obtain ⟨e0, e1, -⟩ := idx_facts t
  show V c main_v20 (((cfg0.win 0).blk t).view.emb (ix2 r q)) = V c main_v20 (ix2 k q)
  congr 1
  funext a; apply Fin.ext
  match a with
  | ⟨0, _⟩ => show win0_0.index t (0 : Fin 2) * 5000 + 1 * r.val = k.val; omega
  | ⟨1, _⟩ => show win0_0.index t (1 : Fin 2) * 23 + 1 * q.val = q.val; omega

/-- The first weight matrix's block is the matrix. -/
private theorem w1_apply (t : Fin cfg0.N) (q : Fin 23) (j : Fin 128) :
    (iblk0 V c 1 t : FVec Ideal S23x128 .f32) (ix2 q j) = w1V V c q j := by
  obtain ⟨-, -, e0, e1, -⟩ := idx_facts t
  show V c main_arg1 (((cfg0.win 1).blk t).view.emb (ix2 q j)) = V c main_arg1 (ix2 q j)
  congr 1
  funext a; apply Fin.ext
  match a with
  | ⟨0, _⟩ => show win0_1.index t (0 : Fin 2) * 23 + 1 * q.val = q.val; omega
  | ⟨1, _⟩ => show win0_1.index t (1 : Fin 2) * 128 + 1 * j.val = j.val; omega

/-- The bias row's block is the row. -/
private theorem b1_apply (t : Fin cfg0.N) (j : Fin 128) :
    (iblk0 V c 2 t : FVec Ideal S1x128 .f32) (ix2 (⟨0, Nat.one_pos⟩ : Fin 1) j) = b1V V c j := by
  obtain ⟨-, -, -, -, e0, e1, -⟩ := idx_facts t
  show V c main_v21 (((cfg0.win 2).blk t).view.emb (ix2 (⟨0, Nat.one_pos⟩ : Fin 1) j)) = V c main_v21 (ix2 (⟨0, Nat.one_pos⟩ : Fin 1) j)
  congr 1
  funext a; apply Fin.ext
  match a with
  | ⟨0, _⟩ => show win0_2.index t (0 : Fin 2) * 1 + 1 * 0 = 0; omega
  | ⟨1, _⟩ => show win0_2.index t (1 : Fin 2) * 128 + 1 * j.val = j.val; omega

/-- The second weight matrix's block is the matrix. -/
private theorem w2_apply (t : Fin cfg0.N) (j : Fin 128) (c' : Fin 64) :
    (iblk0 V c 3 t : FVec Ideal S128x64 .f32) (ix2 j c') = w2V V c j c' := by
  obtain ⟨-, -, -, -, -, -, e0, e1, -⟩ := idx_facts t
  show V c main_arg3 (((cfg0.win 3).blk t).view.emb (ix2 j c')) = V c main_arg3 (ix2 j c')
  congr 1
  funext a; apply Fin.ext
  match a with
  | ⟨0, _⟩ => show win0_3.index t (0 : Fin 2) * 128 + 1 * j.val = j.val; omega
  | ⟨1, _⟩ => show win0_3.index t (1 : Fin 2) * 64 + 1 * c'.val = c'.val; omega

/-- The block's positive part at row r is layer 1's at row 5000 t + r. -/
private theorem blockPre_blk (t : Fin cfg0.N) (r : Fin 5000) (k : Fin 100000) (hk : k.val = 5000 * t.val + r.val) (j : Fin 128) :
    blockPre (iblk0 V c 0 t) (iblk0 V c 1 t) (iblk0 V c 2 t) (ix2 r j) = pre1 (hnV V c) (w1V V c) (b1V V c) k j := by
  rw [blockPre_apply]
  unfold pre1
  exact congrArg₂ max (congrArg₂ (· + ·)
    (Finset.sum_congr rfl fun q _ => congrArg₂ (· * ·) (in_apply V c t r q k hk) (w1_apply V c t q j)) (b1_apply V c t j)) rfl

/-- WHAT POINT t WRITES BACK is block t of `G`. -/
private theorem flushed_eq (t : Fin cfg0.N) :
    (dat0 V c).flushed 4 t = ((cfg0.win 4).blk t).view.read (Elt Ideal) (G V c) := by
  show (cfg0.win 4).cut (grid0.coords t) ((dat0 V c).after 4 t) = _
  rw [after0_4]
  unfold out0_4
  rw [View.canon_unit_zero hz]
  simp only [View.ld_unit_zero (S := S5000x23) hz, View.ld_unit_zero (S := S23x128) hz, View.ld_unit_zero (S := S1x128) hz,
    View.ld_unit_zero (S := S128x64) hz]
  refine funext fun (y : S5000x64.Idx) => ?_
  obtain ⟨r, c', rfl⟩ : ∃ (r : Fin 5000) (c' : Fin 64), y = ix2 r c' := ⟨y 0, y 1, eq_ix2 y⟩
  have ht := t_lt t
  obtain ⟨-, -, -, -, -, -, -, -, e0, e1⟩ := idx_facts t
  have hemb : ((cfg0.win 4).blk t).view.emb (ix2 r c') = ix2 (⟨5000 * t.val + r.val, by omega⟩ : Fin 100000) c' := by
    funext a; apply Fin.ext
    match a with
    | ⟨0, _⟩ => show win0_4.index t (0 : Fin 2) * 5000 + 1 * r.val = 5000 * t.val + r.val; omega
    | ⟨1, _⟩ => show win0_4.index t (1 : Fin 2) * 64 + 1 * c'.val = c'.val; omega
  show (k0_pay1 (F := Ideal) (iblk0 V c 0 t) (iblk0 V c 1 t) (iblk0 V c 2 t) (iblk0 V c 3 t) : FVec Ideal S5000x64 .f32) (ix2 r c')
    = G V c (((cfg0.win 4).blk t).view.emb (ix2 r c'))
  rw [hemb]
  refine (stored_apply (iblk0 V c 0 t) (iblk0 V c 1 t) (iblk0 V c 2 t) (iblk0 V c 3 t) r c').trans ?_
  show _ = g (hnV V c) (w1V V c) (b1V V c) (w2V V c) (⟨5000 * t.val + r.val, by omega⟩ : Fin 100000) c'
  unfold g h1 nrm
  refine Finset.sum_congr rfl fun j _ => ?_
  exact congrArg₂ (· * ·)
    (congrArg₂ Ideal.div (blockPre_blk V c t r _ rfl j)
      (congrArg (fun z => max (Ideal.sqrt z) eps)
        (Finset.sum_congr rfl fun j' _ => congrArg₂ (· * ·) (blockPre_blk V c t r _ rfl j') (blockPre_blk V c t r _ rfl j'))))
    (w2_apply V c t j c')

/-- An index of the output array is in point t's block iff each coordinate is in the block's range on its axis. -/
private theorem mem_blk (t : Fin cfg0.N) (i : S100000x64.Idx) :
    i ∈ ((cfg0.win 4).blk t).view.set ↔ ∀ a : Fin 2, win0_4.index t a * S5000x64.size a ≤ (i a).val ∧ (i a).val < win0_4.index t a * S5000x64.size a + S5000x64.size a := by
  show i ∈ ((View.whole main_v22).slice (win0_4.rect t)).set ↔ _
  rw [View.set_slice_whole, Rect.mem_set_unit]
  exact Iff.rfl

/-- THE ARRAY after the region: row k is in the block of point k / 5000, so the blocks cover it and it ends holding `G`. -/
private theorem final : (dat0 V c).arrAt 4 cfg0.N = G V c :=
  (dat0 V c).arrAt_eq_of_cover 4 (G V c) (fun t _ => flushed_eq V c t) fun i => by
    have hi0 : (i 0).val < 100000 := (i 0).isLt
    have hi1 : (i 1).val < 64 := (i 1).isLt
    have hN : cfg0.N = 20 := N_0
    let t : Fin cfg0.N := ⟨(i 0).val / 5000, by omega⟩
    obtain ⟨-, -, -, -, -, -, -, -, e0, e1⟩ := idx_facts t
    have et : t.val = (i 0).val / 5000 := rfl
    refine ⟨t, flush0_4 t, ?_⟩
    rw [mem_blk]
    intro a
    match a with
    | ⟨0, _⟩ => show win0_4.index t (0 : Fin 2) * 5000 ≤ (i 0).val ∧ (i 0).val < win0_4.index t (0 : Fin 2) * 5000 + 5000; omega
    | ⟨1, _⟩ => show win0_4.index t (1 : Fin 2) * 64 ≤ (i 1).val ∧ (i 1).val < win0_4.index t (1 : Fin 2) * 64 + 64; omega

/-- The output array after the region, at row `k`, column `c'`. -/
theorem out_apply (k : Fin 100000) (c' : Fin 64) :
    ((dat0 V c).arrAt 4 cfg0.N : (⟨2, ![100000, 64]⟩ : Shape).Idx → EReal) (ix2 k c')
      = g (fun k q => (V c main_v20 : (⟨2, ![100000, 23]⟩ : Shape).Idx → EReal) (ix2 k q))
          (fun q j => (V c main_arg1 : (⟨2, ![23, 128]⟩ : Shape).Idx → EReal) (ix2 q j))
          (fun j => (V c main_v21 : (⟨2, ![1, 128]⟩ : Shape).Idx → EReal) (ix2 (⟨0, Nat.one_pos⟩ : Fin 1) j))
          (fun j c' => (V c main_arg3 : (⟨2, ![128, 64]⟩ : Shape).Idx → EReal) (ix2 j c')) k c' := by
  rw [final]
  rfl

end Cert.Sage.Region0

end
-- ==== Proof.Region1.lean ====
/-
  The second kernel region's value: whatever contents `V` it is entered from, its two output blocks, reset at the
  first grid point and added to at each of the twenty, end at the per-graph sums of layer 2's rows and the per-graph
  node counts — a node's row is added to graph `a` exactly when its id, as a word, is `a`.

  Point t reads rows 5000 t … 5000 t + 4999 of the four node arrays, and the bias row. It forms the rows of layer 2,
  `(agg + g) / (deg + 1) + bias`, and the block of indicators whose entry (r, a) is one when row r's id word is the
  word of a — for a below 64 that is: the word, read signed, is a. The product of the transposed indicator block
  with the layer 2 rows is, at (a, q), the sum of column q over the block's nodes of graph a; the indicator block's
  column sums count those nodes. Multiplying by one or by zero is exact on every extended real, so nothing is assumed
  of the entries. By induction on the point, after point n the two blocks hold the sums and the counts over the nodes
  below 5000 (n + 1); the one write-back, after the last point, covers both arrays.
-/
import Idealize.ShloMosaic.Lib.ValueIdx
import Idealize.ShloMosaic.Lib.Pipeline.Value
import proofs.«422015_j20993800143187_3_alg».proof.Proof.Gen.KernelIdeal.Frame
import proofs.«422015_j20993800143187_3_alg».proof.Proof.Spec
import proofs.«422015_j20993800143187_3_alg».proof.Proof.LibRowOps
import proofs.«422015_j20993800143187_3_alg».proof.Proof.LibIdealReal

set_option maxRecDepth 16384

noncomputable section

namespace Cert.Sage.Region1

open Idealize.ShloMosaic Idealize.ShloMosaic.TcCoe Idealize.SL.Sem Idealize.ShloMosaic.ValueIdx
open Cert.KernelIdeal Cert.KernelIdeal.Gen Cert.Sage
open scoped BigOperators

section Pieces
variable {F : FTy → Type} [FloatOps F]

/-- The zero offsets of a whole block. -/
private theorem hz : (![0, 0] : Fin 2 → Nat) = fun _ => 0 := funext fun a => by fin_cases a <;> rfl

/-- At a point other than the first the sums' block is left at the update of what it held. -/
private theorem piece_B_5 (c : Dev nD) (i : grid1.Coords) (a1 : Memref sig .tc .vmem S5000x64 .f32) (h1 : a1.IsWhole) (a2 : Memref sig .tc .vmem S5000x64 .f32) (h2 : a2.IsWhole) (a3 : Memref sig .tc .vmem S5000x1 .f32) (h3 : a3.IsWhole) (a4 : Memref sig .tc .vmem S1x64 .f32) (h4 : a4.IsWhole) (a5 : Memref sig .tc .vmem S5000x1 .i32) (h5 : a5.IsWhole) (a6 : Memref sig .tc .vmem S64x64 .f32) (h6 : a6.IsWhole) (a7 : Memref sig .tc .vmem S1x64 .f32) (h7 : a7.IsWhole) (hc : ¬cond1_0 i)
    (x0 : Vec F S5000x64 .f32) (x1 : Vec F S5000x64 .f32) (x2 : Vec F S5000x1 .f32) (x3 : Vec F S1x64 .f32) (x4 : Vec F S5000x1 .i32) (xo5 : Vec F S64x64 .f32) (xo6 : Vec F S1x64 .f32) :
    out1_B_5 c i a1 h1 a2 h2 a3 h3 a4 h4 a5 h5 a6 h6 a7 h7 hc x0 x1 x2 x3 x4 xo5 xo6 = k1_pay4 x0 x1 x2 x3 x4 xo5 := by
  unfold out1_B_5
  rw [View.read_writes_eq_canon _ _ _ (cover1_B_5 c i a1 h1 a2 h2 a3 h3 a4 h4 a5 h5 a6 h6 a7 h7 hc x0 x1 x2 x3 x4 xo5 xo6)]
  unfold kernelRun1_B
  dsimp only
  sl_unfold_words
  rw [View.canon_unit_zero hz]
  simp only [View.readAt_eq_ld, h1.read_unread, h2.read_unread, h3.read_unread, h4.read_unread, h5.read_unread, h6.read_unread, h7.read_unread, View.ld_unit_zero (S := S5000x64) hz, View.ld_unit_zero (S := S5000x1) hz, View.ld_unit_zero (S := S1x64) hz, View.ld_unit_zero (S := S64x64) hz]

/-- At a point other than the first the counts' block is left at the update of what it held. -/
private theorem piece_B_6 (c : Dev nD) (i : grid1.Coords) (a1 : Memref sig .tc .vmem S5000x64 .f32) (h1 : a1.IsWhole) (a2 : Memref sig .tc .vmem S5000x64 .f32) (h2 : a2.IsWhole) (a3 : Memref sig .tc .vmem S5000x1 .f32) (h3 : a3.IsWhole) (a4 : Memref sig .tc .vmem S1x64 .f32) (h4 : a4.IsWhole) (a5 : Memref sig .tc .vmem S5000x1 .i32) (h5 : a5.IsWhole) (a6 : Memref sig .tc .vmem S64x64 .f32) (h6 : a6.IsWhole) (a7 : Memref sig .tc .vmem S1x64 .f32) (h7 : a7.IsWhole) (hc : ¬cond1_0 i)
    (x0 : Vec F S5000x64 .f32) (x1 : Vec F S5000x64 .f32) (x2 : Vec F S5000x1 .f32) (x3 : Vec F S1x64 .f32) (x4 : Vec F S5000x1 .i32) (xo5 : Vec F S64x64 .f32) (xo6 : Vec F S1x64 .f32) :
    out1_B_6 c i a1 h1 a2 h2 a3 h3 a4 h4 a5 h5 a6 h6 a7 h7 hc x0 x1 x2 x3 x4 xo5 xo6 = k1_pay5 x4 xo6 := by
  unfold out1_B_6
  rw [View.read_writes_eq_canon _ _ _ (cover1_B_6 c i a1 h1 a2 h2 a3 h3 a4 h4 a5 h5 a6 h6 a7 h7 hc x0 x1 x2 x3 x4 xo5 xo6)]
  unfold kernelRun1_B
  dsimp only
  sl_unfold_words
  rw [View.canon_unit_zero hz]
  simp only [View.readAt_eq_ld, h1.read_unread, h2.read_unread, h3.read_unread, h4.read_unread, h5.read_unread, h6.read_unread, h7.read_unread, View.ld_unit_zero (S := S5000x64) hz, View.ld_unit_zero (S := S5000x1) hz, View.ld_unit_zero (S := S1x64) hz, View.ld_unit_zero (S := S64x64) hz]

/-- At the first point the sums' block is left at the update of the zero block it was reset to. -/
private theorem piece_A_5 (c : Dev nD) (i : grid1.Coords) (a1 : Memref sig .tc .vmem S5000x64 .f32) (h1 : a1.IsWhole) (a2 : Memref sig .tc .vmem S5000x64 .f32) (h2 : a2.IsWhole) (a3 : Memref sig .tc .vmem S5000x1 .f32) (h3 : a3.IsWhole) (a4 : Memref sig .tc .vmem S1x64 .f32) (h4 : a4.IsWhole) (a5 : Memref sig .tc .vmem S5000x1 .i32) (h5 : a5.IsWhole) (a6 : Memref sig .tc .vmem S64x64 .f32) (h6 : a6.IsWhole) (a7 : Memref sig .tc .vmem S1x64 .f32) (h7 : a7.IsWhole) (hc : cond1_0 i)
    (x0 : Vec F S5000x64 .f32) (x1 : Vec F S5000x64 .f32) (x2 : Vec F S5000x1 .f32) (x3 : Vec F S1x64 .f32) (x4 : Vec F S5000x1 .i32) :
    out1_A_5 c i a1 h1 a2 h2 a3 h3 a4 h4 a5 h5 a6 h6 a7 h7 hc x0 x1 x2 x3 x4 = k1_pay4 x0 x1 x2 x3 x4 (k1_pay1 (F := F)) := by
  unfold out1_A_5
  rw [View.read_writes_eq_canon _ _ _ (cover1_A_5 c i a1 h1 a2 h2 a3 h3 a4 h4 a5 h5 a6 h6 a7 h7 hc x0 x1 x2 x3 x4)]
  unfold kernelRun1_A
  dsimp only
  sl_unfold_words
  rw [View.canon_cons_unit_zero (S := S64x64) hz]
  simp only [View.readAt_eq_ld, h1.read_unread, h2.read_unread, h3.read_unread, h4.read_unread, h5.read_unread, h6.read_unread, h7.read_unread, View.ld_unit_zero (S := S5000x64) hz, View.ld_unit_zero (S := S5000x1) hz, View.ld_unit_zero (S := S1x64) hz, View.ld_unit_zero (S := S64x64) hz, View.readCov_unit_zero (S := S64x64) _ hz]

/-- At the first point the counts' block is left at the update of the zero block it was reset to. -/
private theorem piece_A_6 (c : Dev nD) (i : grid1.Coords) (a1 : Memref sig .tc .vmem S5000x64 .f32) (h1 : a1.IsWhole) (a2 : Memref sig .tc .vmem S5000x64 .f32) (h2 : a2.IsWhole) (a3 : Memref sig .tc .vmem S5000x1 .f32) (h3 : a3.IsWhole) (a4 : Memref sig .tc .vmem S1x64 .f32) (h4 : a4.IsWhole) (a5 : Memref sig .tc .vmem S5000x1 .i32) (h5 : a5.IsWhole) (a6 : Memref sig .tc .vmem S64x64 .f32) (h6 : a6.IsWhole) (a7 : Memref sig .tc .vmem S1x64 .f32) (h7 : a7.IsWhole) (hc : cond1_0 i)
    (x0 : Vec F S5000x64 .f32) (x1 : Vec F S5000x64 .f32) (x2 : Vec F S5000x1 .f32) (x3 : Vec F S1x64 .f32) (x4 : Vec F S5000x1 .i32) :
    out1_A_6 c i a1 h1 a2 h2 a3 h3 a4 h4 a5 h5 a6 h6 a7 h7 hc x0 x1 x2 x3 x4 = k1_pay5 x4 (k1_pay2 (F := F)) := by
  unfold out1_A_6
  rw [View.read_writes_eq_canon _ _ _ (cover1_A_6 c i a1 h1 a2 h2 a3 h3 a4 h4 a5 h5 a6 h6 a7 h7 hc x0 x1 x2 x3 x4)]
  unfold kernelRun1_A
  dsimp only
  sl_unfold_words
  rw [View.canon_cons_unit_zero (S := S1x64) hz]
  simp only [View.readAt_eq_ld, h1.read_unread, h2.read_unread, h3.read_unread, h4.read_unread, h5.read_unread, h6.read_unread, h7.read_unread, View.ld_unit_zero (S := S5000x64) hz, View.ld_unit_zero (S := S5000x1) hz, View.ld_unit_zero (S := S1x64) hz, View.ld_unit_zero (S := S64x64) hz, View.readCov_unit_zero (S := S1x64) _ hz]

end Pieces

section Payloads

/-- A word is the word of a number below 64 exactly when its signed reading is that number. -/
private theorem toInt_ofNat_small (a : Fin 64) : (BitVec.ofNat 32 a.val).toInt = (a.val : Int) := by
  have ha : a.val < 64 := a.isLt
  have h1 : (BitVec.ofNat 32 a.val).toNat = a.val := by rw [BitVec.toNat_ofNat]; omega
  rw [BitVec.toInt_eq_toNat_of_lt (by rw [h1]; omega), h1]

private theorem word_eq_iff (x : BitVec 32) (a : Fin 64) : x = BitVec.ofNat 32 a.val ↔ x.toInt = (a.val : Int) :=
  ⟨fun h => h ▸ toInt_ofNat_small a, fun h => BitVec.eq_of_toInt_eq (h.trans (toInt_ofNat_small a).symm)⟩

/-- One exactly on the rows whose id word reads as the graph's number. -/
private def ind (g : BitVec 32) (a : Fin 64) : EReal := if g.toInt = (a.val : Int) then 1 else 0

private theorem ind_mul (g : BitVec 32) (a : Fin 64) (x : EReal) : ind g a * x = if g.toInt = (a.val : Int) then x else 0 := by
  unfold ind
  split
  · exact one_mul x
  · exact zero_mul x

private abbrev u0 : Fin 1 := ⟨0, Nat.one_pos⟩

/-! The product contracts the row axis of both operands: each operand is read at the contraction coordinate on its
    axis 0 and at the output's own coordinate on its axis 1. -/

private theorem lhs_axis0 (j : S64x64.Idx) (k : dot_S5000x64_S5000x64_S64x64_0_0_1_1_n_n.contr.Idx) :
    (dot_S5000x64_S5000x64_S64x64_0_0_1_1_n_n.lhsIdx j k 0).val = (k ⟨0, Nat.one_pos⟩).val :=
  dot_S5000x64_S5000x64_S64x64_0_0_1_1_n_n.lhsIdx_val_of_single rfl j k

private theorem lhs_axis1 (j : S64x64.Idx) (k : dot_S5000x64_S5000x64_S64x64_0_0_1_1_n_n.contr.Idx) :
    (dot_S5000x64_S5000x64_S64x64_0_0_1_1_n_n.lhsIdx j k 1).val = (j 0).val := by
  unfold DotDims.lhsIdx
  rw [dif_neg (show ¬(1 : Fin S5000x64.rank) ∈ dot_S5000x64_S5000x64_S64x64_0_0_1_1_n_n.lhsBatch from List.not_mem_nil),
    dif_pos (show (1 : Fin S5000x64.rank) ∈ dot_S5000x64_S5000x64_S64x64_0_0_1_1_n_n.lhsNonContracting from List.mem_singleton.mpr rfl)]
  rfl

private theorem rhs_axis0 (j : S64x64.Idx) (k : dot_S5000x64_S5000x64_S64x64_0_0_1_1_n_n.contr.Idx) :
    (dot_S5000x64_S5000x64_S64x64_0_0_1_1_n_n.rhsIdx j k 0).val = (k ⟨0, Nat.one_pos⟩).val :=
  dot_S5000x64_S5000x64_S64x64_0_0_1_1_n_n.rhsIdx_val_of_single rfl j k

private theorem rhs_axis1 (j : S64x64.Idx) (k : dot_S5000x64_S5000x64_S64x64_0_0_1_1_n_n.contr.Idx) :
    (dot_S5000x64_S5000x64_S64x64_0_0_1_1_n_n.rhsIdx j k 1).val = (j 1).val := by
  unfold DotDims.rhsIdx
  rw [dif_neg (show ¬(1 : Fin S5000x64.rank) ∈ dot_S5000x64_S5000x64_S64x64_0_0_1_1_n_n.rhsBatch from List.not_mem_nil),
    dif_pos (show (1 : Fin S5000x64.rank) ∈ dot_S5000x64_S5000x64_S64x64_0_0_1_1_n_n.rhsNonContracting from List.mem_singleton.mpr rfl)]
  rfl

/-- The transposed product into the zero accumulator: entry (a, q) sums, over the rows r, L (r, a) * R (r, q). -/
private theorem tmatmul_apply (L R : S5000x64.Idx → EReal) (a q : Fin 64) :
    FloatOps.matmul (F := Ideal) (φ₁ := .f32) (φ₂ := .f32) dot_S5000x64_S5000x64_S64x64_0_0_1_1_n_n none L R (constant S64x64 .f32 0x00000000#32) (ix2 a q)
      = ∑ r : Fin 5000, L (ix2 r a) * R (ix2 r q) := by
  rw [Ideal.matmul_constant_zero_apply, ← Equiv.sum_comp (contrEquiv1 dot_S5000x64_S5000x64_S64x64_0_0_1_1_n_n 5000 rfl rfl).symm]
  refine Finset.sum_congr rfl fun r _ => ?_
  have hk := contrEquiv1_symm_val dot_S5000x64_S5000x64_S64x64_0_0_1_1_n_n 5000 rfl rfl r
  have el : dot_S5000x64_S5000x64_S64x64_0_0_1_1_n_n.lhsIdx (ix2 a q) ((contrEquiv1 dot_S5000x64_S5000x64_S64x64_0_0_1_1_n_n 5000 rfl rfl).symm r) = ix2 r a :=
    funext fun x => Fin.ext (by
      match x with
      | ⟨0, _⟩ => exact (lhs_axis0 _ _).trans hk
      | ⟨1, _⟩ => exact lhs_axis1 _ _)
  have er : dot_S5000x64_S5000x64_S64x64_0_0_1_1_n_n.rhsIdx (ix2 a q) ((contrEquiv1 dot_S5000x64_S5000x64_S64x64_0_0_1_1_n_n 5000 rfl rfl).symm r) = ix2 r q :=
    funext fun x => Fin.ext (by
      match x with
      | ⟨0, _⟩ => exact (rhs_axis0 _ _).trans hk
      | ⟨1, _⟩ => exact rhs_axis1 _ _)
  rw [el, er]

/-- Over column a, the source index whose row coordinate is k is (k, a). -/
private theorem lift_col (a : Fin 64) (k : Fin (S5000x64.size 0)) :
    reduces_S5000x64_S64.lift (ix1 a) k = ix2 (⟨k.val, k.isLt⟩ : Fin 5000) a := by
  funext x; apply Fin.ext
  fin_cases x <;> rfl

/-- The column sums of a block. -/
private theorem colSum_apply (src : S5000x64.Idx → EReal) (a : Fin 64) :
    multiReduction (F := Ideal) (φ := .f32) .add [0] S64 src 0x00000000#32 reduces_S5000x64_S64 (.inl rfl) rfl (ix1 a) = ∑ r : Fin 5000, src (ix2 r a) := by
  refine (Ideal.multiReduction_add_single src _ reduces_S5000x64_S64 (.inl rfl) rfl (ix1 a)).trans ?_
  exact Finset.sum_congr rfl fun k _ => congrArg src (lift_col a k)

/-- The indicator block: entry (r, a) is one exactly when row r's id word reads as a. -/
private theorem pay3_apply (x4 : S5000x1.Idx → BitVec 32) (r : Fin 5000) (a : Fin 64) :
    k1_pay3 (F := Ideal) x4 (ix2 r a) = ind (x4 (ix2 r u0)) a := by
  have e1 : broadcastTo S5000x64 (shapeCast S5000x1 x4 shapeCasts_S5000x1_S5000x1) broadcasts_S5000x1_S5000x64 (ix2 r a) = x4 (ix2 r u0) := by
    rw [shapeCast_self]
    exact Cert.RowOps.broadcastTo_a1_ab_apply (by decide) x4 broadcasts_S5000x1_S5000x64 r a
  have e2 : iota .tc S5000x64 32 [1] iota_S5000x64_d1_w32 (ix2 r a) = BitVec.ofNat 32 a.val :=
    iota_single_apply .tc S5000x64 32 1 iota_S5000x64_d1_w32 (ix2 r a)
  unfold k1_pay3
  show FloatOps.sitofp (F := Ideal) .f32 ((IntOp.cmpi .eq (broadcastTo S5000x64 (shapeCast S5000x1 x4 shapeCasts_S5000x1_S5000x1) broadcasts_S5000x1_S5000x64 (ix2 r a)) (iota .tc S5000x64 32 [1] iota_S5000x64_d1_w32 (ix2 r a))).setWidth 32) = _
  rw [e1, e2]
  show FloatOps.sitofp (F := Ideal) .f32 ((BitVec.ofBool (x4 (ix2 r u0) == BitVec.ofNat 32 a.val)).setWidth 32) = _
  rw [IdealReal.sitofp_setWidth_ofBool]
  unfold ind
  by_cases h : (x4 (ix2 r u0)).toInt = (a.val : Int)
  · rw [if_pos h, show (x4 (ix2 r u0) == BitVec.ofNat 32 a.val) = true from beq_iff_eq.mpr ((word_eq_iff _ a).mpr h)]
    simp
  · rw [if_neg h, show (x4 (ix2 r u0) == BitVec.ofNat 32 a.val) = false from beq_eq_false_iff_ne.mpr (fun e => h ((word_eq_iff _ a).mp e))]
    simp

/-- A row of layer 2 formed from a block's rows. -/
private def h2row (x0 x1 : S5000x64.Idx → EReal) (x2 : S5000x1.Idx → EReal) (x3 : S1x64.Idx → EReal) (r : Fin 5000) (q : Fin 64) : EReal :=
  Ideal.div (x0 (ix2 r q) + x1 (ix2 r q)) (x2 (ix2 r u0) + 1) + x3 (ix2 u0 q)

/-- The sums' update: what was there plus, over the block's rows whose id word reads as a, their layer 2 rows. -/
private theorem pay4_apply (x0 x1 : S5000x64.Idx → EReal) (x2 : S5000x1.Idx → EReal) (x3 : S1x64.Idx → EReal)
    (x4 : S5000x1.Idx → BitVec 32) (xo : S64x64.Idx → EReal) (a q : Fin 64) :
    k1_pay4 (F := Ideal) x0 x1 x2 x3 x4 xo (ix2 a q)
      = xo (ix2 a q) + ∑ r : Fin 5000, (if (x4 (ix2 r u0)).toInt = (a.val : Int) then h2row x0 x1 x2 x3 r q else 0) := by
  unfold k1_pay4
  refine (addf_apply _ _ (ix2 a q)).trans ?_
  refine congrArg₂ (· + ·) (congrFun (shapeCast_self xo shapeCasts_S64x64_S64x64) (ix2 a q)) ?_
  refine (tmatmul_apply _ _ a q).trans ?_
  refine Finset.sum_congr rfl fun r _ => ?_
  refine (congrArg₂ (· * ·) (pay3_apply x4 r a) ?_).trans (ind_mul _ a _)
  unfold h2row
  refine (addf_apply _ _ (ix2 r q)).trans ?_
  refine congrArg₂ (· + ·) ?_ ?_
  · refine (divf_apply _ _ (ix2 r q)).trans ?_
    refine congrArg₂ Ideal.div ?_ ?_
    · refine (addf_apply _ _ (ix2 r q)).trans ?_
      exact congrArg₂ (· + ·) (congrFun (shapeCast_self x0 shapeCasts_S5000x64_S5000x64) (ix2 r q))
        (congrFun (shapeCast_self x1 shapeCasts_S5000x64_S5000x64) (ix2 r q))
    · refine (Cert.RowOps.broadcastTo_a1_ab_apply (by decide) _ broadcasts_S5000x1_S5000x64 r q).trans ?_
      refine (addf_apply _ _ (ix2 r u0)).trans ?_
      refine congrArg₂ (· + ·) (congrFun (shapeCast_self x2 shapeCasts_S5000x1_S5000x1) (ix2 r u0)) ?_
      show Ideal.ofBits .f32 0x3F800000#32 = (1 : EReal)
      rw [IdealReal.ofBits_one_f32, EReal.coe_one]
  · refine (broadcastTo_apply _ broadcasts_S1x64_S5000x64 (ix2 r q) (ix2 u0 q) (fun ax => ?_)).trans ?_
    · match ax with
      | ⟨0, _⟩ => rfl
      | ⟨1, _⟩ => rfl
    · exact congrFun (shapeCast_self x3 shapeCasts_S1x64_S1x64) (ix2 u0 q)

/-- The counts' update: what was there plus the number of the block's rows whose id word reads as a. -/
private theorem pay5_apply (x4 : S5000x1.Idx → BitVec 32) (xo : S1x64.Idx → EReal) (a : Fin 64) :
    k1_pay5 (F := Ideal) x4 xo (ix2 u0 a)
      = xo (ix2 u0 a) + ∑ r : Fin 5000, (if (x4 (ix2 r u0)).toInt = (a.val : Int) then (1 : EReal) else 0) := by
  unfold k1_pay5
  refine (addf_apply _ _ (ix2 u0 a)).trans ?_
  refine congrArg₂ (· + ·) (congrFun (shapeCast_self xo shapeCasts_S1x64_S1x64) (ix2 u0 a)) ?_
  refine (shapeCast_apply _ shapeCasts_S64_S1x64 (ix2 u0 a) (ix1 a) (by
    rw [Shape.rowMajor_val_two, Shape.rowMajor_val_one]
    show a.val = 0 * 64 + a.val
    omega)).trans ?_
  refine (colSum_apply _ a).trans ?_
  exact Finset.sum_congr rfl fun r _ => pay3_apply x4 r a

end Payloads

variable (V : (c : Dev nD) → (b : Ref sig .tc) → Buf (Elt Ideal) ((c : Thread nD τ).loc b)) (c : Dev nD)

/-- The graph ids the region reads. -/
abbrev gidV : Fin 100000 → BitVec 32 := fun k => (V c main_v34 : (⟨2, ![100000, 1]⟩ : Shape).Idx → BitVec 32) (ix2 k (⟨0, Nat.one_pos⟩ : Fin 1))

/-- Layer 2's rows as the region forms them from its input arrays. -/
abbrev h2V : Fin 100000 → Fin 64 → EReal :=
  h2of (fun k c' => (V c main_v32 : (⟨2, ![100000, 64]⟩ : Shape).Idx → EReal) (ix2 k c'))
    (fun k c' => (V c main_v22 : (⟨2, ![100000, 64]⟩ : Shape).Idx → EReal) (ix2 k c'))
    (fun k => (V c main_v5 : (⟨2, ![100000, 1]⟩ : Shape).Idx → EReal) (ix2 k (⟨0, Nat.one_pos⟩ : Fin 1)))
    (fun c' => (V c main_v33 : (⟨2, ![1, 64]⟩ : Shape).Idx → EReal) (ix2 (⟨0, Nat.one_pos⟩ : Fin 1) c'))

section Blocks

/-- Where each input window's block sits at a grid point: the row blocks follow the point, the bias block never moves. -/
private theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The node that row r of the block at point t is. -/
private def node (t : Fin cfg1.N) (r : Fin 5000) : Fin 100000 :=
  ⟨5000 * t.val + r.val, by have := lt_of_lt_of_eq t.isLt (show cfg1.N = 20 from N_1); have := r.isLt; omega⟩

private abbrev bA (t : Fin cfg1.N) : S5000x64.Idx → EReal := iblk1 V c 0 t
private abbrev bG (t : Fin cfg1.N) : S5000x64.Idx → EReal := iblk1 V c 1 t
private abbrev bD (t : Fin cfg1.N) : S5000x1.Idx → EReal := iblk1 V c 2 t
private abbrev bB (t : Fin cfg1.N) : S1x64.Idx → EReal := iblk1 V c 3 t
private abbrev bI (t : Fin cfg1.N) : S5000x1.Idx → BitVec 32 := iblk1 V c 4 t

private theorem bA_apply (t : Fin cfg1.N) (r : Fin 5000) (q : Fin 64) :
    bA V c t (ix2 r q) = (V c main_v32 : (⟨2, ![100000, 64]⟩ : Shape).Idx → EReal) (ix2 (node t r) q) := by
  unfold bA iblk1
  rw [View.read_apply]
  show V c main_v32 _ = V c main_v32 _
  refine congrArg _ (funext fun ax => Fin.ext ?_)
  match ax with
  | ⟨0, _⟩ => show win1_0.index t 0 * 5000 + 1 * r.val = 5000 * t.val + r.val; rw [(idx_facts t).1]; omega
  | ⟨1, _⟩ => show win1_0.index t 1 * 64 + 1 * q.val = q.val; rw [(idx_facts t).2.1]; omega

private theorem bG_apply (t : Fin cfg1.N) (r : Fin 5000) (q : Fin 64) :
    bG V c t (ix2 r q) = (V c main_v22 : (⟨2, ![100000, 64]⟩ : Shape).Idx → EReal) (ix2 (node t r) q) := by
  unfold bG iblk1
  rw [View.read_apply]
  show V c main_v22 _ = V c main_v22 _
  refine congrArg _ (funext fun ax => Fin.ext ?_)
  match ax with
  | ⟨0, _⟩ => show win1_1.index t 0 * 5000 + 1 * r.val = 5000 * t.val + r.val; rw [(idx_facts t).2.2.1]; omega
  | ⟨1, _⟩ => show win1_1.index t 1 * 64 + 1 * q.val = q.val; rw [(idx_facts t).2.2.2.1]; omega

private theorem bD_apply (t : Fin cfg1.N) (r : Fin 5000) :
    bD V c t (ix2 r u0) = (V c main_v5 : (⟨2, ![100000, 1]⟩ : Shape).Idx → EReal) (ix2 (node t r) u0) := by
  unfold bD iblk1
  rw [View.read_apply]
  show V c main_v5 _ = V c main_v5 _
  refine congrArg _ (funext fun ax => Fin.ext ?_)
  match ax with
  | ⟨0, _⟩ => show win1_2.index t 0 * 5000 + 1 * r.val = 5000 * t.val + r.val; rw [(idx_facts t).2.2.2.2.1]; omega
  | ⟨1, _⟩ => show win1_2.index t 1 * 1 + 1 * 0 = 0; rw [(idx_facts t).2.2.2.2.2.1]

private theorem bB_apply (t : Fin cfg1.N) (q : Fin 64) :
    bB V c t (ix2 u0 q) = (V c main_v33 : (⟨2, ![1, 64]⟩ : Shape).Idx → EReal) (ix2 u0 q) := by
  unfold bB iblk1
  rw [View.read_apply]
  show V c main_v33 _ = V c main_v33 _
  refine congrArg _ (funext fun ax => Fin.ext ?_)
  match ax with
  | ⟨0, _⟩ => show win1_3.index t 0 * 1 + 1 * 0 = 0; rw [(idx_facts t).2.2.2.2.2.2.1]
  | ⟨1, _⟩ => show win1_3.index t 1 * 64 + 1 * q.val = q.val; rw [(idx_facts t).2.2.2.2.2.2.2.1]; omega

private theorem bI_apply (t : Fin cfg1.N) (r : Fin 5000) :
    bI V c t (ix2 r u0) = (V c main_v34 : (⟨2, ![100000, 1]⟩ : Shape).Idx → BitVec 32) (ix2 (node t r) u0) := by
  unfold bI iblk1
  rw [View.read_apply]
  show V c main_v34 _ = V c main_v34 _
  refine congrArg _ (funext fun ax => Fin.ext ?_)
  match ax with
  | ⟨0, _⟩ => show win1_4.index t 0 * 5000 + 1 * r.val = 5000 * t.val + r.val; rw [(idx_facts t).2.2.2.2.2.2.2.2.1]; omega
  | ⟨1, _⟩ => show win1_4.index t 1 * 1 + 1 * 0 = 0; rw [(idx_facts t).2.2.2.2.2.2.2.2.2]

end Blocks

section Invariant

/-- Node k's share of graph a's sum, column q; and of its count. -/
private def term5 (a q : Fin 64) (k : Fin 100000) : EReal := if inGraph (gidV V c) k a then h2V V c k q else 0
private def term6 (a : Fin 64) (k : Fin 100000) : EReal := if inGraph (gidV V c) k a then (1 : EReal) else 0

private theorem term5_eq (a q : Fin 64) (k : Fin 100000) :
    term5 V c a q k = if (gidV V c k).toInt = (a.val : Int) then h2V V c k q else 0 := by
  unfold term5
  by_cases h : inGraph (gidV V c) k a
  · rw [if_pos h, if_pos (show (gidV V c k).toInt = (a.val : Int) from h)]
  · rw [if_neg h, if_neg (show ¬(gidV V c k).toInt = (a.val : Int) from h)]

private theorem term6_eq (a : Fin 64) (k : Fin 100000) :
    term6 V c a k = if (gidV V c k).toInt = (a.val : Int) then (1 : EReal) else 0 := by
  unfold term6
  by_cases h : inGraph (gidV V c) k a
  · rw [if_pos h, if_pos (show (gidV V c k).toInt = (a.val : Int) from h)]
  · rw [if_neg h, if_neg (show ¬(gidV V c k).toInt = (a.val : Int) from h)]

/-- A block's layer 2 row is the node's. -/
private theorem h2row_blk (t : Fin cfg1.N) (r : Fin 5000) (q : Fin 64) :
    h2row (bA V c t) (bG V c t) (bD V c t) (bB V c t) r q = h2V V c (node t r) q := by
  unfold h2row
  rw [bA_apply, bG_apply, bD_apply, bB_apply]
  rfl

/-- One grid point's update of the sums, over the arrays: the block's nodes' shares are added. -/
private theorem upd5 (t : Fin cfg1.N) (xo : S64x64.Idx → EReal) (a q : Fin 64) :
    k1_pay4 (F := Ideal) (bA V c t) (bG V c t) (bD V c t) (bB V c t) (bI V c t) xo (ix2 a q)
      = xo (ix2 a q) + ∑ r : Fin 5000, term5 V c a q (node t r) := by
  refine (pay4_apply (bA V c t) (bG V c t) (bD V c t) (bB V c t) (bI V c t) xo a q).trans ?_
  refine congrArg (xo (ix2 a q) + ·) (Finset.sum_congr rfl fun r _ => ?_)
  rw [term5_eq, bI_apply, h2row_blk]

/-- One grid point's update of the counts. -/
private theorem upd6 (t : Fin cfg1.N) (xo : S1x64.Idx → EReal) (a : Fin 64) :
    k1_pay5 (F := Ideal) (bI V c t) xo (ix2 u0 a)
      = xo (ix2 u0 a) + ∑ r : Fin 5000, term6 V c a (node t r) := by
  refine (pay5_apply (bI V c t) xo a).trans ?_
  refine congrArg (xo (ix2 u0 a) + ·) (Finset.sum_congr rfl fun r _ => ?_)
  rw [term6_eq, bI_apply]

/-! Sums over the nodes, block by block. -/

/-- A function of the nodes continued by zero past the last node. -/
private def ext (f : Fin 100000 → EReal) (k : ℕ) : EReal := if h : k < 100000 then f ⟨k, h⟩ else 0

private theorem sum_block (f : Fin 100000 → EReal) (t : Fin cfg1.N) :
    ∑ k ∈ Finset.range (5000 * (t.val + 1)), ext f k
      = ∑ k ∈ Finset.range (5000 * t.val), ext f k + ∑ r : Fin 5000, f (node t r) := by
  have hN := lt_of_lt_of_eq t.isLt (show cfg1.N = 20 from N_1)
  rw [show 5000 * (t.val + 1) = 5000 * t.val + 5000 by omega, Finset.sum_range_add]
  refine congrArg _ ?_
  refine (Finset.sum_range (fun x => ext f (5000 * t.val + x))).trans (Finset.sum_congr rfl fun r _ => ?_)
  have hr : 5000 * t.val + r.val < 100000 := by have := r.isLt; omega
  show (if h : 5000 * t.val + r.val < 100000 then f ⟨5000 * t.val + r.val, h⟩ else 0) = f (node t r)
  rw [dif_pos hr]
  rfl

private theorem sum_all (f : Fin 100000 → EReal) : ∑ k ∈ Finset.range (5000 * 20), ext f k = ∑ k : Fin 100000, f k := by
  rw [show 5000 * 20 = 100000 by norm_num]
  refine (Finset.sum_range (ext f)).trans (Finset.sum_congr rfl fun k _ => ?_)
  show (if h : k.val < 100000 then f ⟨k.val, h⟩ else 0) = f k
  rw [dif_pos k.isLt]

/-! What each point leaves. -/

private theorem step5_A (t : Fin cfg1.N) (h0 : t.val % 20 = 0) (a q : Fin 64) :
    ((outsAt1 V c t.val t.isLt).1 : S64x64.Idx → EReal) (ix2 a q) = ∑ r : Fin 5000, term5 V c a q (node t r) := by
  rw [outsAt1_A V c t h0]
  dsimp only
  refine (congrFun (piece_A_5 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (iblk1 V c 0 t) (iblk1 V c 1 t) (iblk1 V c 2 t) (iblk1 V c 3 t) (iblk1 V c 4 t)) (ix2 a q)).trans ?_
  refine (upd5 V c t (k1_pay1 (F := Ideal)) a q).trans ?_
  have z : (k1_pay1 (F := Ideal) : S64x64.Idx → EReal) (ix2 a q) = 0 := by
    show Ideal.ofBits .f32 0x00000000#32 = 0
    rw [IdealReal.ofBits_zero_f32, EReal.coe_zero]
  rw [z, zero_add]

private theorem step5_B (t : Fin cfg1.N) (h0 : ¬t.val % 20 = 0) (a q : Fin 64) :
    ((outsAt1 V c t.val t.isLt).1 : S64x64.Idx → EReal) (ix2 a q)
      = ((outsAt1 V c (t.val - 1) (Nat.lt_of_le_of_lt (Nat.sub_le _ _) t.isLt)).1 : S64x64.Idx → EReal) (ix2 a q)
        + ∑ r : Fin 5000, term5 V c a q (node t r) := by
  rw [outsAt1_B V c t h0]
  dsimp only
  refine (congrFun (piece_B_5 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).1 (outsAt1 V c (t.val - 1) (Nat.lt_of_le_of_lt (Nat.sub_le _ _) t.isLt)).2) (ix2 a q)).trans ?_
  exact upd5 V c t _ a q

end Invariant

section Final

private theorem step6_A (t : Fin cfg1.N) (h0 : t.val % 20 = 0) (a : Fin 64) :
    ((outsAt1 V c t.val t.isLt).2 : S1x64.Idx → EReal) (ix2 u0 a) = ∑ r : Fin 5000, term6 V c a (node t r) := by
  rw [outsAt1_A V c t h0]
  dsimp only
  refine (congrFun (piece_A_6 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (iblk1 V c 0 t) (iblk1 V c 1 t) (iblk1 V c 2 t) (iblk1 V c 3 t) (iblk1 V c 4 t)) (ix2 u0 a)).trans ?_
  refine (upd6 V c t (k1_pay2 (F := Ideal)) a).trans ?_
  have z : (k1_pay2 (F := Ideal) : S1x64.Idx → EReal) (ix2 u0 a) = 0 := by
    show Ideal.ofBits .f32 0x00000000#32 = 0
    rw [IdealReal.ofBits_zero_f32, EReal.coe_zero]
  rw [z, zero_add]

private theorem step6_B (t : Fin cfg1.N) (h0 : ¬t.val % 20 = 0) (a : Fin 64) :
    ((outsAt1 V c t.val t.isLt).2 : S1x64.Idx → EReal) (ix2 u0 a)
      = ((outsAt1 V c (t.val - 1) (Nat.lt_of_le_of_lt (Nat.sub_le _ _) t.isLt)).2 : S1x64.Idx → EReal) (ix2 u0 a)
        + ∑ r : Fin 5000, term6 V c a (node t r) := by
  rw [outsAt1_B V c t h0]
  dsimp only
  refine (congrFun (piece_B_6 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).1 (outsAt1 V c (t.val - 1) (Nat.lt_of_le_of_lt (Nat.sub_le _ _) t.isLt)).2) (ix2 u0 a)).trans ?_
  exact upd6 V c t _ a

/-- After point n the sums' block holds, at (a, q), the shares of the nodes below 5000 (n + 1). -/
private theorem inv5 (a q : Fin 64) : ∀ (n : ℕ) (hn : n < cfg1.N),
    ((outsAt1 V c n hn).1 : S64x64.Idx → EReal) (ix2 a q) = ∑ k ∈ Finset.range (5000 * (n + 1)), ext (term5 V c a q) k
  | 0, hn => by
    refine (step5_A V c ⟨0, hn⟩ rfl a q).trans ?_
    rw [sum_block (term5 V c a q) ⟨0, hn⟩]
    show _ = ∑ k ∈ Finset.range (5000 * 0), ext (term5 V c a q) k + _
    rw [Nat.mul_zero, Finset.range_zero, Finset.sum_empty, zero_add]
  | n + 1, hn => by
    have hN : cfg1.N = 20 := N_1
    have hB : ¬(⟨n + 1, hn⟩ : Fin cfg1.N).val % 20 = 0 := by dsimp only; omega
    refine (step5_B V c ⟨n + 1, hn⟩ hB a q).trans ?_
    rw [sum_block (term5 V c a q) ⟨n + 1, hn⟩]
    show (outsAt1 V c n _).1 (ix2 a q) + _ = _
    rw [inv5 a q n (Nat.lt_of_succ_lt hn)]

/-- After point n the counts' block holds, at a, the number of graph a's nodes below 5000 (n + 1). -/
private theorem inv6 (a : Fin 64) : ∀ (n : ℕ) (hn : n < cfg1.N),
    ((outsAt1 V c n hn).2 : S1x64.Idx → EReal) (ix2 u0 a) = ∑ k ∈ Finset.range (5000 * (n + 1)), ext (term6 V c a) k
  | 0, hn => by
    refine (step6_A V c ⟨0, hn⟩ rfl a).trans ?_
    rw [sum_block (term6 V c a) ⟨0, hn⟩]
    show _ = ∑ k ∈ Finset.range (5000 * 0), ext (term6 V c a) k + _
    rw [Nat.mul_zero, Finset.range_zero, Finset.sum_empty, zero_add]
  | n + 1, hn => by
    have hN : cfg1.N = 20 := N_1
    have hB : ¬(⟨n + 1, hn⟩ : Fin cfg1.N).val % 20 = 0 := by dsimp only; omega
    refine (step6_B V c ⟨n + 1, hn⟩ hB a).trans ?_
    rw [sum_block (term6 V c a) ⟨n + 1, hn⟩]
    show (outsAt1 V c n _).2 (ix2 u0 a) + _ = _
    rw [inv6 a n (Nat.lt_of_succ_lt hn)]

/-! The one write-back. -/

/-- The last grid point. -/
private abbrev lastPt : Fin cfg1.N := ⟨19, by rw [show cfg1.N = 20 from N_1]; omega⟩

/-- The two output windows' one block is the whole array, at every point. -/
private theorem out_facts : ∀ t : Fin cfg1.N,
    win1_5.index t (0 : Fin 2) = 0 ∧ win1_5.index t (1 : Fin 2) = 0
    ∧ win1_6.index t (0 : Fin 2) = 0 ∧ win1_6.index t (1 : Fin 2) = 0
    ∧ win1_5.xsize (grid1.coords t) (0 : Fin 2) = 64 ∧ win1_5.xsize (grid1.coords t) (1 : Fin 2) = 64
    ∧ win1_6.xsize (grid1.coords t) (0 : Fin 2) = 1 ∧ win1_6.xsize (grid1.coords t) (1 : Fin 2) = 64 :=
  (by decide +kernel : ∀ t : Fin grid1.N, _)

/-- What the sums' array ends holding: the block after the last point. -/
private abbrev res5 : Buf (Elt Ideal) ((c : Thread nD τ).loc main_v35_0) := (outsAt1 V c lastPt.val lastPt.isLt).1
/-- What the counts' array ends holding. -/
private abbrev res6 : Buf (Elt Ideal) ((c : Thread nD τ).loc main_v35_1) := (outsAt1 V c lastPt.val lastPt.isLt).2

private theorem flushed5 (t : Fin cfg1.N) (hf : (cfg1.win 5).flush t = true) :
    (dat1 V c).flushed 5 t = ((cfg1.win 5).blk t).view.read (Elt Ideal) (res5 V c) := by
  have hN : cfg1.N = 20 := N_1
  have h19 : t.val = 19 := by have := (flush1_5 t).mp hf; have := t.isLt; omega
  obtain rfl : t = lastPt := Fin.ext h19
  show (cfg1.win 5).cut (grid1.coords lastPt) ((dat1 V c).after 5 lastPt) = _
  rw [after1_5]
  have hz' : (fun a => win1_5.index lastPt a * main_v35_0.ty.shape.size a) = fun _ => 0 := funext fun a => by
    match a with
    | ⟨0, _⟩ => show win1_5.index lastPt 0 * 64 = 0; rw [(out_facts lastPt).1]
    | ⟨1, _⟩ => show win1_5.index lastPt 1 * 64 = 0; rw [(out_facts lastPt).2.1]
  exact (Memref.read_access_unit_zero (Elt Ideal) main_v35_0 hz' (fun a => by rw [congrFun hz' a]; simp) (res5 V c)).symm

private theorem flushed6 (t : Fin cfg1.N) (hf : (cfg1.win 6).flush t = true) :
    (dat1 V c).flushed 6 t = ((cfg1.win 6).blk t).view.read (Elt Ideal) (res6 V c) := by
  have hN : cfg1.N = 20 := N_1
  have h19 : t.val = 19 := by have := (flush1_6 t).mp hf; have := t.isLt; omega
  obtain rfl : t = lastPt := Fin.ext h19
  show (cfg1.win 6).cut (grid1.coords lastPt) ((dat1 V c).after 6 lastPt) = _
  rw [after1_6]
  have hz' : (fun a => win1_6.index lastPt a * main_v35_1.ty.shape.size a) = fun _ => 0 := funext fun a => by
    match a with
    | ⟨0, _⟩ => show win1_6.index lastPt 0 * 1 = 0; rw [(out_facts lastPt).2.2.1]
    | ⟨1, _⟩ => show win1_6.index lastPt 1 * 64 = 0; rw [(out_facts lastPt).2.2.2.1]
  exact (Memref.read_access_unit_zero (Elt Ideal) main_v35_1 hz' (fun a => by rw [congrFun hz' a]; simp) (res6 V c)).symm

/-- The sums' array ends at the block after the last point: that point's block covers it. -/
private theorem final5 : (dat1 V c).arrAt 5 cfg1.N = res5 V c :=
  (dat1 V c).arrAt_eq_of_cover 5 (res5 V c) (flushed5 V c) fun i =>
    ⟨lastPt, (flush1_5 lastPt).mpr rfl, by
      show i ∈ ((View.whole main_v35_0).slice (win1_5.rect lastPt)).set
      rw [View.set_slice_whole, Rect.mem_set_unit]
      intro ax
      have h0 : (i 0 : Nat) < 64 := (i 0).isLt
      have h1 : (i 1 : Nat) < 64 := (i 1).isLt
      match ax with
      | ⟨0, _⟩ =>
        show win1_5.index lastPt 0 * win1_5.size 0 ≤ (i 0 : Nat) ∧ (i 0 : Nat) < win1_5.index lastPt 0 * win1_5.size 0 + win1_5.xsize (grid1.coords lastPt) 0
        rw [(out_facts lastPt).1, (out_facts lastPt).2.2.2.2.1]; omega
      | ⟨1, _⟩ =>
        show win1_5.index lastPt 1 * win1_5.size 1 ≤ (i 1 : Nat) ∧ (i 1 : Nat) < win1_5.index lastPt 1 * win1_5.size 1 + win1_5.xsize (grid1.coords lastPt) 1
        rw [(out_facts lastPt).2.1, (out_facts lastPt).2.2.2.2.2.1]; omega⟩

private theorem final6 : (dat1 V c).arrAt 6 cfg1.N = res6 V c :=
  (dat1 V c).arrAt_eq_of_cover 6 (res6 V c) (flushed6 V c) fun i =>
    ⟨lastPt, (flush1_6 lastPt).mpr rfl, by
      show i ∈ ((View.whole main_v35_1).slice (win1_6.rect lastPt)).set
      rw [View.set_slice_whole, Rect.mem_set_unit]
      intro ax
      have h0 : (i 0 : Nat) < 1 := (i 0).isLt
      have h1 : (i 1 : Nat) < 64 := (i 1).isLt
      match ax with
      | ⟨0, _⟩ =>
        show win1_6.index lastPt 0 * win1_6.size 0 ≤ (i 0 : Nat) ∧ (i 0 : Nat) < win1_6.index lastPt 0 * win1_6.size 0 + win1_6.xsize (grid1.coords lastPt) 0
        rw [(out_facts lastPt).2.2.1, (out_facts lastPt).2.2.2.2.2.2.1]; omega
      | ⟨1, _⟩ =>
        show win1_6.index lastPt 1 * win1_6.size 1 ≤ (i 1 : Nat) ∧ (i 1 : Nat) < win1_6.index lastPt 1 * win1_6.size 1 + win1_6.xsize (grid1.coords lastPt) 1
        rw [(out_facts lastPt).2.2.2.1, (out_facts lastPt).2.2.2.2.2.2.2]; omega⟩

/-- The sums' array after the region. -/
theorem sums_apply (a c' : Fin 64) :
    ((dat1 V c).arrAt 5 cfg1.N : (⟨2, ![64, 64]⟩ : Shape).Idx → EReal) (ix2 a c') = gsum (gidV V c) (h2V V c) a c' := by
  rw [final5]
  refine (inv5 V c a c' 19 lastPt.isLt).trans ?_
  exact sum_all (term5 V c a c')

/-- The counts' array after the region. -/
theorem counts_apply (a : Fin 64) :
    ((dat1 V c).arrAt 6 cfg1.N : (⟨2, ![1, 64]⟩ : Shape).Idx → EReal) (ix2 (⟨0, Nat.one_pos⟩ : Fin 1) a) = cnt (gidV V c) a := by
  rw [final6]
  refine (inv6 V c a 19 lastPt.isLt).trans ?_
  exact sum_all (term6 V c a)

end Final

end Cert.Sage.Region1

end
-- ==== Proof.KernelValue.lean ====
/-
  The kernel's result at an index, put together from its segments: the host operations' reads, the first region's
  projected rows and the second region's per-graph sums and counts give the per-graph mean of layer 2 in the order that
  projects first.
-/
import Idealize.ShloMosaic.Lib.ValueIdx
import proofs.«422015_j20993800143187_3_alg».proof.Proof.KHost0
import proofs.«422015_j20993800143187_3_alg».proof.Proof.KHost12
import proofs.«422015_j20993800143187_3_alg».proof.Proof.Region0
import proofs.«422015_j20993800143187_3_alg».proof.Proof.Region1

set_option maxRecDepth 16384

noncomputable section

namespace Cert.Sage.K

open Idealize.ShloMosaic Idealize.ShloMosaic.TcCoe Idealize.SL.Sem Idealize.ShloMosaic.ValueIdx
open Cert.KernelIdeal Cert.KernelIdeal.Gen Cert.Sage
open scoped BigOperators

variable (m : (ℓ : Loc nD τ sig) → Buf (Elt Ideal) ℓ) (ρ : Dev nD → PrngReg) (c : Dev nD)

/-- The first region's output array: layer 1's projected rows of the programs' input. The array after the region is
    the region's value at the contents the first host stretch leaves, and those contents are the mean-aggregated
    features, the two weight arrays and the first bias as a row. -/
theorem g_apply (k : Fin 100000) (c' : Fin 64) :
    (W2 m ρ c (Proc.devRef .tc main_v22) : (⟨2, ![100000, 64]⟩ : Shape).Idx → EReal) (ix2 k c')
      = g (hn0 (X m c) (Src m c) (Dst m c)) (Wa m c) (Ba m c) (Wb m c) k c' := by
  have e : (W2 m ρ c (Proc.devRef .tc main_v22) : (⟨2, ![100000, 64]⟩ : Shape).Idx → EReal)
      = (dat0 (V1 m ρ) c).arrAt 4 cfg0.N := W2_arr m ρ c 4
  have e0 : (fun k q => (V1 m ρ c main_v20 : (⟨2, ![100000, 23]⟩ : Shape).Idx → EReal) (ix2 k q))
      = hn0 (X m c) (Src m c) (Dst m c) := funext fun k => funext fun q => KHost0.v20_apply m ρ c k q
  have e1 : (fun q j => (V1 m ρ c main_arg1 : (⟨2, ![23, 128]⟩ : Shape).Idx → EReal) (ix2 q j)) = Wa m c :=
    funext fun q => funext fun j => KHost0.arg1_apply m ρ c q j
  have e2 : (fun j => (V1 m ρ c main_v21 : (⟨2, ![1, 128]⟩ : Shape).Idx → EReal) (ix2 (⟨0, Nat.one_pos⟩ : Fin 1) j)) = Ba m c :=
    funext fun j => KHost0.v21_apply m ρ c j
  have e3 : (fun j c' => (V1 m ρ c main_arg3 : (⟨2, ![128, 64]⟩ : Shape).Idx → EReal) (ix2 j c')) = Wb m c :=
    funext fun j => funext fun c' => KHost0.arg3_apply m ρ c j c'
  rw [e, Region0.out_apply (V1 m ρ) c k c', e0, e1, e2, e3]

/-- The second region reads layer 2's rows in the order that projects first: its aggregate is the projected rows summed
    over the in-neighbours, its own-row operand the projected rows, its degree column the in-degree, its bias row the
    second bias. -/
theorem h2V_eq : Region1.h2V (V3 m ρ) c
    = h2K (X m c) (Wa m c) (Ba m c) (Wb m c) (Bb m c) (Src m c) (Dst m c) := by
  have a1 : (fun k c' => (V3 m ρ c main_v32 : (⟨2, ![100000, 64]⟩ : Shape).Idx → EReal) (ix2 k c'))
      = fun k c' => agg (Src m c) (Dst m c) (fun r => g (hn0 (X m c) (Src m c) (Dst m c)) (Wa m c) (Ba m c) (Wb m c) r c') k :=
    funext fun k => funext fun c' => by
      rw [KHost12.v32_apply m ρ c k c']
      exact congrArg (fun f => agg (Src m c) (Dst m c) f k) (funext fun r => g_apply m ρ c r c')
  have a2 : (fun k c' => (V3 m ρ c main_v22 : (⟨2, ![100000, 64]⟩ : Shape).Idx → EReal) (ix2 k c'))
      = g (hn0 (X m c) (Src m c) (Dst m c)) (Wa m c) (Ba m c) (Wb m c) :=
    funext fun k => funext fun c' => by rw [KHost12.v22_eq m ρ c]; exact g_apply m ρ c k c'
  have a3 : (fun k => (V3 m ρ c main_v5 : (⟨2, ![100000, 1]⟩ : Shape).Idx → EReal) (ix2 k (⟨0, Nat.one_pos⟩ : Fin 1))) = deg (Dst m c) :=
    funext fun k => by rw [KHost12.v5_eq m ρ c]; exact KHost0.v5_apply m ρ c k
  have a4 : (fun c' => (V3 m ρ c main_v33 : (⟨2, ![1, 64]⟩ : Shape).Idx → EReal) (ix2 (⟨0, Nat.one_pos⟩ : Fin 1) c')) = Bb m c :=
    funext fun c' => KHost12.v33_apply m ρ c c'
  unfold Region1.h2V h2K
  rw [a1, a2, a3, a4]

/-- The kernel's result array at graph `a`, column `c'`: the second region's sums over its counts. -/
theorem result_apply (a c' : Fin 64) :
    (W5 m ρ c (Proc.devRef .tc main_v40) : (⟨2, ![64, 64]⟩ : Shape).Idx → EReal) (ix2 a c')
      = pooled (Gid m c) (h2K (X m c) (Wa m c) (Ba m c) (Wb m c) (Bb m c) (Src m c) (Dst m c)) a c' := by
  have es : (W4 m ρ c (Proc.devRef .tc main_v35_0) : (⟨2, ![64, 64]⟩ : Shape).Idx → EReal)
      = (dat1 (V3 m ρ) c).arrAt 5 cfg1.N := W4_arr m ρ c 5
  have en : (W4 m ρ c (Proc.devRef .tc main_v35_1) : (⟨2, ![1, 64]⟩ : Shape).Idx → EReal)
      = (dat1 (V3 m ρ) c).arrAt 6 cfg1.N := W4_arr m ρ c 6
  have eg : Region1.gidV (V3 m ρ) c = Gid m c := funext fun k => KHost12.v34_apply m ρ c k
  rw [KHost12.v40_apply m ρ c a c', es, en, Region1.sums_apply (V3 m ρ) c a c', Region1.counts_apply (V3 m ρ) c a,
    eg, h2V_eq m ρ c]
  rfl

end Cert.Sage.K

end
-- ==== Proof.RefValue.lean ====
/-
  The reference's result at an index: its host operations, one after the other, compute the per-graph mean of layer 2
  in the order that aggregates the 128 columns first and projects the mean.
-/
import Idealize.ShloMosaic.Lib.ValueIdx
import proofs.«422015_j20993800143187_3_alg».proof.Proof.Gen.ReferenceIdeal.Read
import proofs.«422015_j20993800143187_3_alg».proof.Proof.Spec
import proofs.«422015_j20993800143187_3_alg».proof.Proof.LibGatherRows
import proofs.«422015_j20993800143187_3_alg».proof.Proof.LibScatterAddRows
import proofs.«422015_j20993800143187_3_alg».proof.Proof.LibRowOps
import proofs.«422015_j20993800143187_3_alg».proof.Proof.LibIdealReal

set_option maxRecDepth 16384

noncomputable section

namespace Cert.Sage.Ref

open Idealize.ShloMosaic Idealize.ShloMosaic.TcCoe Idealize.SL.Sem Idealize.ShloMosaic.ValueIdx
open Cert.Sage
open scoped BigOperators
open Cert.ReferenceIdeal Cert.ReferenceIdeal.Read

/-! ## The two words that are evaluated

The reference writes zero as the start of every sum and one for every counted edge or node and for the "+ 1" on the
degree. Both patterns denote those numbers. -/

private theorem zeroW : Ideal.ofBits .f32 0x00000000#32 = (0 : EReal) := by
  rw [IdealReal.ofBits_zero_f32]; rfl

private theorem oneWord : Ideal.ofBits .f32 0x3F800000#32 = (1 : EReal) := by
  rw [IdealReal.ofBits_one_f32]; rfl

/-! ## Layer 1's input: the mean of a node's row and its in-neighbours' rows -/

/-- A negative source id has the table's length added to it: the select of the sum on the sign test is `wrap`. -/
private theorem wrap4 (x5 : (⟨1, ![1600000]⟩ : Shape).Idx → BitVec 32) (e : Fin 1600000) :
    val_main_v4 (F := Ideal) x5 (ix1 e) = wrap (x5 (ix1 e)) := by
  rw [val_main_v4_apply, val_main_v1_apply, val_main_v3_apply, val_main_v0_apply, val_main_v2_apply,
    val_main_c_apply, val_main_c_0_apply]
  rfl

/-- The wrapped ids laid out as a column: entry `(e, 0)` is edge `e`'s. -/
private theorem col5 (x5 : (⟨1, ![1600000]⟩ : Shape).Idx → BitVec 32) (e : Fin 1600000) (u : Fin 1) :
    val_main_v5 (F := Ideal) x5 (ix2 e u) = wrap (x5 (ix1 e)) := by
  rw [val_main_v5_apply]
  have h : idx_main_v5 (ix2 e u) = ix1 e := funext fun a => Fin.ext (by match a with | ⟨0, _⟩ => rfl)
  rw [h, wrap4]

/-- The row take by the wrapped ids reads, for edge `e`, the node table at the edge's source row: the wrapped id read
    signed and clamped into the table. -/
private theorem take6 (x0 : (⟨2, ![100000, 23]⟩ : Shape).Idx → EReal) (x5 : (⟨1, ![1600000]⟩ : Shape).Idx → BitVec 32)
    (e : Fin 1600000) (q : Fin 23) :
    val_main_v6 (F := Ideal) x0 x5 (ix2 e q) = x0 (ix2 (srcRow (x5 (ix1 e))) q) := by
  unfold val_main_v6
  refine (GatherRows.gather_rows_apply (N := 100000) (C := 23) (n := 1600000) (by decide)
    Facts₀.gather_S100000x23_S1600000x1_S1600000x23_1_0_n_n_0_1_123_wf x0 (val_main_v5 (F := Ideal) x5) e q).trans ?_
  refine congrArg (fun r => x0 (ix2 r q)) (Fin.ext ?_)
  show min (val_main_v5 (F := Ideal) x5 (ix2 e ⟨0, Nat.one_pos⟩)).toInt.toNat (100000 - 1)
    = min (wrap (x5 (ix1 e))).toInt.toNat (100000 - 1)
  rw [col5]

/-- Ones added at the target ids, from zero: at node `k` the number of edges that land on `k`. -/
private theorem deg13 (x6 : (⟨1, ![1600000]⟩ : Shape).Idx → BitVec 32) (k : Fin 100000) :
    val_main_v13 (F := Ideal) x6 (ix1 k) = deg (fun e => x6 (ix1 e)) k := by
  unfold val_main_v13
  rw [Host.scatterAdd, Ideal.hostScatterAdd_def]
  refine (ScatterAddRows.scatterAdd_entries_apply (N := 100000) (n := 1600000)
    Facts₀.scatter_S100000_S1600000x1_S1600000_n_0_0_1_wf (val_main_v11 (F := Ideal)) (val_main_v12 (F := Ideal) x6)
    (val_main_v10 (F := Ideal)) k).trans ?_
  rw [val_main_v11_apply, val_main_cst_2_apply, Ideal.ofBits_def, zeroW, zero_add]
  unfold deg
  refine Finset.sum_congr rfl fun e _ => ?_
  have h : idx_main_v12 (ix2 e (⟨0, Nat.one_pos⟩ : Fin 1)) = ix1 e :=
    funext fun a => Fin.ext (by match a with | ⟨0, _⟩ => rfl)
  rw [val_main_v12_apply, h, val_main_v10_apply, val_main_cst_1_apply, Ideal.ofBits_def, oneWord]
  exact if_congr Iff.rfl rfl rfl

/-- The degree plus one. -/
private theorem deg16 (x6 : (⟨1, ![1600000]⟩ : Shape).Idx → BitVec 32) (k : Fin 100000) :
    val_main_v16 (F := Ideal) x6 (ix1 k) = deg (fun e => x6 (ix1 e)) k + 1 := by
  rw [val_main_v16_apply, deg13, val_main_v15_apply, val_main_cst_3_apply, Ideal.ofBits_def, oneWord, Ideal.addf_def]

/-- The taken rows added at the target ids, from zero: at `(k, q)` the sum of column `q` over the source rows of the
    edges that land on `k`. -/
private theorem agg9 (x0 : (⟨2, ![100000, 23]⟩ : Shape).Idx → EReal) (x5 x6 : (⟨1, ![1600000]⟩ : Shape).Idx → BitVec 32)
    (k : Fin 100000) (q : Fin 23) :
    val_main_v9 (F := Ideal) x0 x5 x6 (ix2 k q)
      = agg (fun e => x5 (ix1 e)) (fun e => x6 (ix1 e)) (fun r => x0 (ix2 r q)) k := by
  unfold val_main_v9
  rw [Host.scatterAdd, Ideal.hostScatterAdd_def]
  refine (ScatterAddRows.scatterAdd_rows_apply (N := 100000) (C := 23) (n := 1600000)
    Facts₀.scatter_S100000x23_S1600000x1_S1600000x23_1_0_0_1_wf (val_main_v7 (F := Ideal)) (val_main_v8 (F := Ideal) x6)
    (val_main_v6 (F := Ideal) x0 x5) k q).trans ?_
  rw [val_main_v7_apply, val_main_cst_apply, Ideal.ofBits_def, zeroW, zero_add]
  unfold agg
  refine Finset.sum_congr rfl fun e _ => ?_
  have h : idx_main_v8 (ix2 e (⟨0, Nat.one_pos⟩ : Fin 1)) = ix1 e :=
    funext fun a => Fin.ext (by match a with | ⟨0, _⟩ => rfl)
  rw [val_main_v8_apply, h, take6]
  exact if_congr Iff.rfl rfl rfl

/-- The aggregate plus the node's own row, over the degree plus one (a column broadcast along the row): `hn0`. -/
private theorem hn19 (x0 : (⟨2, ![100000, 23]⟩ : Shape).Idx → EReal) (x5 x6 : (⟨1, ![1600000]⟩ : Shape).Idx → BitVec 32)
    (k : Fin 100000) (q : Fin 23) :
    val_main_v19 (F := Ideal) x0 x5 x6 (ix2 k q)
      = hn0 (fun k q => x0 (ix2 k q)) (fun e => x5 (ix1 e)) (fun e => x6 (ix1 e)) k q := by
  have h18 : idx_main_v18 (ix2 k q) = ix2 k (⟨0, Nat.one_pos⟩ : Fin 1) :=
    funext fun a => Fin.ext (by match a with | ⟨0, _⟩ => rfl | ⟨1, _⟩ => rfl)
  have h17 : idx_main_v17 (ix2 k (⟨0, Nat.one_pos⟩ : Fin 1)) = ix1 k :=
    funext fun a => Fin.ext (by match a with | ⟨0, _⟩ => rfl)
  rw [val_main_v19_apply, val_main_v14_apply, agg9, val_main_v18_apply, h18, val_main_v17_apply, h17, deg16,
    Ideal.hostDivf_def, Ideal.addf_def]
  rfl

/-! ## Layer 1 -/

/-- The dense map `hn0 · w1 + b1` (the bias a row broadcast down the nodes), then the positive part: `pre1`. -/
private theorem pre24 (x0 : (⟨2, ![100000, 23]⟩ : Shape).Idx → EReal) (x1 : (⟨2, ![23, 128]⟩ : Shape).Idx → EReal)
    (x2 : (⟨1, ![128]⟩ : Shape).Idx → EReal) (x5 x6 : (⟨1, ![1600000]⟩ : Shape).Idx → BitVec 32)
    (k : Fin 100000) (j : Fin 128) :
    val_main_v24 (F := Ideal) x0 x1 x2 x5 x6 (ix2 k j)
      = pre1 (hn0 (fun k q => x0 (ix2 k q)) (fun e => x5 (ix1 e)) (fun e => x6 (ix1 e)))
          (fun q j => x1 (ix2 q j)) (fun j => x2 (ix1 j)) k j := by
  have hl : ∀ q : Fin 23, lidx_main_v20 (ix2 k j) q = ix2 k q := fun q =>
    funext fun a => Fin.ext (by match a with | ⟨0, _⟩ => rfl | ⟨1, _⟩ => rfl)
  have hr : ∀ q : Fin 23, ridx_main_v20 (ix2 k j) q = ix2 q j := fun q =>
    funext fun a => Fin.ext (by match a with | ⟨0, _⟩ => rfl | ⟨1, _⟩ => rfl)
  have h22 : idx_main_v22 (ix2 k j) = ix2 (⟨0, Nat.one_pos⟩ : Fin 1) j :=
    funext fun a => Fin.ext (by match a with | ⟨0, _⟩ => rfl | ⟨1, _⟩ => rfl)
  have h21 : idx_main_v21 (ix2 (⟨0, Nat.one_pos⟩ : Fin 1) j) = ix1 j :=
    funext fun a => Fin.ext (by match a with | ⟨0, _⟩ => rfl)
  rw [val_main_v24_apply, val_main_v23_apply, val_main_v20_apply, val_main_v22_apply, h22, val_main_v21_apply, h21,
    val_main_call0_v0_apply, val_main_call0_cst_apply, Ideal.ofBits_def, zeroW, Ideal.maximumf_def, Ideal.addf_def]
  unfold pre1
  refine congrArg (fun s => max (s + x2 (ix1 j)) 0) (Finset.sum_congr rfl fun q _ => ?_)
  rw [hl, hr, hn19]

/-- The square root of the row's sum of squares (summed from zero), kept above `ε`, as a column: `nrm`. -/
private theorem nrm27 (x0 : (⟨2, ![100000, 23]⟩ : Shape).Idx → EReal) (x1 : (⟨2, ![23, 128]⟩ : Shape).Idx → EReal)
    (x2 : (⟨1, ![128]⟩ : Shape).Idx → EReal) (x5 x6 : (⟨1, ![1600000]⟩ : Shape).Idx → BitVec 32)
    (k : Fin 100000) (u : Fin 1) :
    val_main_v27 (F := Ideal) x0 x1 x2 x5 x6 (ix2 k u)
      = nrm (hn0 (fun k q => x0 (ix2 k q)) (fun e => x5 (ix1 e)) (fun e => x6 (ix1 e)))
          (fun q j => x1 (ix2 q j)) (fun j => x2 (ix1 j)) k := by
  have hs : ∀ j : Fin 128, idx_main_call1_v1 (ix1 k) j = ix2 k j := fun j =>
    funext fun a => Fin.ext (by match a with | ⟨0, _⟩ => rfl | ⟨1, _⟩ => rfl)
  have h2 : idx_main_call1_v2 (ix2 k u) = ix1 k := funext fun a => Fin.ext (by match a with | ⟨0, _⟩ => rfl)
  rw [val_main_v27_apply, val_main_v25_apply, val_main_call1_v2_apply, h2, val_main_call1_v1_apply,
    val_main_call1_cst_apply, Ideal.ofBits_def, zeroW, zero_add, val_main_v26_apply, val_main_cst_4_apply,
    Ideal.ofBits_def, Ideal.maximumf_def, Ideal.hostUnary_sqrt_def]
  unfold nrm
  refine congrArg (fun s => max (Ideal.sqrt s) eps) (Finset.sum_congr rfl fun j _ => ?_)
  rw [hs, val_main_call1_v0_apply, pre24, Ideal.mulf_def]

/-- The row over its clamped norm (the column broadcast along the row): `h1`. -/
private theorem h29 (x0 : (⟨2, ![100000, 23]⟩ : Shape).Idx → EReal) (x1 : (⟨2, ![23, 128]⟩ : Shape).Idx → EReal)
    (x2 : (⟨1, ![128]⟩ : Shape).Idx → EReal) (x5 x6 : (⟨1, ![1600000]⟩ : Shape).Idx → BitVec 32)
    (k : Fin 100000) (j : Fin 128) :
    val_main_v29 (F := Ideal) x0 x1 x2 x5 x6 (ix2 k j)
      = h1 (hn0 (fun k q => x0 (ix2 k q)) (fun e => x5 (ix1 e)) (fun e => x6 (ix1 e)))
          (fun q j => x1 (ix2 q j)) (fun j => x2 (ix1 j)) k j := by
  have h28 : idx_main_v28 (ix2 k j) = ix2 k (⟨0, Nat.one_pos⟩ : Fin 1) :=
    funext fun a => Fin.ext (by match a with | ⟨0, _⟩ => rfl | ⟨1, _⟩ => rfl)
  rw [val_main_v29_apply, pre24, val_main_v28_apply, h28, nrm27, Ideal.hostDivf_def]
  rfl

/-! ## Layer 2: the 128 columns of `h1` are aggregated first, and the mean is projected

The reference wraps the source ids, counts the degrees and adds the one a second time; the second copies are the
same functions of the edge lists as the first. -/

private theorem wrap34 (x5 : (⟨1, ![1600000]⟩ : Shape).Idx → BitVec 32) (e : Fin 1600000) :
    val_main_v34 (F := Ideal) x5 (ix1 e) = wrap (x5 (ix1 e)) := by
  rw [val_main_v34_apply, val_main_v31_apply, val_main_v33_apply, val_main_v30_apply, val_main_v32_apply,
    val_main_c_5_apply, val_main_c_6_apply]
  rfl

private theorem col35 (x5 : (⟨1, ![1600000]⟩ : Shape).Idx → BitVec 32) (e : Fin 1600000) (u : Fin 1) :
    val_main_v35 (F := Ideal) x5 (ix2 e u) = wrap (x5 (ix1 e)) := by
  rw [val_main_v35_apply]
  have h : idx_main_v35 (ix2 e u) = ix1 e := funext fun a => Fin.ext (by match a with | ⟨0, _⟩ => rfl)
  rw [h, wrap34]

/-- The row take of `h1` by the wrapped ids: for edge `e`, `h1` at the edge's source row. -/
private theorem take36 (x0 : (⟨2, ![100000, 23]⟩ : Shape).Idx → EReal) (x1 : (⟨2, ![23, 128]⟩ : Shape).Idx → EReal)
    (x2 : (⟨1, ![128]⟩ : Shape).Idx → EReal) (x5 x6 : (⟨1, ![1600000]⟩ : Shape).Idx → BitVec 32)
    (e : Fin 1600000) (j : Fin 128) :
    val_main_v36 (F := Ideal) x0 x1 x2 x5 x6 (ix2 e j)
      = h1 (hn0 (fun k q => x0 (ix2 k q)) (fun e => x5 (ix1 e)) (fun e => x6 (ix1 e)))
          (fun q j => x1 (ix2 q j)) (fun j => x2 (ix1 j)) (srcRow (x5 (ix1 e))) j := by
  unfold val_main_v36
  refine (GatherRows.gather_rows_apply (N := 100000) (C := 128) (n := 1600000) (by decide)
    Facts₀.gather_S100000x128_S1600000x1_S1600000x128_1_0_n_n_0_1_1128_wf (val_main_v29 (F := Ideal) x0 x1 x2 x5 x6)
    (val_main_v35 (F := Ideal) x5) e j).trans ?_
  have hrow : (⟨min (val_main_v35 (F := Ideal) x5 (ix2 e ⟨0, Nat.one_pos⟩)).toInt.toNat (100000 - 1), by omega⟩ : Fin 100000)
      = srcRow (x5 (ix1 e)) := Fin.ext (by
    show min (val_main_v35 (F := Ideal) x5 (ix2 e ⟨0, Nat.one_pos⟩)).toInt.toNat (100000 - 1)
      = min (wrap (x5 (ix1 e))).toInt.toNat (100000 - 1)
    rw [col35])
  rw [hrow, h29]

/-- The taken rows of `h1` added at the target ids, from zero: column `j` of `h1` summed over the source rows of the
    edges that land on `k`. -/
private theorem agg39 (x0 : (⟨2, ![100000, 23]⟩ : Shape).Idx → EReal) (x1 : (⟨2, ![23, 128]⟩ : Shape).Idx → EReal)
    (x2 : (⟨1, ![128]⟩ : Shape).Idx → EReal) (x5 x6 : (⟨1, ![1600000]⟩ : Shape).Idx → BitVec 32)
    (k : Fin 100000) (j : Fin 128) :
    val_main_v39 (F := Ideal) x0 x1 x2 x5 x6 (ix2 k j)
      = agg (fun e => x5 (ix1 e)) (fun e => x6 (ix1 e))
          (fun r => h1 (hn0 (fun k q => x0 (ix2 k q)) (fun e => x5 (ix1 e)) (fun e => x6 (ix1 e)))
            (fun q j => x1 (ix2 q j)) (fun j => x2 (ix1 j)) r j) k := by
  unfold val_main_v39
  rw [Host.scatterAdd, Ideal.hostScatterAdd_def]
  refine (ScatterAddRows.scatterAdd_rows_apply (N := 100000) (C := 128) (n := 1600000)
    Facts₀.scatter_S100000x128_S1600000x1_S1600000x128_1_0_0_1_wf (val_main_v37 (F := Ideal)) (val_main_v38 (F := Ideal) x6)
    (val_main_v36 (F := Ideal) x0 x1 x2 x5 x6) k j).trans ?_
  rw [val_main_v37_apply, val_main_cst_7_apply, Ideal.ofBits_def, zeroW, zero_add]
  unfold agg
  refine Finset.sum_congr rfl fun e _ => ?_
  have h : idx_main_v38 (ix2 e (⟨0, Nat.one_pos⟩ : Fin 1)) = ix1 e :=
    funext fun a => Fin.ext (by match a with | ⟨0, _⟩ => rfl)
  rw [val_main_v38_apply, h, take36]
  exact if_congr Iff.rfl rfl rfl

private theorem deg43 (x6 : (⟨1, ![1600000]⟩ : Shape).Idx → BitVec 32) (k : Fin 100000) :
    val_main_v43 (F := Ideal) x6 (ix1 k) = deg (fun e => x6 (ix1 e)) k := by
  unfold val_main_v43
  rw [Host.scatterAdd, Ideal.hostScatterAdd_def]
  refine (ScatterAddRows.scatterAdd_entries_apply (N := 100000) (n := 1600000)
    Facts₀.scatter_S100000_S1600000x1_S1600000_n_0_0_1_wf (val_main_v41 (F := Ideal)) (val_main_v42 (F := Ideal) x6)
    (val_main_v40 (F := Ideal)) k).trans ?_
  rw [val_main_v41_apply, val_main_cst_9_apply, Ideal.ofBits_def, zeroW, zero_add]
  unfold deg
  refine Finset.sum_congr rfl fun e _ => ?_
  have h : idx_main_v42 (ix2 e (⟨0, Nat.one_pos⟩ : Fin 1)) = ix1 e :=
    funext fun a => Fin.ext (by match a with | ⟨0, _⟩ => rfl)
  rw [val_main_v42_apply, h, val_main_v40_apply, val_main_cst_8_apply, Ideal.ofBits_def, oneWord]
  exact if_congr Iff.rfl rfl rfl

private theorem deg46 (x6 : (⟨1, ![1600000]⟩ : Shape).Idx → BitVec 32) (k : Fin 100000) :
    val_main_v46 (F := Ideal) x6 (ix1 k) = deg (fun e => x6 (ix1 e)) k + 1 := by
  rw [val_main_v46_apply, deg43, val_main_v45_apply, val_main_cst_10_apply, Ideal.ofBits_def, oneWord, Ideal.addf_def]

/-- The aggregate of `h1` plus the node's own row, over the degree plus one: the mean aggregation of `h1`. -/
private theorem mean49 (x0 : (⟨2, ![100000, 23]⟩ : Shape).Idx → EReal) (x1 : (⟨2, ![23, 128]⟩ : Shape).Idx → EReal)
    (x2 : (⟨1, ![128]⟩ : Shape).Idx → EReal) (x5 x6 : (⟨1, ![1600000]⟩ : Shape).Idx → BitVec 32)
    (k : Fin 100000) (j : Fin 128) :
    val_main_v49 (F := Ideal) x0 x1 x2 x5 x6 (ix2 k j)
      = meanAgg (fun e => x5 (ix1 e)) (fun e => x6 (ix1 e))
          (h1 (hn0 (fun k q => x0 (ix2 k q)) (fun e => x5 (ix1 e)) (fun e => x6 (ix1 e)))
            (fun q j => x1 (ix2 q j)) (fun j => x2 (ix1 j))) k j := by
  have h48 : idx_main_v48 (ix2 k j) = ix2 k (⟨0, Nat.one_pos⟩ : Fin 1) :=
    funext fun a => Fin.ext (by match a with | ⟨0, _⟩ => rfl | ⟨1, _⟩ => rfl)
  have h47 : idx_main_v47 (ix2 k (⟨0, Nat.one_pos⟩ : Fin 1)) = ix1 k :=
    funext fun a => Fin.ext (by match a with | ⟨0, _⟩ => rfl)
  rw [val_main_v49_apply, val_main_v44_apply, agg39, h29, val_main_v48_apply, h48, val_main_v47_apply, h47, deg46,
    Ideal.hostDivf_def, Ideal.addf_def]
  rfl

/-- The mean projected by `w2`, plus the bias `b2` (a row broadcast down the nodes): `h2R`. -/
private theorem h2R53 (x0 : (⟨2, ![100000, 23]⟩ : Shape).Idx → EReal) (x1 : (⟨2, ![23, 128]⟩ : Shape).Idx → EReal)
    (x2 : (⟨1, ![128]⟩ : Shape).Idx → EReal) (x3 : (⟨2, ![128, 64]⟩ : Shape).Idx → EReal)
    (x4 : (⟨1, ![64]⟩ : Shape).Idx → EReal) (x5 x6 : (⟨1, ![1600000]⟩ : Shape).Idx → BitVec 32)
    (k : Fin 100000) (c : Fin 64) :
    val_main_v53 (F := Ideal) x0 x1 x2 x3 x4 x5 x6 (ix2 k c)
      = h2R (fun k q => x0 (ix2 k q)) (fun q j => x1 (ix2 q j)) (fun j => x2 (ix1 j)) (fun j c => x3 (ix2 j c))
          (fun c => x4 (ix1 c)) (fun e => x5 (ix1 e)) (fun e => x6 (ix1 e)) k c := by
  have hl : ∀ j : Fin 128, lidx_main_v50 (ix2 k c) j = ix2 k j := fun j =>
    funext fun a => Fin.ext (by match a with | ⟨0, _⟩ => rfl | ⟨1, _⟩ => rfl)
  have hr : ∀ j : Fin 128, ridx_main_v50 (ix2 k c) j = ix2 j c := fun j =>
    funext fun a => Fin.ext (by match a with | ⟨0, _⟩ => rfl | ⟨1, _⟩ => rfl)
  have h52 : idx_main_v52 (ix2 k c) = ix2 (⟨0, Nat.one_pos⟩ : Fin 1) c :=
    funext fun a => Fin.ext (by match a with | ⟨0, _⟩ => rfl | ⟨1, _⟩ => rfl)
  have h51 : idx_main_v51 (ix2 (⟨0, Nat.one_pos⟩ : Fin 1) c) = ix1 c :=
    funext fun a => Fin.ext (by match a with | ⟨0, _⟩ => rfl)
  rw [val_main_v53_apply, val_main_v50_apply, val_main_v52_apply, h52, val_main_v51_apply, h51, Ideal.addf_def]
  unfold h2R
  refine congrArg (fun s => s + x4 (ix1 c)) (Finset.sum_congr rfl fun j _ => ?_)
  rw [hl, hr, mean49]

/-! ## The per-graph mean -/

/-- The rows of layer 2 added at the graph ids, from zero: at `(a, c)` the sum of column `c` over the nodes of graph `a`. -/
private theorem gsum56 (x0 : (⟨2, ![100000, 23]⟩ : Shape).Idx → EReal) (x1 : (⟨2, ![23, 128]⟩ : Shape).Idx → EReal)
    (x2 : (⟨1, ![128]⟩ : Shape).Idx → EReal) (x3 : (⟨2, ![128, 64]⟩ : Shape).Idx → EReal)
    (x4 : (⟨1, ![64]⟩ : Shape).Idx → EReal) (x5 x6 : (⟨1, ![1600000]⟩ : Shape).Idx → BitVec 32)
    (x7 : (⟨1, ![100000]⟩ : Shape).Idx → BitVec 32) (a c : Fin 64) :
    val_main_v56 (F := Ideal) x0 x1 x2 x3 x4 x5 x6 x7 (ix2 a c)
      = gsum (fun k => x7 (ix1 k))
          (h2R (fun k q => x0 (ix2 k q)) (fun q j => x1 (ix2 q j)) (fun j => x2 (ix1 j)) (fun j c => x3 (ix2 j c))
            (fun c => x4 (ix1 c)) (fun e => x5 (ix1 e)) (fun e => x6 (ix1 e))) a c := by
  unfold val_main_v56
  rw [Host.scatterAdd, Ideal.hostScatterAdd_def]
  refine (ScatterAddRows.scatterAdd_rows_apply (N := 64) (C := 64) (n := 100000)
    Facts₀.scatter_S64x64_S100000x1_S100000x64_1_0_0_1_wf (val_main_v54 (F := Ideal)) (val_main_v55 (F := Ideal) x7)
    (val_main_v53 (F := Ideal) x0 x1 x2 x3 x4 x5 x6) a c).trans ?_
  rw [val_main_v54_apply, val_main_cst_11_apply, Ideal.ofBits_def, zeroW, zero_add]
  unfold gsum
  refine Finset.sum_congr rfl fun k _ => ?_
  have h : idx_main_v55 (ix2 k (⟨0, Nat.one_pos⟩ : Fin 1)) = ix1 k :=
    funext fun b => Fin.ext (by match b with | ⟨0, _⟩ => rfl)
  rw [val_main_v55_apply, h, h2R53]
  exact if_congr Iff.rfl rfl rfl

/-- Ones added at the graph ids, from zero: the number of nodes of graph `a`. -/
private theorem cnt60 (x7 : (⟨1, ![100000]⟩ : Shape).Idx → BitVec 32) (a : Fin 64) :
    val_main_v60 (F := Ideal) x7 (ix1 a) = cnt (fun k => x7 (ix1 k)) a := by
  unfold val_main_v60
  rw [Host.scatterAdd, Ideal.hostScatterAdd_def]
  refine (ScatterAddRows.scatterAdd_entries_apply (N := 64) (n := 100000)
    Facts₀.scatter_S64_S100000x1_S100000_n_0_0_1_wf (val_main_v58 (F := Ideal)) (val_main_v59 (F := Ideal) x7)
    (val_main_v57 (F := Ideal)) a).trans ?_
  rw [val_main_v58_apply, val_main_cst_13_apply, Ideal.ofBits_def, zeroW, zero_add]
  unfold cnt
  refine Finset.sum_congr rfl fun k _ => ?_
  have h : idx_main_v59 (ix2 k (⟨0, Nat.one_pos⟩ : Fin 1)) = ix1 k :=
    funext fun b => Fin.ext (by match b with | ⟨0, _⟩ => rfl)
  rw [val_main_v59_apply, h, val_main_v57_apply, val_main_cst_12_apply, Ideal.ofBits_def, oneWord]
  exact if_congr Iff.rfl rfl rfl

/-- The divisor of the per-graph mean: the count, at least the one the program carries as a word. -/
private theorem div62 (x7 : (⟨1, ![100000]⟩ : Shape).Idx → BitVec 32) (a : Fin 64) :
    val_main_v62 (F := Ideal) x7 (ix1 a) = max (cnt (fun k => x7 (ix1 k)) a) oneW := by
  rw [val_main_v62_apply, cnt60, val_main_v61_apply, val_main_cst_14_apply, Ideal.ofBits_def, Ideal.maximumf_def]

/-- The reference's result array, as a function of its eight argument arrays, at graph `a`, column `c'`. -/
theorem result_apply
    (x0 : (⟨2, ![100000, 23]⟩ : Shape).Idx → EReal) (x1 : (⟨2, ![23, 128]⟩ : Shape).Idx → EReal)
    (x2 : (⟨1, ![128]⟩ : Shape).Idx → EReal) (x3 : (⟨2, ![128, 64]⟩ : Shape).Idx → EReal)
    (x4 : (⟨1, ![64]⟩ : Shape).Idx → EReal) (x5 x6 : (⟨1, ![1600000]⟩ : Shape).Idx → BitVec 32)
    (x7 : (⟨1, ![100000]⟩ : Shape).Idx → BitVec 32) (a c' : Fin 64) :
    (val_main_v65 (F := Ideal) x0 x1 x2 x3 x4 x5 x6 x7 : (⟨2, ![64, 64]⟩ : Shape).Idx → EReal) (ix2 a c')
      = pooled (fun k => x7 (ix1 k))
          (h2R (fun k q => x0 (ix2 k q)) (fun q j => x1 (ix2 q j)) (fun j => x2 (ix1 j)) (fun j c => x3 (ix2 j c))
            (fun c => x4 (ix1 c)) (fun e => x5 (ix1 e)) (fun e => x6 (ix1 e))) a c' := by
  have h64 : idx_main_v64 (ix2 a c') = ix2 a (⟨0, Nat.one_pos⟩ : Fin 1) :=
    funext fun b => Fin.ext (by match b with | ⟨0, _⟩ => rfl | ⟨1, _⟩ => rfl)
  have h63 : idx_main_v63 (ix2 a (⟨0, Nat.one_pos⟩ : Fin 1)) = ix1 a :=
    funext fun b => Fin.ext (by match b with | ⟨0, _⟩ => rfl)
  rw [val_main_v65_apply, gsum56, val_main_v64_apply, h64, val_main_v63_apply, h63, div62, Ideal.hostDivf_def]
  rfl

end Cert.Sage.Ref

end
-- ==== Proof.LibRealValued.lean ====
/-
  Arrays of extended reals that hold only real numbers.

  At the ideal values a float is an extended real, and an algebraic identity between two ways of
  computing a softmax holds for REAL logits only (at an infinite logit a difference of infinities is a
  convention, not a number). This file names the property "every entry is a real number" and proves
  that each operation a graph-convolution network is made of keeps it: sums, differences, products and
  maxima of entries, constants, re-indexings (broadcasts, shape casts, transposes, gathers), scattered
  sums, contractions, integers read as floats, and the inverse square root of a node's degree.
-/
import Idealize.ShloMosaic.PureOps.Ideal
import Idealize.ShloMosaic.PureOps.Ideal.Laws
import Idealize.ShloMosaic.PureOps.Contract
import Idealize.ShloMosaic.PureOps.ShapeOps
import Idealize.ShloMosaic.Lib.IdealHost

namespace RealValued

open Idealize.ShloMosaic
open scoped BigOperators

/-! ## The property -/

/-- An array of extended reals every entry of which is a real number. -/
def IsReal {ι : Type*} (v : ι → EReal) : Prop := ∀ i, ∃ r : ℝ, v i = (r : EReal)

/-- An array is real-valued exactly when no entry is an infinity. -/
theorem isReal_iff_ne {ι : Type*} (v : ι → EReal) : IsReal v ↔ ∀ i, v i ≠ ⊤ ∧ v i ≠ ⊥ := by
  constructor
  · intro h i
    obtain ⟨r, hr⟩ := h i
    rw [hr]
    exact ⟨EReal.coe_ne_top r, EReal.coe_ne_bot r⟩
  · intro h i
    exact ⟨(v i).toReal, (EReal.coe_toReal (h i).1 (h i).2).symm⟩

/-- What a finiteness precondition gives: an array with no infinite entry is real-valued. -/
theorem isReal_of_finite {ι : Type*} {x : ι → EReal} (h : ∀ i, x i ≠ ⊤ ∧ x i ≠ ⊥) : IsReal x :=
  (isReal_iff_ne x).mpr h

/-- An entry of a real-valued array is not `⊤`. -/
theorem IsReal.ne_top {ι : Type*} {v : ι → EReal} (h : IsReal v) (i : ι) : v i ≠ ⊤ :=
  ((isReal_iff_ne v).mp h i).1

/-- An entry of a real-valued array is not `⊥`. -/
theorem IsReal.ne_bot {ι : Type*} {v : ι → EReal} (h : IsReal v) (i : ι) : v i ≠ ⊥ :=
  ((isReal_iff_ne v).mp h i).2

/-- An entry of a real-valued array is the embedding of its real part. -/
theorem IsReal.coe_toReal {ι : Type*} {v : ι → EReal} (h : IsReal v) (i : ι) : ((v i).toReal : EReal) = v i :=
  EReal.coe_toReal (h.ne_top i) (h.ne_bot i)

/-- An array whose absolute values `max a (-a)` all lie below `⊤` is real-valued: `|a| < ⊤` excludes both
    infinities, since `|⊤| = |⊥| = ⊤`. -/
theorem isReal_of_abs_lt_top {ι : Type*} {x : ι → EReal} (h : ∀ i, max (x i) (-(x i)) < ⊤) : IsReal x := by
  refine isReal_of_finite fun i => ⟨?_, ?_⟩
  · intro e; have := h i; rw [e] at this; simp at this
  · intro e; have := h i; rw [e] at this; simp at this

/-! ## Real numbers are closed under the field operations and the lattice operations -/

/-- The sum of two real numbers is a real number. -/
theorem real_add {a b : EReal} (ha : ∃ r : ℝ, a = (r : EReal)) (hb : ∃ r : ℝ, b = (r : EReal)) :
    ∃ r : ℝ, a + b = (r : EReal) := by
  obtain ⟨p, rfl⟩ := ha; obtain ⟨q, rfl⟩ := hb
  exact ⟨p + q, (EReal.coe_add p q).symm⟩

/-- The difference of two real numbers is a real number. -/
theorem real_sub {a b : EReal} (ha : ∃ r : ℝ, a = (r : EReal)) (hb : ∃ r : ℝ, b = (r : EReal)) :
    ∃ r : ℝ, a - b = (r : EReal) := by
  obtain ⟨p, rfl⟩ := ha; obtain ⟨q, rfl⟩ := hb
  exact ⟨p - q, (EReal.coe_sub p q).symm⟩

/-- The product of two real numbers is a real number. -/
theorem real_mul {a b : EReal} (ha : ∃ r : ℝ, a = (r : EReal)) (hb : ∃ r : ℝ, b = (r : EReal)) :
    ∃ r : ℝ, a * b = (r : EReal) := by
  obtain ⟨p, rfl⟩ := ha; obtain ⟨q, rfl⟩ := hb
  exact ⟨p * q, (EReal.coe_mul p q).symm⟩

/-- The negation of a real number is a real number. -/
theorem real_neg {a : EReal} (ha : ∃ r : ℝ, a = (r : EReal)) : ∃ r : ℝ, -a = (r : EReal) := by
  obtain ⟨p, rfl⟩ := ha
  exact ⟨-p, (EReal.coe_neg p).symm⟩

/-- The greater of two real numbers is a real number. -/
theorem real_max {a b : EReal} (ha : ∃ r : ℝ, a = (r : EReal)) (hb : ∃ r : ℝ, b = (r : EReal)) :
    ∃ r : ℝ, max a b = (r : EReal) := by
  rcases le_total a b with h | h
  · rw [max_eq_right h]; exact hb
  · rw [max_eq_left h]; exact ha

/-- The lesser of two real numbers is a real number. -/
theorem real_min {a b : EReal} (ha : ∃ r : ℝ, a = (r : EReal)) (hb : ∃ r : ℝ, b = (r : EReal)) :
    ∃ r : ℝ, min a b = (r : EReal) := by
  rcases le_total a b with h | h
  · rw [min_eq_left h]; exact ha
  · rw [min_eq_right h]; exact hb

/-- A finite sum of real numbers is a real number (induction on the index set: the empty sum is `0`, and a
    sum of two reals is real). -/
theorem isReal_sum {κ : Type*} (s : Finset κ) (f : κ → EReal) (h : ∀ k ∈ s, ∃ r : ℝ, f k = (r : EReal)) :
    ∃ r : ℝ, ∑ k ∈ s, f k = (r : EReal) :=
  Finset.sum_induction f (fun a => ∃ r : ℝ, a = (r : EReal)) (fun _ _ => real_add) ⟨0, rfl⟩ h

/-- The same over a whole finite type. -/
theorem isReal_sum_univ {κ : Type*} [Fintype κ] (f : κ → EReal) (h : ∀ k, ∃ r : ℝ, f k = (r : EReal)) :
    ∃ r : ℝ, ∑ k, f k = (r : EReal) :=
  isReal_sum Finset.univ f fun k _ => h k

/-! ## The elementwise operations -/

section Elementwise
variable {s : Shape} {φ : FTy}

/-- The elementwise sum of two real-valued arrays is real-valued. -/
theorem isReal_addf {x y : FVec Ideal s φ} (hx : IsReal x) (hy : IsReal y) : IsReal (addf (F := Ideal) x y) :=
  fun i => real_add (hx i) (hy i)

/-- The elementwise difference of two real-valued arrays is real-valued. -/
theorem isReal_subf {x y : FVec Ideal s φ} (hx : IsReal x) (hy : IsReal y) : IsReal (subf (F := Ideal) x y) :=
  fun i => real_sub (hx i) (hy i)

/-- The elementwise product of two real-valued arrays is real-valued. -/
theorem isReal_mulf {x y : FVec Ideal s φ} (hx : IsReal x) (hy : IsReal y) : IsReal (mulf (F := Ideal) x y) :=
  fun i => real_mul (hx i) (hy i)

/-- The elementwise maximum of two real-valued arrays is real-valued. -/
theorem isReal_maximumf {x y : FVec Ideal s φ} (hx : IsReal x) (hy : IsReal y) :
    IsReal (maximumf (F := Ideal) x y) :=
  fun i => real_max (hx i) (hy i)

/-- The elementwise minimum of two real-valued arrays is real-valued. -/
theorem isReal_minimumf {x y : FVec Ideal s φ} (hx : IsReal x) (hy : IsReal y) :
    IsReal (minimumf (F := Ideal) x y) :=
  fun i => real_min (hx i) (hy i)

/-- The elementwise negation of a real-valued array is real-valued. -/
theorem isReal_negf {x : FVec Ideal s φ} (hx : IsReal x) : IsReal (negf (F := Ideal) x) :=
  fun i => real_neg (hx i)

/-- The host's elementwise negation of a real-valued array is real-valued. -/
theorem isReal_hostNegf {x : FVec Ideal s φ} (hx : IsReal x) : IsReal (Host.negf (F := Ideal) x) :=
  fun i => real_neg (hx i)

end Elementwise

/-! ## Constants -/

section Constants
variable {s : Shape} {φ : FTy}

/-- A constant array whose bit pattern denotes a real number is real-valued. -/
theorem isReal_const_of {w : BitVec φ.bits} {r : ℝ} (h : Ideal.ofBits φ w = (r : EReal)) :
    IsReal (constant (F := Ideal) s φ w) :=
  fun _ => ⟨r, h⟩

/-- The f32 pattern of `4096.0` (sign 0, exponent 139, fraction 0: `2 ^ 12`) denotes the real `4096`. -/
theorem ofBits_4096_f32 : Ideal.ofBits .f32 0x45800000#32 = ((4096 : ℝ) : EReal) := by
  simp [Ideal.ofBits, Ideal.ieee, -EReal.coe_mul]; norm_num

/-- The f32 pattern `0x358637BD` (the float nearest `1e-6`: sign 0, exponent 107, fraction `0x0637BD`)
    denotes the real `(2 ^ 23 + 407485) · 2 ^ (-43)`. -/
theorem ofBits_1em6_f32 :
    Ideal.ofBits .f32 0x358637BD#32 = (((8796093 : ℝ) * (2 : ℝ) ^ (-43 : ℤ) : ℝ) : EReal) := by
  simp [Ideal.ofBits, Ideal.ieee, -EReal.coe_mul]

/-- The constant `0.0` array is real-valued. -/
theorem isReal_const_zero : IsReal (constant (F := Ideal) s .f32 0x00000000#32) :=
  isReal_const_of (r := 0) Ideal.ofBits_zero_f32

/-- The constant `1.0` array is real-valued. -/
theorem isReal_const_one : IsReal (constant (F := Ideal) s .f32 0x3F800000#32) :=
  isReal_const_of (r := 1) Ideal.ofBits_one_f32

/-- The constant `4096.0` array is real-valued. -/
theorem isReal_const_4096 : IsReal (constant (F := Ideal) s .f32 0x45800000#32) :=
  isReal_const_of ofBits_4096_f32

/-- The constant array of the float nearest `1e-6` is real-valued. -/
theorem isReal_const_1em6 : IsReal (constant (F := Ideal) s .f32 0x358637BD#32) :=
  isReal_const_of ofBits_1em6_f32

/-- Every entry of the constant `1.0` array is `1`. -/
theorem const_one_apply (i : s.Idx) : constant (F := Ideal) s .f32 0x3F800000#32 i = 1 :=
  Ideal.ofBits_one_f32

/-- Every entry of the constant `0.0` array is `0`. -/
theorem const_zero_apply (i : s.Idx) : constant (F := Ideal) s .f32 0x00000000#32 i = 0 :=
  Ideal.ofBits_zero_f32

end Constants

/-! ## Re-indexings: every entry of the result is an entry of the operand -/

section Reindex
variable {s t : Shape}

/-- An array read through any map of indices is real-valued when the array is. -/
theorem isReal_comp {ι κ : Type*} {x : ι → EReal} (hx : IsReal x) (f : κ → ι) : IsReal fun j => x (f j) :=
  fun j => hx (f j)

/-- A broadcast along dimensions of a real-valued array is real-valued. -/
theorem isReal_broadcastInDim {dims : Fin s.rank → Fin t.rank} {h : s.BroadcastsInDim t dims} {x : s.Idx → EReal}
    (hx : IsReal x) : IsReal (broadcastInDim t dims h x) :=
  fun _ => hx _

/-- The splat of a real number is real-valued. -/
theorem isReal_broadcast {a : EReal} (ha : ∃ r : ℝ, a = (r : EReal)) : IsReal (broadcast t a) :=
  fun _ => ha

/-- A trailing-axes broadcast of a real-valued array is real-valued. -/
theorem isReal_broadcastTo {h : s.Broadcasts t} {x : s.Idx → EReal} (hx : IsReal x) : IsReal (broadcastTo t x h) :=
  fun _ => hx _

/-- A shape cast (a reshape: the same entries in row-major order) of a real-valued array is real-valued. -/
theorem isReal_shapeCast {h : s.ShapeCasts t} {x : s.Idx → EReal} (hx : IsReal x) : IsReal (shapeCast t x h) :=
  fun _ => hx _

/-- A transpose of a real-valued array is real-valued. -/
theorem isReal_transpose {perm : List (Fin s.rank)} {h : s.Transposes perm t} {x : s.Idx → EReal} (hx : IsReal x) :
    IsReal (transpose t perm x h) :=
  fun _ => hx _

/-- A gather from a real-valued array is real-valued: each result entry is the operand's at an index. -/
theorem isReal_gather {si : Shape} {w : Nat} (d : GatherDims s si t) {x : s.Idx → EReal} (idx : IVec si w)
    (hx : IsReal x) : IsReal (Host.gather d x idx) :=
  fun _ => hx _

end Reindex

/-! ## Scattered sums, contractions, integers -/

section Sums
variable {s : Shape} {φ : FTy}

/-- An accumulating scatter of real-valued updates into a real-valued operand is real-valued: each entry is the
    operand's plus a finite sum of update entries. -/
theorem isReal_scatterAdd {si su : Shape} {w : Nat} (d : ScatterDims s si su) {x : FVec Ideal s φ} (idx : IVec si w)
    {u : FVec Ideal su φ} (hx : IsReal x) (hu : IsReal u) : IsReal (Host.scatterAdd (F := Ideal) d x idx u) :=
  fun i => real_add (hx i) (isReal_sum _ _ fun j _ => hu j)

/-- A contraction (`dot_general`) of two real-valued arrays is real-valued: each entry is a finite sum of products. -/
theorem isReal_dotGeneral {sl sr so : Shape} {φ₁ φ₂ : FTy} (d : DotDims sl sr so) (prec : Option ContractPrecision)
    {x : FVec Ideal sl φ₁} {w : FVec Ideal sr φ₂} (hx : IsReal x) (hw : IsReal w) :
    IsReal (Host.dotGeneral (F := Ideal) d prec x w) := by
  intro j
  show ∃ r : ℝ, FloatOps.dotGeneral d prec .single x w j = (r : EReal)
  rw [Ideal.dotGeneral_apply]
  exact isReal_sum_univ _ fun k => real_mul (hx _) (hw _)

/-- The same at any schedule key. -/
theorem isReal_dotGeneralAt (sched : HostSchedule) {sl sr so : Shape} {φ₁ φ₂ : FTy} (d : DotDims sl sr so)
    (prec : Option ContractPrecision) {x : FVec Ideal sl φ₁} {w : FVec Ideal sr φ₂} (hx : IsReal x) (hw : IsReal w) :
    IsReal (Host.dotGeneralAt (F := Ideal) sched d prec x w) := by
  intro j
  show ∃ r : ℝ, FloatOps.dotGeneral d prec sched x w j = (r : EReal)
  rw [Ideal.dotGeneral_apply]
  exact isReal_sum_univ _ fun k => real_mul (hx _) (hw _)

/-- A kernel's matrix product of real-valued operands onto a real-valued accumulator is real-valued: each entry is
    the accumulator's plus a finite sum of products. -/
theorem isReal_matmul {sl sr so : Shape} {φ₁ φ₂ : FTy} (d : DotDims sl sr so) (prec : Option ContractPrecision)
    {x : FVec Ideal sl φ₁} {w : FVec Ideal sr φ₂} {acc : FVec Ideal so .f32} (hx : IsReal x) (hw : IsReal w)
    (hacc : IsReal acc) : IsReal (matmul (F := Ideal) d prec x w acc) := by
  intro j
  show ∃ r : ℝ, FloatOps.matmul d prec x w acc j = (r : EReal)
  rw [Ideal.matmul_apply]
  exact real_add (hacc j) (isReal_sum_univ _ fun k => real_mul (hx _) (hw _))

/-- A signed integer array read as floats is real-valued: each entry is the integer's value. -/
theorem isReal_sitofp {w : Nat} (v : IVec s w) : IsReal (sitofp (F := Ideal) φ v) :=
  fun i => ⟨((v i).toInt : ℝ), rfl⟩

/-- An unsigned integer array read as floats is real-valued. -/
theorem isReal_uitofp {w : Nat} (v : IVec s w) : IsReal (uitofp (F := Ideal) φ v) :=
  fun i => ⟨((v i).toNat : ℝ), rfl⟩

end Sums

/-! ## Positive arrays, and the inverse square root of a degree -/

section Degree
variable {s : Shape} {φ : FTy}

/-- An array every entry of which is a positive real number. -/
def IsPos {ι : Type*} (v : ι → EReal) : Prop := ∀ i, ∃ r : ℝ, 0 < r ∧ v i = (r : EReal)

/-- A positive array is real-valued. -/
theorem IsPos.isReal {ι : Type*} {v : ι → EReal} (h : IsPos v) : IsReal v :=
  fun i => let ⟨r, _, hr⟩ := h i; ⟨r, hr⟩

/-- The inverse square root of a positive real number `r` is the positive real number `(√r)⁻¹`. -/
theorem rsqrt_of_pos {a : EReal} (ha : ∃ r : ℝ, 0 < r ∧ a = (r : EReal)) :
    ∃ r : ℝ, 0 < r ∧ Ideal.rsqrt a = (r : EReal) := by
  obtain ⟨r, hr, rfl⟩ := ha
  refine ⟨(Real.sqrt r)⁻¹, inv_pos.mpr (Real.sqrt_pos.mpr hr), ?_⟩
  rw [Ideal.rsqrt_coe, if_neg (not_lt.mpr hr.le), if_neg hr.ne']

/-- The host's elementwise inverse square root of a positive array is positive. -/
theorem isPos_rsqrt {x : FVec Ideal s φ} (hx : IsPos x) : IsPos (Host.rsqrt (F := Ideal) x) :=
  fun i => rsqrt_of_pos (hx i)

/-- The host's elementwise inverse square root of a positive array is real-valued. -/
theorem isReal_rsqrt_of_pos {x : FVec Ideal s φ} (hx : IsPos x) : IsReal (Host.rsqrt (F := Ideal) x) :=
  (isPos_rsqrt hx).isReal

/-- The kernel-side elementwise inverse square root of a positive array is positive. -/
theorem isPos_rsqrt' {x : FVec Ideal s φ} (hx : IsPos x) : IsPos (rsqrt (F := Ideal) x) :=
  fun i => rsqrt_of_pos (hx i)

/-- The product of two positive arrays is positive. -/
theorem isPos_mulf {x y : FVec Ideal s φ} (hx : IsPos x) (hy : IsPos y) : IsPos (mulf (F := Ideal) x y) := by
  intro i
  obtain ⟨p, hp, hpx⟩ := hx i; obtain ⟨q, hq, hqy⟩ := hy i
  refine ⟨p * q, mul_pos hp hq, ?_⟩
  show x i * y i = _
  rw [hpx, hqy, EReal.coe_mul]

/-- A gather from a positive array is positive. -/
theorem isPos_gather {t si : Shape} {w : Nat} (d : GatherDims s si t) {x : s.Idx → EReal} (idx : IVec si w)
    (hx : IsPos x) : IsPos (Host.gather d x idx) :=
  fun _ => hx _

/-- A broadcast along dimensions of a positive array is positive. -/
theorem isPos_broadcastInDim {t : Shape} {dims : Fin s.rank → Fin t.rank} {h : s.BroadcastsInDim t dims}
    {x : s.Idx → EReal} (hx : IsPos x) : IsPos (broadcastInDim t dims h x) :=
  fun _ => hx _

/-- A degree count: scattering ones onto an array of ones leaves at each entry `1 + n`, `n` the number of updates
    that land there. -/
theorem scatterAdd_ones_apply {si su : Shape} (d : ScatterDims s si su) {w : Nat} (idx : IVec si w)
    (one : FVec Ideal s φ) (ones : FVec Ideal su φ) (h1 : ∀ i, one i = 1) (h2 : ∀ j, ones j = 1) (i : s.Idx) :
    Host.scatterAdd (F := Ideal) d one idx ones i
      = ((1 + ((Finset.univ.filter fun j => d.resultIdx? j idx = some i).card : ℝ) : ℝ) : EReal) := by
  show one i + ∑ j ∈ Finset.univ.filter (fun j => d.resultIdx? j idx = some i), ones j = _
  rw [h1 i, Finset.sum_congr rfl (fun j _ => h2 j), Finset.sum_const, nsmul_one, EReal.coe_add, EReal.coe_one,
    EReal.coe_natCast]

/-- A degree count is positive: each entry is a real number at least `1`. -/
theorem isPos_scatterAdd_ones {si su : Shape} (d : ScatterDims s si su) {w : Nat} (idx : IVec si w)
    (one : FVec Ideal s φ) (ones : FVec Ideal su φ) (h1 : ∀ i, one i = 1) (h2 : ∀ j, ones j = 1) :
    IsPos (Host.scatterAdd (F := Ideal) d one idx ones) := fun i =>
  ⟨_, by positivity, scatterAdd_ones_apply d idx one ones h1 h2 i⟩

/-- The inverse square root of a degree count is positive: each entry is `(√(1 + n))⁻¹`. -/
theorem isPos_rsqrt_degree {si su : Shape} (d : ScatterDims s si su) {w : Nat} (idx : IVec si w)
    (one : FVec Ideal s φ) (ones : FVec Ideal su φ) (h1 : ∀ i, one i = 1) (h2 : ∀ j, ones j = 1) :
    IsPos (Host.rsqrt (F := Ideal) (Host.scatterAdd d one idx ones)) :=
  isPos_rsqrt (isPos_scatterAdd_ones d idx one ones h1 h2)

/-- The inverse square root of a degree count is real-valued. -/
theorem isReal_rsqrt_degree {si su : Shape} (d : ScatterDims s si su) {w : Nat} (idx : IVec si w)
    (one : FVec Ideal s φ) (ones : FVec Ideal su φ) (h1 : ∀ i, one i = 1) (h2 : ∀ j, ones j = 1) :
    IsReal (Host.rsqrt (F := Ideal) (Host.scatterAdd d one idx ones)) :=
  (isPos_rsqrt_degree d idx one ones h1 h2).isReal

/-- A degree count with the ones spelled as broadcasts of the constant `1.0` is positive. -/
theorem isPos_scatterAdd_ones_bcast {si su S₀ S₁ : Shape} (d : ScatterDims s si su) {w : Nat} (idx : IVec si w)
    {dims₀ : Fin S₀.rank → Fin s.rank} {dims₁ : Fin S₁.rank → Fin su.rank} (hb₀ : S₀.BroadcastsInDim s dims₀)
    (hb₁ : S₁.BroadcastsInDim su dims₁) :
    IsPos (Host.scatterAdd (F := Ideal) d (broadcastInDim s dims₀ hb₀ (constant S₀ .f32 0x3F800000#32)) idx
      (broadcastInDim su dims₁ hb₁ (constant S₁ .f32 0x3F800000#32))) :=
  isPos_scatterAdd_ones d idx _ _ (fun _ => Ideal.ofBits_one_f32) (fun _ => Ideal.ofBits_one_f32)

/-- The inverse square root of a degree count so spelled is positive. -/
theorem isPos_rsqrt_degree_bcast {si su S₀ S₁ : Shape} (d : ScatterDims s si su) {w : Nat} (idx : IVec si w)
    {dims₀ : Fin S₀.rank → Fin s.rank} {dims₁ : Fin S₁.rank → Fin su.rank} (hb₀ : S₀.BroadcastsInDim s dims₀)
    (hb₁ : S₁.BroadcastsInDim su dims₁) :
    IsPos (Host.rsqrt (F := Ideal) (Host.scatterAdd d (broadcastInDim s dims₀ hb₀ (constant S₀ .f32 0x3F800000#32)) idx
      (broadcastInDim su dims₁ hb₁ (constant S₁ .f32 0x3F800000#32)))) :=
  isPos_rsqrt_degree d idx _ _ (fun _ => Ideal.ofBits_one_f32) (fun _ => Ideal.ofBits_one_f32)

/-- … and real-valued. -/
theorem isReal_rsqrt_degree_bcast {si su S₀ S₁ : Shape} (d : ScatterDims s si su) {w : Nat} (idx : IVec si w)
    {dims₀ : Fin S₀.rank → Fin s.rank} {dims₁ : Fin S₁.rank → Fin su.rank} (hb₀ : S₀.BroadcastsInDim s dims₀)
    (hb₁ : S₁.BroadcastsInDim su dims₁) :
    IsReal (Host.rsqrt (F := Ideal) (Host.scatterAdd d (broadcastInDim s dims₀ hb₀ (constant S₀ .f32 0x3F800000#32)) idx
      (broadcastInDim su dims₁ hb₁ (constant S₁ .f32 0x3F800000#32)))) :=
  (isPos_rsqrt_degree_bcast d idx hb₀ hb₁).isReal

end Degree

/-! ## More host operations on real-valued arrays -/

section More
variable {s : Shape} {φ : FTy}

/-- A real-valued array minus itself is zero everywhere (for an infinite entry the difference is not zero). -/
theorem subf_self {x : FVec Ideal s φ} (hx : IsReal x) : subf (F := Ideal) x x = fun _ => 0 := by
  funext i
  obtain ⟨r, hr⟩ := hx i
  show x i - x i = 0
  rw [hr, ← EReal.coe_sub, sub_self, EReal.coe_zero]

/-- The host's sum over axes of a real-valued array, from a real initial value, is real-valued: each entry is the
    initial value plus a finite sum of entries. -/
theorem isReal_hostReduceAdd {t u : Shape} {axes : List (Fin s.rank)} {x : FVec Ideal s φ} {init : u.Idx → Ideal φ}
    (h : s.ReducesTo axes t) (hu : 0 < u.numel) (hx : IsReal x) (hinit : IsReal init) :
    IsReal (Host.reduceAdd (F := Ideal) x init h hu) :=
  fun _ => real_add (hinit _) (isReal_sum _ _ fun i _ => hx i)

/-- The host's quotient of a real-valued array by an array of real numbers that are not zero is real-valued. -/
theorem isReal_hostDivf {x y : FVec Ideal s φ} (hx : IsReal x) (hy : ∀ i, ∃ r : ℝ, r ≠ 0 ∧ y i = (r : EReal)) :
    IsReal (Host.divf (F := Ideal) x y) := by
  intro i
  obtain ⟨q, hq, hqy⟩ := hy i
  show ∃ r : ℝ, Ideal.div (x i) (y i) = (r : EReal)
  rw [hqy, Ideal.div_coe hq]
  exact real_mul (hx i) ⟨_, rfl⟩

/-- The host's exponential of a real-valued array is positive. -/
theorem isPos_hostExp {x : FVec Ideal s φ} (hx : IsReal x) : IsPos (Host.exp (F := Ideal) x) := by
  intro i
  obtain ⟨r, hr⟩ := hx i
  refine ⟨Real.exp r, Real.exp_pos r, ?_⟩
  show Ideal.exp (x i) = _
  rw [hr, Ideal.exp_coe]

/-- The host's exponential of a real-valued array is real-valued. -/
theorem isReal_hostExp {x : FVec Ideal s φ} (hx : IsReal x) : IsReal (Host.exp (F := Ideal) x) :=
  (isPos_hostExp hx).isReal

/-- The host's logarithm of a positive array is real-valued. -/
theorem isReal_hostLog {x : FVec Ideal s φ} (hx : IsPos x) : IsReal (Host.log (F := Ideal) x) := by
  intro i
  obtain ⟨r, hr, hrx⟩ := hx i
  refine ⟨Real.log r, ?_⟩
  show Ideal.log (x i) = _
  rw [hrx, Ideal.log_coe, if_neg (not_le.mpr hr)]

/-- The host's square root of an array of real numbers that are not negative is real-valued. -/
theorem isReal_hostSqrt {x : FVec Ideal s φ} (hx : ∀ i, ∃ r : ℝ, 0 ≤ r ∧ x i = (r : EReal)) :
    IsReal (Host.sqrt (F := Ideal) x) := by
  intro i
  obtain ⟨r, hr, hrx⟩ := hx i
  refine ⟨Real.sqrt r, ?_⟩
  show Ideal.sqrt (x i) = _
  rw [hrx, Ideal.sqrt_coe, if_neg (not_lt.mpr hr)]

end More

/-! ## A tactic for nested terms -/

/-- `real_valued` proves a goal `IsReal t` for a term `t` built from real-valued hypotheses by the operations above:
    it applies the closure lemma of the outermost operation, then works on the operands, and closes a leaf by a
    hypothesis or by a lemma about a constant or an integer array. A goal it cannot progress on is left to the caller. -/
syntax (name := realValuedTac) "real_valued" : tactic

macro_rules
  | `(tactic| real_valued) => `(tactic|
      repeat' (with_reducible first
        | assumption
        | exact isReal_const_zero
        | exact isReal_const_one
        | exact isReal_const_4096
        | exact isReal_const_1em6
        | exact isReal_sitofp _
        | exact isReal_uitofp _
        | exact isReal_rsqrt_degree_bcast _ _ _ _
        | exact IsPos.isReal (by assumption)
        | exact isPos_scatterAdd_ones_bcast _ _ _ _
        | apply isReal_addf
        | apply isReal_subf
        | apply isReal_mulf
        | apply isReal_maximumf
        | apply isReal_minimumf
        | apply isReal_negf
        | apply isReal_hostNegf
        | apply isReal_broadcastInDim
        | apply isReal_shapeCast
        | apply isReal_transpose
        | apply isReal_gather
        | apply isReal_scatterAdd
        | apply isReal_dotGeneral
        | apply isReal_matmul
        | apply isReal_hostReduceAdd
        | apply isReal_hostExp
        | apply isReal_rsqrt_of_pos
        | apply isPos_rsqrt
        | apply isPos_mulf
        | apply isPos_gather
        | apply isPos_broadcastInDim
        | apply isPos_hostExp))

/-! ## Usage -/

section Usage

/-- Small shapes standing for nodes, edges and features: `N` nodes, `E` edges, `D` features. -/
private abbrev S0 : Shape := ⟨0, ![]⟩
private abbrev SN : Shape := ⟨1, ![5]⟩
private abbrev SN1 : Shape := ⟨2, ![5, 1]⟩
private abbrev SND : Shape := ⟨2, ![5, 3]⟩
private abbrev SE : Shape := ⟨1, ![7]⟩
private abbrev SE1 : Shape := ⟨2, ![7, 1]⟩
private abbrev SED : Shape := ⟨2, ![7, 3]⟩
private abbrev SD : Shape := ⟨1, ![3]⟩
private abbrev S1D : Shape := ⟨2, ![1, 3]⟩
private abbrev SKD : Shape := ⟨2, ![4, 3]⟩
private abbrev SNK : Shape := ⟨2, ![5, 4]⟩

/-- One graph-convolution aggregation, term by term: a scattered sum of weighted gathered rows onto zeros, plus the
    weighted self term. -/
example (d : ScatterDims SND SE1 SED) (g : GatherDims SND SE1 SED) (idx idx' : IVec SE1 32)
    (hb0 : S0.BroadcastsInDim SND ![]) (hb1 : SE1.BroadcastsInDim SED ![0, 1]) (hb2 : SN1.BroadcastsInDim SND ![0, 1])
    (a : FVec Ideal SE1 .f32) (c : FVec Ideal SN1 .f32) (x : FVec Ideal SND .f32)
    (ha : IsReal a) (hc : IsReal c) (hx : IsReal x) :
    IsReal (addf (F := Ideal)
      (Host.scatterAdd d (broadcastInDim SND ![] hb0 (constant S0 .f32 0x00000000#32)) idx
        (mulf (broadcastInDim SED ![0, 1] hb1 a) (Host.gather g x idx')))
      (mulf (broadcastInDim SND ![0, 1] hb2 c) x)) :=
  isReal_addf
    (isReal_scatterAdd d idx (isReal_broadcastInDim isReal_const_zero)
      (isReal_mulf (isReal_broadcastInDim ha) (isReal_gather g idx' hx)))
    (isReal_mulf (isReal_broadcastInDim hc) hx)

/-- The same by the tactic. -/
example (d : ScatterDims SND SE1 SED) (g : GatherDims SND SE1 SED) (idx idx' : IVec SE1 32)
    (hb0 : S0.BroadcastsInDim SND ![]) (hb1 : SE1.BroadcastsInDim SED ![0, 1]) (hb2 : SN1.BroadcastsInDim SND ![0, 1])
    (a : FVec Ideal SE1 .f32) (c : FVec Ideal SN1 .f32) (x : FVec Ideal SND .f32)
    (ha : IsReal a) (hc : IsReal c) (hx : IsReal x) :
    IsReal (addf (F := Ideal)
      (Host.scatterAdd d (broadcastInDim SND ![] hb0 (constant S0 .f32 0x00000000#32)) idx
        (mulf (broadcastInDim SED ![0, 1] hb1 a) (Host.gather g x idx')))
      (mulf (broadcastInDim SND ![0, 1] hb2 c) x)) := by
  real_valued

/-- The normalisation weights of an edge: the product of the two endpoints' inverse-square-root degrees, the degree
    a scattered count of ones onto ones, the operations applied through `fun`s as a host program writes them. -/
example (d : ScatterDims SN SE1 SE) (g : GatherDims SN SE1 SE) (idx i₁ i₂ : IVec SE1 32)
    (hb0 : S0.BroadcastsInDim SN ![]) (hb1 : S0.BroadcastsInDim SE ![]) :
    IsReal (mulf (F := Ideal)
      ((fun x i => Host.gather g x i)
        (Host.rsqrt ((fun x i u => Host.scatterAdd d x i u) (broadcastInDim SN ![] hb0 (constant S0 .f32 0x3F800000#32)) idx
          (broadcastInDim SE ![] hb1 (constant S0 .f32 0x3F800000#32)))) i₁)
      ((fun x i => Host.gather g x i)
        (Host.rsqrt ((fun x i u => Host.scatterAdd d x i u) (broadcastInDim SN ![] hb0 (constant S0 .f32 0x3F800000#32)) idx
          (broadcastInDim SE ![] hb1 (constant S0 .f32 0x3F800000#32)))) i₂)) := by
  real_valued

/-- A dense layer with a bias and a relu: a contraction of real-valued arrays, plus a broadcast bias, against zero. -/
example (dd : DotDims SNK SKD SND) (x : FVec Ideal SNK .f32) (w : FVec Ideal SKD .f32) (b : FVec Ideal SD .f32)
    (hb0 : S0.BroadcastsInDim SND ![]) (hb1 : SD.BroadcastsInDim S1D ![1]) (hb2 : S1D.BroadcastsInDim SND ![0, 1])
    (hx : IsReal x) (hw : IsReal w) (hbias : IsReal b) :
    IsReal (maximumf (F := Ideal)
      (addf ((fun l r => Host.dotGeneral dd none l r) x w) (broadcastInDim SND ![0, 1] hb2 (broadcastInDim S1D ![1] hb1 b)))
      (broadcastInDim SND ![] hb0 (constant S0 .f32 0x00000000#32))) := by
  real_valued

/-- Labels read as floats, negated. -/
example (v : IVec SN 32) : IsReal (Host.negf (F := Ideal) (sitofp .f32 v)) := by
  real_valued

/-- A leaf the tactic does not know is left as a goal: here an input known finite by a precondition. -/
example (x y : FVec Ideal SN .f32) (hx : IsReal x) (hy : ∀ i, y i ≠ ⊤ ∧ y i ≠ ⊥) :
    IsReal (addf (F := Ideal) x (mulf y x)) := by
  real_valued
  exact isReal_of_finite hy

/-- A host program's term as such a program is written: generic in the float values, each operation applied at its
    buffers' contents types. -/
private def edgeWeights {F : FTy → Type} [FloatOps F] (d : ScatterDims SN SE1 SE) (g : GatherDims SN SE1 SE)
    (idx i₁ : IVec SE1 32) (hb0 : S0.BroadcastsInDim SN ![]) (hb1 : S0.BroadcastsInDim SE ![])
    (hbe : SE.BroadcastsInDim SE1 ![0]) (x : FVec F SE1 .f32) : FVec F SE1 .f32 :=
  (mulf : (⟨SE1, .f32⟩ : BufTy).Contents (Elt F) → (⟨SE1, .f32⟩ : BufTy).Contents (Elt F)
      → (⟨SE1, .f32⟩ : BufTy).Contents (Elt F))
    ((broadcastInDim SE1 ![0] hbe : (⟨SE, .f32⟩ : BufTy).Contents (Elt F) → (⟨SE1, .f32⟩ : BufTy).Contents (Elt F))
      (((fun x i => Host.gather g x i) : (⟨SN, .f32⟩ : BufTy).Contents (Elt F) → (⟨SE1, .i32⟩ : BufTy).Contents (Elt F)
          → (⟨SE, .f32⟩ : BufTy).Contents (Elt F))
        ((Host.rsqrt : (⟨SN, .f32⟩ : BufTy).Contents (Elt F) → (⟨SN, .f32⟩ : BufTy).Contents (Elt F))
          (((fun x i u => Host.scatterAdd d x i u) : (⟨SN, .f32⟩ : BufTy).Contents (Elt F)
              → (⟨SE1, .i32⟩ : BufTy).Contents (Elt F) → (⟨SE, .f32⟩ : BufTy).Contents (Elt F)
              → (⟨SN, .f32⟩ : BufTy).Contents (Elt F))
            ((broadcastInDim SN ![] hb0 : (⟨S0, .f32⟩ : BufTy).Contents (Elt F) → (⟨SN, .f32⟩ : BufTy).Contents (Elt F))
              (constant S0 .f32 0x3F800000#32))
            idx
            ((broadcastInDim SE ![] hb1 : (⟨S0, .f32⟩ : BufTy).Contents (Elt F) → (⟨SE, .f32⟩ : BufTy).Contents (Elt F))
              (constant S0 .f32 0x3F800000#32))))
        i₁))
    x

/-- Read at the ideal values, that term is real-valued when its input is. -/
example (d : ScatterDims SN SE1 SE) (g : GatherDims SN SE1 SE) (idx i₁ : IVec SE1 32) (hb0 : S0.BroadcastsInDim SN ![])
    (hb1 : S0.BroadcastsInDim SE ![]) (hbe : SE.BroadcastsInDim SE1 ![0]) (x : FVec Ideal SE1 .f32) (hx : IsReal x) :
    IsReal (edgeWeights (F := Ideal) d g idx i₁ hb0 hb1 hbe x) := by
  unfold edgeWeights
  real_valued

end Usage

end RealValued
-- ==== Proof.Algebra.lean ====
/-
  The two orders of layer 2 agree on real inputs: the aggregation over in-neighbours and the division by the degree plus
  one are linear, so projecting a row by `w2` before them or after them gives the same row.
-/
import proofs.«422015_j20993800143187_3_alg».proof.Proof.Spec
import proofs.«422015_j20993800143187_3_alg».proof.Proof.LibIdealReal
import proofs.«422015_j20993800143187_3_alg».proof.Proof.LibRealValued

set_option maxRecDepth 16384

noncomputable section

namespace Cert.Sage

open Idealize.ShloMosaic
open scoped BigOperators

/-! ## The law in ℝ, over abstract index types

  Edges `E`, nodes `N`, columns `J`; `L e` says that edge `e` lands on the node in hand, `σ e` is the row it reads. -/

section Law
variable {E N J : Type*} [Fintype E] [Fintype J]

/-- Aggregating the projected rows is projecting the aggregated rows: the sum over the edges and the sum over the
    columns change places (a summand guarded by `L e` commutes with both), and the division by a common number
    distributes over the sum over the columns. -/
private theorem project_agg_real (L : E → Prop) [DecidablePred L] (σ : E → N) (h : N → J → ℝ) (w : J → ℝ) (k : N)
    (d : ℝ) :
    ((∑ e, if L e then ∑ j, h (σ e) j * w j else 0) + ∑ j, h k j * w j) / d
      = ∑ j, ((∑ e, if L e then h (σ e) j else 0) + h k j) / d * w j := by
  have hcol : ∀ j, (∑ e, if L e then h (σ e) j else 0) * w j = ∑ e, if L e then h (σ e) j * w j else 0 := by
    intro j
    rw [Finset.sum_mul]
    refine Finset.sum_congr rfl fun e _ => ?_
    split_ifs
    · rfl
    · exact zero_mul _
  have hswap : (∑ e, if L e then ∑ j, h (σ e) j * w j else 0)
      = ∑ j, (∑ e, if L e then h (σ e) j else 0) * w j := by
    rw [Finset.sum_congr rfl fun j _ => hcol j, Finset.sum_comm]
    refine Finset.sum_congr rfl fun e _ => ?_
    split_ifs
    · rfl
    · exact Finset.sum_const_zero.symm
  rw [hswap, ← Finset.sum_add_distrib, Finset.sum_div]
  refine Finset.sum_congr rfl fun j _ => ?_
  ring

end Law

/-! ## Real numbers among the extended reals -/

/-- The greater of two embedded reals is the embedding of the greater. -/
private theorem max_coe (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- A finite sum of real numbers that are not negative is such a number. -/
private theorem nonneg_sum {κ : Type*} (s : Finset κ) (f : κ → EReal)
    (h : ∀ a ∈ s, ∃ r : ℝ, 0 ≤ r ∧ f a = (r : EReal)) : ∃ r : ℝ, 0 ≤ r ∧ ∑ a ∈ s, f a = (r : EReal) :=
  Finset.sum_induction f (fun a => ∃ r : ℝ, 0 ≤ r ∧ a = (r : EReal))
    (fun _ _ ⟨p, hp, ha⟩ ⟨q, hq, hb⟩ => ⟨p + q, add_nonneg hp hq, by rw [ha, hb, EReal.coe_add]⟩)
    ⟨0, le_rfl, rfl⟩ h

/-- The clamp under the row norm is a positive real number: the pattern has sign 0, exponent 87 and fraction
    `0x0CBCCC`, so it denotes `(2 ^ 23 + 834764) · 2 ^ (-63)`. -/
private theorem eps_pos : ∃ r : ℝ, 0 < r ∧ eps = (r : EReal) := by
  refine ⟨(9223372 : ℝ) * (2 : ℝ) ^ (-63 : ℤ), by positivity, ?_⟩
  simp [eps, Ideal.ofBits, Ideal.ieee, -EReal.coe_mul]

section Edges
variable (src dst : Fin 1600000 → BitVec 32)

/-- The degree of a node is a real number that is not negative: a finite sum of ones and zeros. -/
private theorem deg_nonneg (k : Fin 100000) : ∃ r : ℝ, 0 ≤ r ∧ deg dst k = (r : EReal) := by
  unfold deg
  refine nonneg_sum _ _ fun e _ => ?_
  split_ifs
  · exact ⟨1, zero_le_one, rfl⟩
  · exact ⟨0, le_rfl, rfl⟩

/-- The degree plus one is a real number other than zero. -/
private theorem deg_succ (k : Fin 100000) : ∃ D : ℝ, D ≠ 0 ∧ deg dst k + 1 = (D : EReal) := by
  obtain ⟨r, hr, h⟩ := deg_nonneg dst k
  exact ⟨r + 1, by positivity, by rw [h, EReal.coe_add, EReal.coe_one]⟩

/-- The aggregate of embedded reals is the embedding of the real aggregate. -/
private theorem agg_coe (f : Fin 100000 → ℝ) (k : Fin 100000) :
    agg src dst (fun r => (f r : EReal)) k
      = ((∑ e : Fin 1600000, if lands dst e k then f (srcRow (src e)) else 0 : ℝ) : EReal) := by
  unfold agg
  rw [IdealReal.coe_sum]
  refine Finset.sum_congr rfl fun e _ => ?_
  split_ifs
  · rfl
  · rfl

/-- The mean over a node and its in-neighbours of real rows is real. -/
private theorem meanAgg_real {C : ℕ} (f : Fin 100000 → Fin C → EReal) (hf : ∀ r q, ∃ a : ℝ, f r q = (a : EReal))
    (k : Fin 100000) (q : Fin C) : ∃ a : ℝ, meanAgg src dst f k q = (a : EReal) := by
  choose F hF using hf
  obtain rfl : f = fun r q => (F r q : EReal) := funext fun r => funext fun q => hF r q
  obtain ⟨D, hD, hDe⟩ := deg_succ dst k
  refine ⟨((∑ e : Fin 1600000, if lands dst e k then F (srcRow (src e)) q else 0) + F k q) / D, ?_⟩
  unfold meanAgg
  rw [hDe, agg_coe src dst (fun r => F r q) k, ← EReal.coe_add, IdealReal.div_coe_coe _ _ hD]

end Edges

section Layer1
variable (hn : Fin 100000 → Fin 23 → EReal) (w1 : Fin 23 → Fin 128 → EReal) (b1 : Fin 128 → EReal)
  (hhn : ∀ k q, ∃ r : ℝ, hn k q = (r : EReal)) (hw1 : ∀ q j, ∃ r : ℝ, w1 q j = (r : EReal))
  (hb1 : ∀ j, ∃ r : ℝ, b1 j = (r : EReal))

include hhn hw1 hb1

/-- Layer 1 before the normalisation is a real number that is not negative: a maximum of a real number with zero. -/
private theorem pre1_nonneg (k : Fin 100000) (j : Fin 128) : ∃ r : ℝ, 0 ≤ r ∧ pre1 hn w1 b1 k j = (r : EReal) := by
  obtain ⟨s, hs⟩ := RealValued.real_add
    (RealValued.isReal_sum_univ (fun q : Fin 23 => hn k q * w1 q j) fun q => RealValued.real_mul (hhn k q) (hw1 q j))
    (hb1 j)
  refine ⟨max s 0, le_max_right _ _, ?_⟩
  unfold pre1
  rw [hs]
  exact max_coe s 0

/-- The clamped row norm is a positive real number: the square root of a sum of squares, kept above the clamp. -/
private theorem nrm_pos (k : Fin 100000) : ∃ r : ℝ, 0 < r ∧ nrm hn w1 b1 k = (r : EReal) := by
  obtain ⟨s, hs0, hs⟩ := nonneg_sum Finset.univ (fun j : Fin 128 => pre1 hn w1 b1 k j * pre1 hn w1 b1 k j) fun j _ => by
    obtain ⟨p, _, hp⟩ := pre1_nonneg hn w1 b1 hhn hw1 hb1 k j
    exact ⟨p * p, mul_self_nonneg p, by rw [hp, EReal.coe_mul]⟩
  obtain ⟨ε, hε0, hε⟩ := eps_pos
  refine ⟨max (Real.sqrt s) ε, lt_max_of_lt_right hε0, ?_⟩
  unfold nrm
  rw [hs, hε, Ideal.sqrt_coe, if_neg (not_lt.mpr hs0)]
  exact max_coe _ _

/-- Layer 1's output is real: a real number over a positive real number. -/
private theorem h1_real (k : Fin 100000) (j : Fin 128) : ∃ r : ℝ, h1 hn w1 b1 k j = (r : EReal) := by
  obtain ⟨p, _, hp⟩ := pre1_nonneg hn w1 b1 hhn hw1 hb1 k j
  obtain ⟨n, hn0, hnn⟩ := nrm_pos hn w1 b1 hhn hw1 hb1 k
  refine ⟨p / n, ?_⟩
  unfold h1
  rw [hp, hnn, IdealReal.div_coe_coe _ _ hn0.ne']

end Layer1

/-! ## Layer 2 of any real rows -/

/-- For real rows `hh` and a real projection, the mean of the projected rows plus the bias is the projection of the
    mean rows plus the bias. -/
private theorem layer2_linear (src dst : Fin 1600000 → BitVec 32) (hh : Fin 100000 → Fin 128 → EReal)
    (w2 : Fin 128 → Fin 64 → EReal) (b2 : Fin 64 → EReal) (hhh : ∀ k j, ∃ r : ℝ, hh k j = (r : EReal))
    (hw2 : ∀ j c, ∃ r : ℝ, w2 j c = (r : EReal)) (k : Fin 100000) (c : Fin 64) :
    h2of (fun k c => agg src dst (fun r => ∑ j : Fin 128, hh r j * w2 j c) k) (fun k c => ∑ j : Fin 128, hh k j * w2 j c)
        (deg dst) b2 k c
      = (∑ j : Fin 128, meanAgg src dst hh k j * w2 j c) + b2 c := by
  choose H hH using hhh
  choose W hW using hw2
  obtain rfl : hh = fun k j => (H k j : EReal) := funext fun k => funext fun j => hH k j
  obtain rfl : w2 = fun j c => (W j c : EReal) := funext fun j => funext fun c => hW j c
  obtain ⟨D, hD, hDe⟩ := deg_succ dst k
  have hrow : ∀ r : Fin 100000, (∑ j : Fin 128, (H r j : EReal) * (W j c : EReal)) = ((∑ j : Fin 128, H r j * W j c : ℝ) : EReal) := by
    intro r
    rw [IdealReal.coe_sum]
    exact Finset.sum_congr rfl fun j _ => (EReal.coe_mul _ _).symm
  have hleft : Ideal.div (agg src dst (fun r => ∑ j : Fin 128, (H r j : EReal) * (W j c : EReal)) k
        + ∑ j : Fin 128, (H k j : EReal) * (W j c : EReal)) (deg dst k + 1)
      = ((((∑ e : Fin 1600000, if lands dst e k then ∑ j : Fin 128, H (srcRow (src e)) j * W j c else 0)
          + ∑ j : Fin 128, H k j * W j c) / D : ℝ) : EReal) := by
    rw [show (fun r => ∑ j : Fin 128, (H r j : EReal) * (W j c : EReal)) = fun r => ((∑ j : Fin 128, H r j * W j c : ℝ) : EReal)
        from funext hrow, hrow k, agg_coe src dst (fun r => ∑ j : Fin 128, H r j * W j c) k, hDe, ← EReal.coe_add,
      IdealReal.div_coe_coe _ _ hD]
  have hright : (∑ j : Fin 128, meanAgg src dst (fun k j => (H k j : EReal)) k j * (W j c : EReal))
      = ((∑ j : Fin 128, ((∑ e : Fin 1600000, if lands dst e k then H (srcRow (src e)) j else 0) + H k j) / D * W j c : ℝ) : EReal) := by
    rw [IdealReal.coe_sum]
    refine Finset.sum_congr rfl fun j _ => ?_
    unfold meanAgg
    rw [hDe, agg_coe src dst (fun r => H r j) k, ← EReal.coe_add, IdealReal.div_coe_coe _ _ hD, ← EReal.coe_mul]
  unfold h2of
  rw [hleft, hright, project_agg_real (fun e => lands dst e k) (fun e => srcRow (src e)) H (fun j => W j c) k D]

/-- With real features, weights and first bias, layer 2 is the same whether the rows are projected before the
    aggregation or after it. -/
theorem h2K_eq_h2R (x : Fin 100000 → Fin 23 → EReal) (w1 : Fin 23 → Fin 128 → EReal) (b1 : Fin 128 → EReal)
    (w2 : Fin 128 → Fin 64 → EReal) (b2 : Fin 64 → EReal) (src dst : Fin 1600000 → BitVec 32)
    (hx : ∀ k q, ∃ r : ℝ, x k q = (r : EReal)) (hw1 : ∀ q j, ∃ r : ℝ, w1 q j = (r : EReal))
    (hb1 : ∀ j, ∃ r : ℝ, b1 j = (r : EReal)) (hw2 : ∀ j c, ∃ r : ℝ, w2 j c = (r : EReal)) :
    h2K x w1 b1 w2 b2 src dst = h2R x w1 b1 w2 b2 src dst := by
  funext k c
  have hhn : ∀ k q, ∃ r : ℝ, hn0 x src dst k q = (r : EReal) := fun k q => meanAgg_real src dst x hx k q
  have hh1 : ∀ k j, ∃ r : ℝ, h1 (hn0 x src dst) w1 b1 k j = (r : EReal) :=
    fun k j => h1_real (hn0 x src dst) w1 b1 hhn hw1 hb1 k j
  exact layer2_linear src dst (h1 (hn0 x src dst) w1 b1) w2 b2 hh1 hw2 k c

end Cert.Sage

end
-- ==== Proof.Finite.lean ====
/-
  What the precondition says of the kernel's arguments: every entry of the features, of both weight arrays and of the
  first bias is a real number. The precondition tests, for each float argument, that every entry's absolute value lies
  below the pattern of plus infinity, and takes the conjunction; an extended real whose absolute value is below the top
  element is neither infinity.
-/
import Idealize.ShloMosaic.Lib.ValueIdx
import proofs.«422015_j20993800143187_3_alg».proof.Defs
import proofs.«422015_j20993800143187_3_alg».proof.Proof.KArgs
import proofs.«422015_j20993800143187_3_alg».proof.Proof.Gen.Pre_finite_inputs
import proofs.«422015_j20993800143187_3_alg».proof.Proof.LibRealValued
import Idealize.ShloMosaic.Lib.ReduceAll
import Idealize.ShloMosaic.Lib.Affine

set_option maxRecDepth 16384

noncomputable section

namespace Cert.Sage.K

open Idealize.ShloMosaic Idealize.ShloMosaic.TcCoe Idealize.SL.Sem Idealize.ShloMosaic.ValueIdx
open Cert.KernelIdeal Cert.KernelIdeal.Gen Cert.Sage
open scoped BigOperators

/-- The index set of a scalar has one element. -/
private instance : Subsingleton Cert.Pre_finite_inputs.S_.Idx := ⟨fun a b => funext fun d => d.elim0⟩

/-- The pattern the precondition compares against denotes the top element. -/
private theorem inf_word : Ideal.ofBits .f32 0x7F800000#32 = (⊤ : EReal) := by simp [Ideal.ofBits, Ideal.ieee]

/-- A comparison `a < b` that answers one holds. -/
private theorem lt_of_cmp_olt {a b : EReal} (h : Ideal.cmp .olt a b = 1#1) : a < b := by
  by_contra hn
  have h' : BitVec.ofBool (decide (a < b)) = 1#1 := h
  rw [decide_eq_false hn] at h'
  exact absurd h' (by decide)

/-- Where the test "the absolute value is below the pattern of plus infinity" answers one at an entry, that entry's
    absolute value is below the top element. -/
private theorem abs_lt_top {s : Shape} (x : FVec Ideal s .f32)
    (hb : Cert.Pre_finite_inputs.S_.BroadcastsInDim s (![] : Fin 0 → Fin s.rank)) (i : s.Idx)
    (h : (cmpf .olt (Host.absf x) (broadcastInDim s ![] hb (constant (F := Ideal) Cert.Pre_finite_inputs.S_ .f32 0x7F800000#32)) : IVec s 1) i = 1#1) :
    max (x i) (-(x i)) < ⊤ := by
  have h' : Ideal.cmp .olt (max (x i) (-(x i))) (Ideal.ofBits .f32 0x7F800000#32) = 1#1 := h
  rw [inf_word] at h'
  exact lt_of_cmp_olt h'

variable (m : (ℓ : Loc nD τ sig) → Buf (Elt Ideal) ℓ) (ρ : Dev nD → PrngReg)

/-- Under the precondition the float arguments hold real numbers. -/
theorem real_of_pre [hPre : Cert.Pre_finite_inputs.Facts] (h : Cert.Pre_KernelIdeal m) (c : Dev nD) :
    (∀ k q, ∃ r : ℝ, X m c k q = (r : EReal)) ∧ (∀ q j, ∃ r : ℝ, Wa m c q j = (r : EReal))
      ∧ (∀ j, ∃ r : ℝ, Ba m c j = (r : EReal)) ∧ (∀ j c', ∃ r : ℝ, Wb m c j c' = (r : EReal)) := by
  have h0 := congrFun (h c) ValueIdx.ix0
  dsimp only [Cert.Pre_finite_inputs.fn, Cert.Pre_finite_inputs.fn_part1] at h0
  obtain ⟨h1, -⟩ := IntOp.andi_eq_one.mp h0
  obtain ⟨h2, t3⟩ := IntOp.andi_eq_one.mp h1
  obtain ⟨h3, t2⟩ := IntOp.andi_eq_one.mp h2
  obtain ⟨t0, t1⟩ := IntOp.andi_eq_one.mp h3
  have r0 := RealValued.isReal_of_abs_lt_top fun i => abs_lt_top _ _ i (Host.reduce_andi_all _ _ _ _ ValueIdx.ix0 t0 i)
  have r1 := RealValued.isReal_of_abs_lt_top fun i => abs_lt_top _ _ i (Host.reduce_andi_all _ _ _ _ ValueIdx.ix0 t1 i)
  have r2 := RealValued.isReal_of_abs_lt_top fun i => abs_lt_top _ _ i (Host.reduce_andi_all _ _ _ _ ValueIdx.ix0 t2 i)
  have r3 := RealValued.isReal_of_abs_lt_top fun i => abs_lt_top _ _ i (Host.reduce_andi_all _ _ _ _ ValueIdx.ix0 t3 i)
  exact ⟨fun k q => r0 (ix2 k q), fun q j => r1 (ix2 q j), fun j => r2 (ix1 j), fun j c' => r3 (ix2 j c')⟩

end Cert.Sage.K

end
-- ==== Proof.lean ====
/-
  A two-layer mean-aggregation network on a graph of 100000 nodes and 1600000 edges, followed by the per-graph mean of
  the node rows, in two programs that are claimed equal on the extended reals whenever the float inputs are finite.

  Both programs take, for every node, the mean of its feature row and its in-neighbours' rows (an edge whose target id
  is not a node lands nowhere; a source id is wrapped from the end and clamped into the table), apply the first dense
  map, the positive part and the scaling of each row to unit Euclidean norm (the norm kept above a small constant), and
  then a second such mean followed by the second dense map. They differ in three places.
    * The degree. One program counts a node's incoming edges in 32-bit integers and reads the count as a float; the
      other adds up float ones. There are 1600000 edges, far fewer than 2^31, so the integer count cannot wrap.
    * The order of the second layer. One program multiplies the normalised rows by the second weights FIRST and
      aggregates the 64 projected columns; the other aggregates the 128 columns and multiplies the mean. Taking the
      sum over in-neighbours, adding the node's own row and dividing by the degree plus one are linear in the row, so
      they commute with a matrix product — provided every entry is a real number and the divisor is not zero. That is
      where the precondition is used: finite features, weights and bias make every intermediate entry real, the clamp
      under the norm keeps the norm positive, and the degree plus one is at least one.
    * The per-graph sum. One program adds each node's row to the row of its graph id (an id outside 0..63 lands
      nowhere); the other multiplies, block of 5000 nodes by block, the transposed 0/1 indicator "node r has id a" by
      the block's rows and accumulates the twenty products, resetting at the first block. The indicator compares the
      id word with the words 0..63, which is the same test; one times a row is the row and zero times a row is zero.
  The result is the per-graph sums over the per-graph node counts, an empty graph dividing by one.

  The word-level program and its idealization are the same text (the idealization rewrote nothing), so that claim is
  trivial; the three programs' runs and unchanged arguments come from their frames.
-/
import proofs.«422015_j20993800143187_3_alg».proof.Defs
import proofs.«422015_j20993800143187_3_alg».proof.Proof.Gen.Kernel
import proofs.«422015_j20993800143187_3_alg».proof.Proof.Gen.Kernel.Skeleton
import proofs.«422015_j20993800143187_3_alg».proof.Proof.Gen.Kernel.Launch
import proofs.«422015_j20993800143187_3_alg».proof.Proof.Gen.Kernel.Points
import proofs.«422015_j20993800143187_3_alg».proof.Proof.Gen.Kernel.Frame
import proofs.«422015_j20993800143187_3_alg».proof.Proof.Gen.KernelIdeal
import proofs.«422015_j20993800143187_3_alg».proof.Proof.Gen.KernelIdeal.Skeleton
import proofs.«422015_j20993800143187_3_alg».proof.Proof.Gen.KernelIdeal.Launch
import proofs.«422015_j20993800143187_3_alg».proof.Proof.Gen.KernelIdeal.Points
import proofs.«422015_j20993800143187_3_alg».proof.Proof.Gen.KernelIdeal.Frame
import proofs.«422015_j20993800143187_3_alg».proof.Proof.Gen.ReferenceIdeal
import proofs.«422015_j20993800143187_3_alg».proof.Proof.Gen.Pre_finite_inputs
import proofs.«422015_j20993800143187_3_alg».proof.Proof.Gen.ReferenceIdeal.Run
import proofs.«422015_j20993800143187_3_alg».proof.Proof.Gen.ReferenceIdeal.Read
import Idealize.ShloMosaic.Adequacy
import Idealize.ShloMosaic.Init
import proofs.«422015_j20993800143187_3_alg».proof.Proof.KernelRun
import proofs.«422015_j20993800143187_3_alg».proof.Proof.KernelValue
import proofs.«422015_j20993800143187_3_alg».proof.Proof.RefValue
import proofs.«422015_j20993800143187_3_alg».proof.Proof.Algebra
import proofs.«422015_j20993800143187_3_alg».proof.Proof.Finite
import Idealize.ShloMosaic.Lib.ValueIdx

noncomputable section

namespace Cert.Proof

open Idealize.ShloMosaic Idealize.ShloMosaic.TcCoe Idealize.SL.Sem Idealize.ShloMosaic.ValueIdx Cert.Sage

theorem frame_k [Cert.Kernel.Facts] [Cert.Pre_finite_inputs.Facts] : Cert.frame_Kernel :=
  fun m ρ _ => Cert.Kernel.Gen.frame m ρ

theorem frame_ki [Cert.KernelIdeal.Facts] [Cert.Pre_finite_inputs.Facts] : Cert.frame_KernelIdeal :=
  fun m ρ _ => Cert.KernelIdeal.Gen.frame m ρ

theorem frame_ri [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- From memories that agree on the eight arguments both programs end, with the same 64 × 64 array of per-graph means:
    entry `(a, c')` of the first is the mean of layer 2's rows in the order that projects first, of the second in the
    order that aggregates first, and on real inputs the two orders give the same rows. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => Cert.KernelIdeal.Gen.W5 m ρ c (Proc.devRef .tc Cert.KernelIdeal.main_v40),
    Cert.KernelIdeal.Gen.run_result m ρ, ?_⟩
  refine (θ_run Cert.ReferenceIdeal.defs _ _).mono (fun _ h c => ⟨(h c).1.trans ?_, (h c).2⟩)
    (Cert.ReferenceIdeal.Value.run (F := Ideal) m' ρ')
  obtain ⟨hx, hw1, hb1, hw2⟩ := Cert.Sage.K.real_of_pre m hpre c
  rw [Cert.ReferenceIdeal.Read.val_main_v65_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  funext i
  obtain ⟨a, c', rfl⟩ : ∃ (a c' : Fin 64), i = ix2 a c' := ⟨i 0, i 1, eq_ix2 i⟩
  refine (Cert.Sage.Ref.result_apply _ _ _ _ _ _ _ _ a c').trans ?_
  refine Eq.trans ?_ (Cert.Sage.K.result_apply m ρ c a c').symm
  rw [Cert.Sage.h2K_eq_h2R (Cert.Sage.K.X m c) (Cert.Sage.K.Wa m c) (Cert.Sage.K.Ba m c) (Cert.Sage.K.Wb m c)
    (Cert.Sage.K.Bb m c) (Cert.Sage.K.Src m c) (Cert.Sage.K.Dst m c) hx hw1 hb1 hw2]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
